-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x2048 : Shape := ⟨3, ![4, 1024, 2048]⟩
abbrev S4x1024 : Shape := ⟨2, ![4, 1024]⟩
abbrev S32000x2048 : Shape := ⟨2, ![32000, 2048]⟩
abbrev S_ : Shape := ⟨0, ![]⟩

class Facts : Prop where
  bcast_S_S4x1024x2048 : S_.BroadcastsInDim S4x1024x2048 (![] : Fin 0 → Fin S4x1024x2048.rank)
  reducesTo_S4x1024x2048_S_d0_1_2 : S4x1024x2048.ReducesTo [0, 1, 2] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_v8 : IVec S_ 1) (main_v16 : IVec S4x1024 1) : IVec S_ 1 :=
  let main_c_5 : IVec S_ 1 := constantI S_ 1 1#1
  let main_v17 : IVec S_ 1 := (fun x v => Host.reduce IntOp.andi x v reducesTo_S4x1024_S_d0_1 h_S_) main_v16 main_c_5
  let main_v18 : IVec S_ 1 := andi main_v8 main_v17
  main_v18

def fn {F : FTy → Type} [FloatOps F] (main_arg0 : FVec F S4x1024x2048 .f32) (main_arg1 : IVec S4x1024 32) (main_arg2 : FVec F S32000x2048 .f32) : IVec S_ 1 :=
  let main_v0 : FVec F S4x1024x2048 .f32 := Host.absf main_arg0
  let main_cst : FVec F S_ .f32 := constant S_ .f32 0x7F800000#32
  let main_v1 : FVec F S4x1024x2048 .f32 := broadcastInDim S4x1024x2048 ![] bcast_S_S4x1024x2048 main_cst
  let main_v2 : IVec S4x1024x2048 1 := cmpf .olt main_v0 main_v1
  let main_c : IVec S_ 1 := constantI S_ 1 1#1
  let main_v3 : IVec S_ 1 := (fun x v => Host.reduce IntOp.andi x v reducesTo_S4x1024x2048_S_d0_1_2 h_S_) main_v2 main_c
  let main_v4 : FVec F S32000x2048 .f32 := Host.absf main_arg2
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_c_2 : IVec S_ 32 := constantI S_ 32 0#32
  let main_v9 : IVec S4x1024 32 := broadcastInDim S4x1024 ![] bcast_S_S4x1024 main_c_2
  let main_v10 : IVec S4x1024 1 := cmpi .sge main_arg1 main_v9
  let main_c_3 : IVec S_ 32 := constantI S_ 32 32000#32
  let main_v11 : IVec S4x1024 32 := broadcastInDim S4x1024 ![] bcast_S_S4x1024 main_c_3
  let main_v12 : IVec S4x1024 1 := cmpi .slt main_arg1 main_v11
  let main_v13 : IVec S4x1024 1 := andi main_v10 main_v12
  let main_c_4 : IVec S_ 32 := constantI S_ 32 4294967196#32
  let main_v14 : IVec S4x1024 32 := broadcastInDim S4x1024 ![] bcast_S_S4x1024 main_c_4
  let main_v15 : IVec S4x1024 1 := cmpi .eq main_arg1 main_v14
  let main_v16 : IVec S4x1024 1 := ori main_v13 main_v15
  fn_part1 (F := F) main_v8 main_v16
-- ==== Kernel.lean ====
abbrev S4x1024x2048 : Shape := ⟨3, ![4, 1024, 2048]⟩
abbrev S4x1024 : Shape := ⟨2, ![4, 1024]⟩
abbrev S32000x2048 : Shape := ⟨2, ![32000, 2048]⟩
abbrev S4x256x2048 : Shape := ⟨3, ![4, 256, 2048]⟩
abbrev S4x256 : Shape := ⟨2, ![4, 256]⟩
abbrev S1280x2048 : Shape := ⟨2, ![1280, 2048]⟩
abbrev S4x256x1 : Shape := ⟨3, ![4, 256, 1]⟩
abbrev S1024x2048 : Shape := ⟨2, ![1024, 2048]⟩
abbrev S1024x1280 : Shape := ⟨2, ![1024, 1280]⟩
abbrev S4x256x1280 : Shape := ⟨3, ![4, 256, 1280]⟩
abbrev S_ : Shape := ⟨0, ![]⟩
abbrev S4 : Shape := ⟨1, ![4]⟩
abbrev S2 : Shape := ⟨1, ![2]⟩

abbrev nBuf : Space → Nat
  | .hbm => 46
  | .vmem => 10
  | .smem => 0
  | _ => 0

abbrev bufTy : (tb : Table) → Fin (tcTables nBuf tb) → BufTy
  | .hbm, ⟨0, _⟩ => ⟨S4x1024x2048, .f32⟩
  | .hbm, ⟨1, _⟩ => ⟨S4x1024, .i32⟩
  | .hbm, ⟨2, _⟩ => ⟨S32000x2048, .f32⟩
  | .hbm, ⟨3, _⟩ => ⟨S4x1024x2048, .bf16⟩
  | .hbm, ⟨4, _⟩ => ⟨S32000x2048, .bf16⟩
  | .hbm, ⟨5, _⟩ => ⟨S4x1024, .f32⟩
  | .hbm, ⟨6, _⟩ => ⟨S_, .i32⟩
  | .hbm, ⟨7, _⟩ => ⟨S4x1024, .i32⟩
  | .hbm, ⟨8, _⟩ => ⟨S4x1024, .i1⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S2, .f32⟩
  | .hbm, ⟨20, _⟩ => ⟨S2, .f32⟩
  | .hbm, ⟨21, _⟩ => ⟨S2, .f32⟩
  | .hbm, ⟨22, _⟩ => ⟨S_, .f32⟩
  | .hbm, ⟨23, _⟩ => ⟨S2, .f32⟩
  | .hbm, ⟨24, _⟩ => ⟨S2, .f32⟩
  | .hbm, ⟨25, _⟩ => ⟨S2, .f32⟩
  | .hbm, ⟨26, _⟩ => ⟨S_, .f32⟩
  | .hbm, ⟨27, _⟩ => ⟨S2, .f32⟩
  | .hbm, ⟨28, _⟩ => ⟨S2, .f32⟩
  | .hbm, ⟨29, _⟩ => ⟨S2, .f32⟩
  | .hbm, ⟨30, _⟩ => ⟨S2, .f32⟩
  | .hbm, ⟨31, _⟩ => ⟨S2, .i1⟩
  | .hbm, ⟨32, _⟩ => ⟨S2, .f32⟩
  | .hbm, ⟨33, _⟩ => ⟨S2, .f32⟩
  | .hbm, ⟨34, _⟩ => ⟨S2, .f32⟩
  | .hbm, ⟨35, _⟩ => ⟨S2, .f32⟩
  | .hbm, ⟨36, _⟩ => ⟨S2, .f32⟩
  | .hbm, ⟨37, _⟩ => ⟨S2, .f32⟩
  | .hbm, ⟨38, _⟩ => ⟨S2, .f32⟩
  | .hbm, ⟨39, _⟩ => ⟨S2, .f32⟩
  | .hbm, ⟨40, _⟩ => ⟨S2, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S4x256x2048, .bf16⟩
  | .local _ .vmem, ⟨1, _⟩ => ⟨S4x256, .i32⟩
  | .local _ .vmem, ⟨2, _⟩ => ⟨S4x256, .i32⟩
  | .local _ .vmem, ⟨3, _⟩ => ⟨S1280x2048, .bf16⟩
  | .local _ .vmem, ⟨4, _⟩ => ⟨S1280x2048, .bf16⟩
  | .local _ .vmem, ⟨5, _⟩ => ⟨S4x256, .f32⟩
  | .local _ .vmem, ⟨6, _⟩ => ⟨S4x256, .f32⟩
  | .local _ .vmem, ⟨7, _⟩ => ⟨S4x256x1, .f32⟩
  | .local _ .vmem, ⟨8, _⟩ => ⟨S4x256x1, .f32⟩
  | .local _ .vmem, ⟨9, _⟩ => ⟨S4x256x1, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_cst_4 : Ref sig .tc := ⟨.hbm, 44, rfl⟩
abbrev main_v20 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 25], ![false, false]⟩

def k0_cond2 (i : grid0.Coords) : BitVec 1 :=
  let arg1 : BitVec 32 := BitVec.ofNat 32 (i 1).val
  let c24_i32 : BitVec 32 := 24#32
  let v48 : BitVec 1 := Scalar.cmpi .eq arg1 c24_i32
  let v49 : BitVec 32 := Scalar.extui v48
  let c0_i32_32 : BitVec 32 := 0#32
  let v50 : BitVec 1 := Scalar.cmpi .ne v49 c0_i32_32
  v50

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S4x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1280x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  inb_S4x256x1_S4x256x1_0_0_0 : ∀ a, (![0, 0, 0] : Fin 3 → Nat) a + S4x256x1.size a ≤ S4x256x1.size a
  h_S4x256x1 : 0 < S4x256x1.numel
  shapeCasts_S4x256x1_S4x256x1 : S4x256x1.ShapeCasts S4x256x1
  inb_S4x256x2048_S4x256x2048_0_0_0 : ∀ a, (![0, 0, 0] : Fin 3 → Nat) a + S4x256x2048.size a ≤ S4x256x2048.size a
  h_S4x256x2048 : 0 < S4x256x2048.numel
  shapeCasts_S4x256x2048_S4x256x2048 : S4x256x2048.ShapeCasts S4x256x2048
  inb_S1280x2048_S1280x2048_0_0 : ∀ a, (![0, 0] : Fin 2 → Nat) a + S1280x2048.size a ≤ S1280x2048.size a
  h_S1280x2048 : 0 < S1280x2048.numel
  shapeCasts_S1280x2048_S1280x2048 : S1280x2048.ShapeCasts S1280x2048
  shapeCasts_S4x256x2048_S1024x2048 : S4x256x2048.ShapeCasts S1024x2048
  shapeCasts_S1024x1280_S4x256x1280 : S1024x1280.ShapeCasts S4x256x1280
  inb_S4x256_S4x256_0_0 : ∀ a, (![0, 0] : Fin 2 → Nat) a + S4x256.size a ≤ S4x256.size a
  h_S4x256 : 0 < S4x256.numel
  iota_S4x256x1280_d2_w32 : S4x256x1280.Iotas .tc 32 [2]
  shapeCasts_S4x256_S4x256x1 : S4x256.ShapeCasts S4x256x1
  broadcasts_S4x256x1_S4x256x1280 : S4x256x1.Broadcasts S4x256x1280
  reduces_S4x256x1280_S4x256 : S4x256x1280.Reduces [2] S4x256
  shapeCasts_S4x256x1_S4x256 : S4x256x1.ShapeCasts S4x256
  bcast_S_S4x1024 : S_.BroadcastsInDim S4x1024 (![] : Fin 0 → Fin S4x1024.rank)
  reducesTo_S4x1024_S4_d1 : S4x1024.ReducesTo [1] S4
  h_S_ : 0 < S_.numel
  bcast_S_S4 : S_.BroadcastsInDim S4 (![] : Fin 0 → Fin S4.rank)
  slices_S4_S2_0 : S4.Slices ![0] S2
  slices_S4_S2_2 : S4.Slices ![2] S2
  bcast_S_S2 : S_.BroadcastsInDim S2 (![] : Fin 0 → Fin S2.rank)
  reducesTo_S2_S_d0 : S2.ReducesTo [0] S_
  dot_S1024x2048_S1280x2048_S1024x1280_1_1_0_0_n_n_wf : DotDims.WF S1024x2048 S1280x2048 S1024x1280 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x256x2048.size a ≤ S4x1024x2048.size a
  hwx0_0 : ∀ i : grid0.Coords, EltTy.bits .bf16 = 32 ∨ (Rect.block (s := S4x1024x2048) S4x256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256.size a ≤ S4x1024.size a
  hwx0_1 : ∀ i : grid0.Coords, EltTy.bits .i32 = 32 ∨ (Rect.block (s := S4x1024) S4x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1280x2048.size a ≤ S32000x2048.size a
  hwx0_2 : ∀ i : grid0.Coords, EltTy.bits .bf16 = 32 ∨ (Rect.block (s := S32000x2048) S1280x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256.size a ≤ S4x1024.size a
  hwx0_3 : ∀ i : grid0.Coords, EltTy.bits .f32 = 32 ∨ (Rect.block (s := S4x1024) S4x256.size (cc0_transform_3 i) (hinb0_3 i)).WholeWords (EltTy.packing .f32)

variable [Facts₀]

def dot_S1024x2048_S1280x2048_S1024x1280_1_1_0_0_n_n : DotDims S1024x2048 S1280x2048 S1024x1280 where
  lhsContracting := [1]
  rhsContracting := [1]
  lhsNonContracting := [0]
  rhsNonContracting := [0]
  lhsBatch := []
  rhsBatch := []
  wf := dot_S1024x2048_S1280x2048_S1024x1280_1_1_0_0_n_n_wf

abbrev win0_0 : Pipeline.Window sig grid0 :=
  Pipeline.Window.ofSpec (Memref.whole main_v0) S4x256x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1280x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x1024x2048 : Shape := ⟨3, ![4, 1024, 2048]⟩
abbrev S4x1024 : Shape := ⟨2, ![4, 1024]⟩
abbrev S32000x2048 : Shape := ⟨2, ![32000, 2048]⟩
abbrev S4x1024x32000 : Shape := ⟨3, ![4, 1024, 32000]⟩
abbrev S_ : Shape := ⟨0, ![]⟩
abbrev S4x1024x1 : Shape := ⟨3, ![4, 1024, 1]⟩
abbrev S4x1024x1x1 : Shape := ⟨4, ![4, 1024, 1, 1]⟩
abbrev S1 : Shape := ⟨1, ![1]⟩
abbrev S1x1x1x1 : Shape := ⟨4, ![1, 1, 1, 1]⟩
abbrev S4 : Shape := ⟨1, ![4]⟩
abbrev S2 : Shape := ⟨1, ![2]⟩

abbrev nBuf : Space → Nat
  | .hbm => 85
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S4x1024, .i32⟩
  | .hbm, ⟨2, _⟩ => ⟨S32000x2048, .f32⟩
  | .hbm, ⟨3, _⟩ => ⟨S4x1024x32000, .f32⟩
  | .hbm, ⟨4, _⟩ => ⟨S_, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S4x1024x1, .f32⟩
  | .hbm, ⟨10, _⟩ => ⟨S4x1024x32000, .f32⟩
  | .hbm, ⟨11, _⟩ => ⟨S4x1024x32000, .f32⟩
  | .hbm, ⟨12, _⟩ => ⟨S4x1024x32000, .f32⟩
  | .hbm, ⟨13, _⟩ => ⟨S_, .f32⟩
  | .hbm, ⟨14, _⟩ => ⟨S4x1024, .f32⟩
  | .hbm, ⟨15, _⟩ => ⟨S4x1024x1, .f32⟩
  | .hbm, ⟨16, _⟩ => ⟨S4x1024x1, .f32⟩
  | .hbm, ⟨17, _⟩ => ⟨S4x1024x32000, .f32⟩
  | .hbm, ⟨18, _⟩ => ⟨S4x1024x32000, .f32⟩
  | .hbm, ⟨19, _⟩ => ⟨S4x1024x1, .i32⟩
  | .hbm, ⟨20, _⟩ => ⟨S_, .i32⟩
  | .hbm, ⟨21, _⟩ => ⟨S4x1024x1, .i32⟩
  | .hbm, ⟨22, _⟩ => ⟨S4x1024x1, .i1⟩
  | .hbm, ⟨23, _⟩ => ⟨S_, .i32⟩
  | .hbm, ⟨24, _⟩ => ⟨S4x1024x1, .i32⟩
  | .hbm, ⟨25, _⟩ => ⟨S4x1024x1, .i32⟩
  | .hbm, ⟨26, _⟩ => ⟨S4x1024x1, .i32⟩
  | .hbm, ⟨27, _⟩ => ⟨S4x1024x1x1, .i32⟩
  | .hbm, ⟨28, _⟩ => ⟨S1, .i32⟩
  | .hbm, ⟨29, _⟩ => ⟨S_, .i32⟩
  | .hbm, ⟨30, _⟩ => ⟨S4x1024x1x1, .i32⟩
  | .hbm, ⟨31, _⟩ => ⟨S4x1024x1x1, .i1⟩
  | .hbm, ⟨32, _⟩ => ⟨S1x1x1x1, .i32⟩
  | .hbm, ⟨33, _⟩ => ⟨S4x1024x1x1, .i32⟩
  | .hbm, ⟨34, _⟩ => ⟨S4x1024x1x1, .i1⟩
  | .hbm, ⟨35, _⟩ => ⟨S4x1024x1x1, .i1⟩
  | .hbm, ⟨36, _⟩ => ⟨S_, .i1⟩
  | .hbm, ⟨37, _⟩ => ⟨S4x1024x1, .i1⟩
  | .hbm, ⟨38, _⟩ => ⟨S4x1024x1, .f32⟩
  | .hbm, ⟨39, _⟩ => ⟨S_, .f32⟩
  | .hbm, ⟨40, _⟩ => ⟨S4x1024x1, .f32⟩
  | .hbm, ⟨41, _⟩ => ⟨S4x1024x1, .f32⟩
  | .hbm, ⟨42, _⟩ => ⟨S4x1024, .f32⟩
  | .hbm, ⟨43, _⟩ => ⟨S_, .i32⟩
  | .hbm, ⟨44, _⟩ => ⟨S4x1024, .i32⟩
  | .hbm, ⟨45, _⟩ => ⟨S4x1024, .i1⟩
  | .hbm, ⟨46, _⟩ => ⟨S4x1024, .f32⟩
  | .hbm, ⟨47, _⟩ => ⟨S4x1024, .f32⟩
  | .hbm, ⟨48, _⟩ => ⟨S_, .f32⟩
  | .hbm, ⟨49, _⟩ => ⟨S4, .f32⟩
  | .hbm, ⟨50, _⟩ => ⟨S4x1024, .i32⟩
  | .hbm, ⟨51, _⟩ => ⟨S_, .i32⟩
  | .hbm, ⟨52, _⟩ => ⟨S4, .i32⟩
  | .hbm, ⟨53, _⟩ => ⟨S_, .i32⟩
  | .hbm, ⟨54, _⟩ => ⟨S4, .i32⟩
  | .hbm, ⟨55, _⟩ => ⟨S4, .i32⟩
  | .hbm, ⟨56, _⟩ => ⟨S4, .f32⟩
  | .hbm, ⟨57, _⟩ => ⟨S4, .f32⟩
  | .hbm, ⟨58, _⟩ => ⟨S2, .f32⟩
  | .hbm, ⟨59, _⟩ => ⟨S2, .f32⟩
  | .hbm, ⟨60, _⟩ => ⟨S2, .f32⟩
  | .hbm, ⟨61, _⟩ => ⟨S_, .f32⟩
  | .hbm, ⟨62, _⟩ => ⟨S2, .f32⟩
  | .hbm, ⟨63, _⟩ => ⟨S2, .f32⟩
  | .hbm, ⟨64, _⟩ => ⟨S2, .f32⟩
  | .hbm, ⟨65, _⟩ => ⟨S_, .f32⟩
  | .hbm, ⟨66, _⟩ => ⟨S2, .f32⟩
  | .hbm, ⟨67, _⟩ => ⟨S2, .f32⟩
  | .hbm, ⟨68, _⟩ => ⟨S2, .f32⟩
  | .hbm, ⟨69, _⟩ => ⟨S2, .f32⟩
  | .hbm, ⟨70, _⟩ => ⟨S2, .i1⟩
  | .hbm, ⟨71, _⟩ => ⟨S2, .f32⟩
  | .hbm, ⟨72, _⟩ => ⟨S2, .f32⟩
  | .hbm, ⟨73, _⟩ => ⟨S2, .f32⟩
  | .hbm, ⟨74, _⟩ => ⟨S2, .f32⟩
  | .hbm, ⟨75, _⟩ => ⟨S2, .f32⟩
  | .hbm, ⟨76, _⟩ => ⟨S2, .f32⟩
  | .hbm, ⟨77, _⟩ => ⟨S2, .f32⟩
  | .hbm, ⟨78, _⟩ => ⟨S2, .f32⟩
  | .hbm, ⟨79, _⟩ => ⟨S2, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_v2 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v3 : Ref sig .tc := ⟨.hbm, 41, rfl⟩
abbrev main_v4 : Ref sig .tc := ⟨.hbm, 42, rfl⟩
abbrev main_c : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_cst : Ref sig .tc := ⟨.hbm, 48, rfl⟩
abbrev main_v9 : Ref sig .tc := ⟨.hbm, 49, rfl⟩
abbrev main_v10 : Ref sig .tc := ⟨.hbm, 50, rfl⟩
abbrev main_c_0 : Ref sig .tc := ⟨.hbm, 51, rfl⟩
abbrev main_v11 : Ref sig .tc := ⟨.hbm, 52, rfl⟩
abbrev main_c_1 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_cst_2 : Ref sig .tc := ⟨.hbm, 61, rfl⟩
abbrev main_v19 : Ref sig .tc := ⟨.hbm, 62, rfl⟩
abbrev main_v20 : Ref sig .tc := ⟨.hbm, 63, rfl⟩
abbrev main_call2_v0 : Ref sig .tc := ⟨.hbm, 64, rfl⟩
abbrev main_call2_call0_cst : Ref sig .tc := ⟨.hbm, 65, rfl⟩
abbrev main_call2_call0_v0 : Ref sig .tc := ⟨.hbm, 66, rfl⟩
abbrev main_call2_call0_v1 : Ref sig .tc := ⟨.hbm, 67, rfl⟩
abbrev main_call2_call0_v2 : Ref sig .tc := ⟨.hbm, 68, rfl⟩
abbrev main_call2_call0_v3 : Ref sig .tc := ⟨.hbm, 69, rfl⟩
abbrev main_call2_call0_v4 : Ref sig .tc := ⟨.hbm, 70, rfl⟩
abbrev main_call2_call0_v5 : Ref sig .tc := ⟨.hbm, 71, rfl⟩
abbrev main_call2_call0_v6 : Ref sig .tc := ⟨.hbm, 72, rfl⟩
abbrev main_call2_call0_v7 : Ref sig .tc := ⟨.hbm, 73, rfl⟩
abbrev main_call2_call0_v8 : Ref sig .tc := ⟨.hbm, 74, rfl⟩
abbrev main_call2_call0_v9 : Ref sig .tc := ⟨.hbm, 75, rfl⟩
abbrev main_call2_call0_v10 : Ref sig .tc := ⟨.hbm, 76, rfl⟩
abbrev main_call2_call0_v11 : Ref sig .tc := ⟨.hbm, 77, rfl⟩
abbrev main_call2_v1 : Ref sig .tc := ⟨.hbm, 78, rfl⟩
abbrev main_v21 : Ref sig .tc := ⟨.hbm, 79, rfl⟩
abbrev main_cst_3 : Ref sig .tc := ⟨.hbm, 80, rfl⟩
abbrev main_v22 : Ref sig .tc := ⟨.hbm, 81, rfl⟩
abbrev main_v23 : Ref sig .tc := ⟨.hbm, 82, rfl⟩
abbrev main_cst_4 : Ref sig .tc := ⟨.hbm, 83, rfl⟩
abbrev main_v24 : Ref sig .tc := ⟨.hbm, 84, rfl⟩

abbrev nD : Nat := 1
abbrev τ : Topo := Topo.v7x

variable {F : FTy → Type} [FloatOps F]

class Facts₀ : Prop where
  reducesTo_S4x1024x32000_S4x1024_d2 : S4x1024x32000.ReducesTo [2] S4x1024
  h_S_ : 0 < S_.numel
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  bcast_S4x1024x1_S4x1024x32000_0_1_2 : S4x1024x1.BroadcastsInDim S4x1024x32000 (![0, 1, 2] : Fin 3 → Fin S4x1024x32000.rank)
  bcast_S_S4x1024x1 : S_.BroadcastsInDim S4x1024x1 (![] : Fin 0 → Fin S4x1024x1.rank)
  shapeCasts_S4x1024x1_S4x1024x1x1 : S4x1024x1.ShapeCasts S4x1024x1x1
  bcast_S_S4x1024x1x1 : S_.BroadcastsInDim S4x1024x1x1 (![] : Fin 0 → Fin S4x1024x1x1.rank)
  bcast_S1_S1x1x1x1_3 : S1.BroadcastsInDim S1x1x1x1 (![3] : Fin 1 → Fin S1x1x1x1.rank)
  bcast_S1x1x1x1_S4x1024x1x1_0_1_2_3 : S1x1x1x1.BroadcastsInDim S4x1024x1x1 (![0, 1, 2, 3] : Fin 4 → Fin S4x1024x1x1.rank)
  reducesTo_S4x1024x1x1_S4x1024x1_d3 : S4x1024x1x1.ReducesTo [3] S4x1024x1
  shapeCasts_S4x1024x1_S4x1024 : S4x1024x1.ShapeCasts S4x1024
  reducesTo_S4x1024_S4_d1 : S4x1024.ReducesTo [1] S4
  natLt_1_32 : 1 < 32
  bcast_S_S4 : S_.BroadcastsInDim S4 (![] : Fin 0 → Fin S4.rank)
  slices_S4_S2_0 : S4.Slices ![0] S2
  slices_S4_S2_2 : S4.Slices ![2] S2
  bcast_S_S2 : S_.BroadcastsInDim S2 (![] : Fin 0 → Fin S2.rank)
  reducesTo_S2_S_d0 : S2.ReducesTo [0] S_
  dot_S4x1024x2048_S32000x2048_S4x1024x32000_2_1_01_0_n_n_wf : DotDims.WF S4x1024x2048 S32000x2048 S4x1024x32000 [2] [1] [0, 1] [0] [] []
  gather_S4x1024x32000_S4x1024x1x1_S4x1024x1_n_2_01_01_2_3_111_wf : GatherDims.WF S4x1024x32000 S4x1024x1x1 S4x1024x1 [] [2] [0, 1] [2] [0, 1] 3 ![1, 1, 1]

variable [Facts₀]

def dot_S4x1024x2048_S32000x2048_S4x1024x32000_2_1_01_0_n_n : DotDims S4x1024x2048 S32000x2048 S4x1024x32000 where
  lhsContracting := [2]
  rhsContracting := [1]
  lhsNonContracting := [0, 1]
  rhsNonContracting := [0]
  lhsBatch := []
  rhsBatch := []
  wf := dot_S4x1024x2048_S32000x2048_S4x1024x32000_2_1_01_0_n_n_wf
def gather_S4x1024x32000_S4x1024x1x1_S4x1024x1_n_2_01_01_2_3_111 : GatherDims S4x1024x32000 S4x1024x1x1 S4x1024x1 where
  offsetDims := []
  collapsedSliceDims := [2]
  operandBatchingDims := [0, 1]
  startIndicesBatchingDims := [0, 1]
  startIndexMap := [2]
  indexVectorDim := 3
  sliceSizes := ![1, 1, 1]
  wf := gather_S4x1024x32000_S4x1024x1x1_S4x1024x1_n_2_01_01_2_3_111_wf

class Facts : Prop extends Facts₀ where

variable [Facts]
-- ==== Proof.RefOps.lean ====
/-
  The reference program as a straight line of its 82 host operations, in three stretches: the logits and their
  log-softmax (16 operations, ending at `main_v1`), the label's entry of each row (24, ending at `main_v4`), and the
  masked row averages and the loss (42, ending at `main_v24`). Each called function's operations are listed at the call
  over that call's buffers. Every weakly fair execution terminates with each buffer at the three stretches' fold over
  the launch contents.
  The stretches are first listed as the program prints them — a called function's operations over typed references, whose
  transport of contents is the identity at a literal reference — and then over the bare references, with the same
  functions; the two lists are equal operation by operation.
-/
import proofs.«406065_j77429670412358_2_alg».proof.ReferenceIdeal
import Idealize.ShloMosaic.Lib.StableHlo.Run

noncomputable section

namespace Cert.ReferenceIdeal.Val

open Cert.ReferenceIdeal Cert.ReferenceIdeal.Facts₀ Idealize.ShloMosaic Idealize.ShloMosaic.TcCoe Idealize.SL.Sem Idealize.ShloMosaic.StableHlo

variable [Cert.ReferenceIdeal.Facts] {F : FTy → Type} [FloatOps F]

/-- The first stretch as printed: `log_softmax`'s operations over its call's typed references. -/
abbrev tops1 : List (HloOp τ sig (Elt F)) :=
  [ binary main_arg0 main_arg2 main_v0 ((fun l r => Host.dotGeneral dot_S4x1024x2048_S32000x2048_S4x1024x32000_2_1_01_0_n_n none l r) : (⟨S4x1024x2048, .f32⟩ : BufTy).Contents (Elt F) → (⟨S32000x2048, .f32⟩ : BufTy).Contents (Elt F) → (⟨S4x1024x32000, .f32⟩ : BufTy).Contents (Elt F)),
    TRef.nullary main_call0.cst (constant S_ .f32 0xFF800000#32),
    TRef.binary (.of main_v0 : TRef sig ⟨S4x1024x32000, .f32⟩) main_call0.cst main_call0.v0 (fun x v => Host.reduce FloatOps.maximumf x v reducesTo_S4x1024x32000_S4x1024_d2 h_S_),
    TRef.nullary main_call0.cst_0 (constant S_ .f32 0xFF800000#32),
    TRef.unary main_call0.cst_0 main_call0.v1 (broadcastInDim S4x1024 ![] bcast_S_S4x1024),
    TRef.binary main_call0.v1 main_call0.v0 main_call0.v2 maximumf,
    TRef.unary main_call0.v2 main_call0.v3 (broadcastInDim S4x1024x1 ![0, 1] bcast_S4x1024_S4x1024x1_0_1),
    TRef.unary main_call0.v3 main_call0.v4 (broadcastInDim S4x1024x32000 ![0, 1, 2] bcast_S4x1024x1_S4x1024x32000_0_1_2),
    TRef.binary (.of main_v0 : TRef sig ⟨S4x1024x32000, .f32⟩) main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S4x1024x32000_S4x1024_d2 h_S_),
    TRef.unary main_call0.v7 main_call0.v8 (broadcastInDim S4x1024x1 ![0, 1] bcast_S4x1024_S4x1024x1_0_1),
    TRef.unary main_call0.v8 main_call0.v9 Host.log,
    TRef.unary main_call0.v9 main_call0.v10 (broadcastInDim S4x1024x32000 ![0, 1, 2] bcast_S4x1024x1_S4x1024x32000_0_1_2),
    TRef.binary main_call0.v5 main_call0.v10 main_call0.v11 subf ]

/-- The second stretch as printed: `take_along_axis`'s operations over its call's typed references. -/
abbrev tops2 : List (HloOp τ sig (Elt F)) :=
  [ unary main_arg1 main_v2 (broadcastInDim S4x1024x1 ![0, 1] bcast_S4x1024_S4x1024x1_0_1 : (⟨S4x1024, .i32⟩ : BufTy).Contents (Elt F) → (⟨S4x1024x1, .i32⟩ : BufTy).Contents (Elt F)),
    TRef.nullary main_call1.c (constantI S_ 32 0#32),
    TRef.unary main_call1.c main_call1.v0 (broadcastInDim S4x1024x1 ![] bcast_S_S4x1024x1),
    TRef.binary (.of main_v2 : TRef sig ⟨S4x1024x1, .i32⟩) main_call1.v0 main_call1.v1 (cmpi .slt),
    TRef.nullary main_call1.c_0 (constantI S_ 32 32000#32),
    TRef.unary main_call1.c_0 main_call1.v2 (broadcastInDim S4x1024x1 ![] bcast_S_S4x1024x1),
    TRef.binary (.of main_v2 : TRef sig ⟨S4x1024x1, .i32⟩) main_call1.v2 main_call1.v3 addi,
    TRef.ternary main_call1.v1 main_call1.v3 (.of main_v2 : TRef sig ⟨S4x1024x1, .i32⟩) main_call1.v4 select,
    TRef.reshape main_call1.v4 main_call1.v5 rfl shapeCasts_S4x1024x1_S4x1024x1x1,
    TRef.nullary main_call1.c_1 (constantI S1 32 31999#32),
    TRef.nullary main_call1.c_2 (constantI S_ 32 0#32),
    TRef.unary main_call1.c_2 main_call1.v6 (broadcastInDim S4x1024x1x1 ![] bcast_S_S4x1024x1x1),
    TRef.binary main_call1.v5 main_call1.v6 main_call1.v7 (cmpi .sge),
    TRef.unary main_call1.c_1 main_call1.v8 (broadcastInDim S1x1x1x1 ![3] bcast_S1_S1x1x1x1_3),
    TRef.unary main_call1.v8 main_call1.v9 (broadcastInDim S4x1024x1x1 ![0, 1, 2, 3] bcast_S1x1x1x1_S4x1024x1x1_0_1_2_3),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4x1024x1x1_S4x1024x1_d3 h_S_),
    TRef.binary (.of main_v1 : TRef sig ⟨S4x1024x32000, .f32⟩) main_call1.v5 main_call1.v13 (fun x i => Host.gather gather_S4x1024x32000_S4x1024x1x1_S4x1024x1_n_2_01_01_2_3_111 x i),
    TRef.nullary main_call1.cst (constant S_ .f32 0x7FC00000#32),
    TRef.unary main_call1.cst main_call1.v14 (broadcastInDim S4x1024x1 ![] bcast_S_S4x1024x1),
    TRef.ternary main_call1.v12 main_call1.v13 main_call1.v14 main_call1.v15 select,
    reshape main_v3 main_v4 rfl shapeCasts_S4x1024x1_S4x1024 ]

/-- The third stretch as printed: `log_sigmoid`'s and `softplus`'s operations over their calls' typed references. -/
abbrev tops3 : List (HloOp τ sig (Elt F)) :=
  [ nullary main_c (constantI S_ 32 4294967196#32),
    unary main_c main_v5 (broadcastInDim S4x1024 ![] bcast_S_S4x1024 : (⟨S_, .i32⟩ : BufTy).Contents (Elt F) → (⟨S4x1024, .i32⟩ : BufTy).Contents (Elt F)),
    binary main_arg1 main_v5 main_v6 (cmpi .ne : (⟨S4x1024, .i32⟩ : BufTy).Contents (Elt F) → (⟨S4x1024, .i32⟩ : BufTy).Contents (Elt F) → (⟨S4x1024, .i1⟩ : BufTy).Contents (Elt F)),
    unary main_v6 main_v7 (uitofp .f32 : (⟨S4x1024, .i1⟩ : BufTy).Contents (Elt F) → (⟨S4x1024, .f32⟩ : BufTy).Contents (Elt F)),
    binary main_v4 main_v7 main_v8 (mulf : (⟨S4x1024, .f32⟩ : BufTy).Contents (Elt F) → (⟨S4x1024, .f32⟩ : BufTy).Contents (Elt F) → (⟨S4x1024, .f32⟩ : BufTy).Contents (Elt F)),
    nullary main_cst (constant S_ .f32 0x00000000#32),
    binary main_v8 main_cst main_v9 ((fun x v => Host.reduceAdd x v reducesTo_S4x1024_S4_d1 h_S_) : (⟨S4x1024, .f32⟩ : BufTy).Contents (Elt F) → (⟨S_, .f32⟩ : BufTy).Contents (Elt F) → (⟨S4, .f32⟩ : BufTy).Contents (Elt F)),
    unary main_v6 main_v10 ((extui 32 · natLt_1_32) : (⟨S4x1024, .i1⟩ : BufTy).Contents (Elt F) → (⟨S4x1024, .i32⟩ : BufTy).Contents (Elt F)),
    nullary main_c_0 (constantI S_ 32 0#32),
    binary main_v10 main_c_0 main_v11 ((fun x v => Host.reduce IntOp.addi x v reducesTo_S4x1024_S4_d1 h_S_) : (⟨S4x1024, .i32⟩ : BufTy).Contents (Elt F) → (⟨S_, .i32⟩ : BufTy).Contents (Elt F) → (⟨S4, .i32⟩ : BufTy).Contents (Elt F)),
    nullary main_c_1 (constantI S_ 32 1#32),
    unary main_c_1 main_v12 (broadcastInDim S4 ![] bcast_S_S4 : (⟨S_, .i32⟩ : BufTy).Contents (Elt F) → (⟨S4, .i32⟩ : BufTy).Contents (Elt F)),
    binary main_v11 main_v12 main_v13 (maxsi : (⟨S4, .i32⟩ : BufTy).Contents (Elt F) → (⟨S4, .i32⟩ : BufTy).Contents (Elt F) → (⟨S4, .i32⟩ : BufTy).Contents (Elt F)),
    unary main_v13 main_v14 (sitofp .f32 : (⟨S4, .i32⟩ : BufTy).Contents (Elt F) → (⟨S4, .f32⟩ : BufTy).Contents (Elt F)),
    binary main_v9 main_v14 main_v15 (Host.divf : (⟨S4, .f32⟩ : BufTy).Contents (Elt F) → (⟨S4, .f32⟩ : BufTy).Contents (Elt F) → (⟨S4, .f32⟩ : BufTy).Contents (Elt F)),
    unary main_v15 main_v16 ((extractStridedSlice S2 ![0] · slices_S4_S2_0) : (⟨S4, .f32⟩ : BufTy).Contents (Elt F) → (⟨S2, .f32⟩ : BufTy).Contents (Elt F)),
    unary main_v15 main_v17 ((extractStridedSlice S2 ![2] · slices_S4_S2_2) : (⟨S4, .f32⟩ : BufTy).Contents (Elt F) → (⟨S2, .f32⟩ : BufTy).Contents (Elt F)),
    binary main_v16 main_v17 main_v18 (subf : (⟨S2, .f32⟩ : BufTy).Contents (Elt F) → (⟨S2, .f32⟩ : BufTy).Contents (Elt F) → (⟨S2, .f32⟩ : BufTy).Contents (Elt F)),
    nullary main_cst_2 (constant S_ .f32 0x3DCCCCCD#32),
    unary main_cst_2 main_v19 (broadcastInDim S2 ![] bcast_S_S2 : (⟨S_, .f32⟩ : BufTy).Contents (Elt F) → (⟨S2, .f32⟩ : BufTy).Contents (Elt F)),
    binary main_v19 main_v18 main_v20 (mulf : (⟨S2, .f32⟩ : BufTy).Contents (Elt F) → (⟨S2, .f32⟩ : BufTy).Contents (Elt F) → (⟨S2, .f32⟩ : BufTy).Contents (Elt F)),
    TRef.unary (.of main_v20 : TRef sig ⟨S2, .f32⟩) main_call2.v0 Host.negf,
    TRef.nullary main_call2.call0.cst (constant S_ .f32 0x00000000#32),
    TRef.unary main_call2.call0.cst main_call2.call0.v0 (broadcastInDim S2 ![] bcast_S_S2),
    TRef.binary main_call2.v0 main_call2.call0.v0 main_call2.call0.v1 maximumf,
    TRef.unary main_call2.call0.cst main_call2.call0.v2 (broadcastInDim S2 ![] bcast_S_S2),
    TRef.binary main_call2.v0 main_call2.call0.v2 main_call2.call0.v3 subf,
    TRef.binary main_call2.call0.v3 main_call2.call0.v3 main_call2.call0.v4 (cmpf .une),
    TRef.unary main_call2.call0.cst main_call2.call0.v5 (broadcastInDim S2 ![] bcast_S_S2),
    TRef.binary main_call2.v0 main_call2.call0.v5 main_call2.call0.v6 addf,
    TRef.unary main_call2.call0.v3 main_call2.call0.v7 Host.absf,
    TRef.unary main_call2.call0.v7 main_call2.call0.v8 Host.negf,
    TRef.unary main_call2.call0.v8 main_call2.call0.v9 Host.exp,
    TRef.unary main_call2.call0.v9 main_call2.call0.v10 Host.log1p,
    TRef.binary main_call2.call0.v1 main_call2.call0.v10 main_call2.call0.v11 addf,
    TRef.ternary main_call2.call0.v4 main_call2.call0.v6 main_call2.call0.v11 main_call2.call0.v12 select,
    TRef.unary main_call2.call0.v12 main_call2.v2 Host.negf,
    nullary main_cst_3 (constant S_ .f32 0x00000000#32),
    binary main_v21 main_cst_3 main_v22 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    unary main_v22 main_v23 (Host.negf : (⟨S_, .f32⟩ : BufTy).Contents (Elt F) → (⟨S_, .f32⟩ : BufTy).Contents (Elt F)),
    nullary main_cst_4 (constant S_ .f32 0x40000000#32),
    binary main_v23 main_cst_4 main_v24 (Host.divf : (⟨S_, .f32⟩ : BufTy).Contents (Elt F) → (⟨S_, .f32⟩ : BufTy).Contents (Elt F) → (⟨S_, .f32⟩ : BufTy).Contents (Elt F)) ]

set_option maxRecDepth 4096 in
/-- @main is the three stretches in order: the functions unfold at their calls, the records at their fields. -/
theorem main_eqT (c : Dev nD) : main (F := F) c = seq (tops1 ++ (tops2 ++ tops3)) := by
  rw [seq_append, seq_append]
  rfl

/-- The logits `X · Wᵀ` and their log-softmax along the vocabulary axis. -/
abbrev ops1 : List (HloOp τ sig (Elt F)) :=
  [ binary main_arg0 main_arg2 main_v0 ((fun l r => Host.dotGeneral dot_S4x1024x2048_S32000x2048_S4x1024x32000_2_1_01_0_n_n none l r) : (⟨S4x1024x2048, .f32⟩ : BufTy).Contents (Elt F) → (⟨S32000x2048, .f32⟩ : BufTy).Contents (Elt F) → (⟨S4x1024x32000, .f32⟩ : BufTy).Contents (Elt F)),
    nullary main_call0_cst (constant S_ .f32 0xFF800000#32),
    binary main_v0 main_call0_cst main_call0_v0 ((fun x v => Host.reduce FloatOps.maximumf x v reducesTo_S4x1024x32000_S4x1024_d2 h_S_) : (⟨S4x1024x32000, .f32⟩ : BufTy).Contents (Elt F) → (⟨S_, .f32⟩ : BufTy).Contents (Elt F) → (⟨S4x1024, .f32⟩ : BufTy).Contents (Elt F)),
    nullary main_call0_cst_0 (constant S_ .f32 0xFF800000#32),
    unary main_call0_cst_0 main_call0_v1 ((broadcastInDim S4x1024 ![] bcast_S_S4x1024) : (⟨S_, .f32⟩ : BufTy).Contents (Elt F) → (⟨S4x1024, .f32⟩ : BufTy).Contents (Elt F)),
    binary main_call0_v1 main_call0_v0 main_call0_v2 (maximumf : (⟨S4x1024, .f32⟩ : BufTy).Contents (Elt F) → (⟨S4x1024, .f32⟩ : BufTy).Contents (Elt F) → (⟨S4x1024, .f32⟩ : BufTy).Contents (Elt F)),
    unary main_call0_v2 main_call0_v3 ((broadcastInDim S4x1024x1 ![0, 1] bcast_S4x1024_S4x1024x1_0_1) : (⟨S4x1024, .f32⟩ : BufTy).Contents (Elt F) → (⟨S4x1024x1, .f32⟩ : BufTy).Contents (Elt F)),
    unary main_call0_v3 main_call0_v4 ((broadcastInDim S4x1024x32000 ![0, 1, 2] bcast_S4x1024x1_S4x1024x32000_0_1_2) : (⟨S4x1024x1, .f32⟩ : BufTy).Contents (Elt F) → (⟨S4x1024x32000, .f32⟩ : BufTy).Contents (Elt F)),
    binary main_v0 main_call0_v4 main_call0_v5 (subf : (⟨S4x1024x32000, .f32⟩ : BufTy).Contents (Elt F) → (⟨S4x1024x32000, .f32⟩ : BufTy).Contents (Elt F) → (⟨S4x1024x32000, .f32⟩ : BufTy).Contents (Elt F)),
    unary main_call0_v5 main_call0_v6 (Host.exp : (⟨S4x1024x32000, .f32⟩ : BufTy).Contents (Elt F) → (⟨S4x1024x32000, .f32⟩ : BufTy).Contents (Elt F)),
    nullary main_call0_cst_1 (constant S_ .f32 0x00000000#32),
    binary main_call0_v6 main_call0_cst_1 main_call0_v7 ((fun x v => Host.reduceAdd x v reducesTo_S4x1024x32000_S4x1024_d2 h_S_) : (⟨S4x1024x32000, .f32⟩ : BufTy).Contents (Elt F) → (⟨S_, .f32⟩ : BufTy).Contents (Elt F) → (⟨S4x1024, .f32⟩ : BufTy).Contents (Elt F)),
    unary main_call0_v7 main_call0_v8 ((broadcastInDim S4x1024x1 ![0, 1] bcast_S4x1024_S4x1024x1_0_1) : (⟨S4x1024, .f32⟩ : BufTy).Contents (Elt F) → (⟨S4x1024x1, .f32⟩ : BufTy).Contents (Elt F)),
    unary main_call0_v8 main_call0_v9 (Host.log : (⟨S4x1024x1, .f32⟩ : BufTy).Contents (Elt F) → (⟨S4x1024x1, .f32⟩ : BufTy).Contents (Elt F)),
    unary main_call0_v9 main_call0_v10 ((broadcastInDim S4x1024x32000 ![0, 1, 2] bcast_S4x1024x1_S4x1024x32000_0_1_2) : (⟨S4x1024x1, .f32⟩ : BufTy).Contents (Elt F) → (⟨S4x1024x32000, .f32⟩ : BufTy).Contents (Elt F)),
    binary main_call0_v5 main_call0_v10 main_v1 (subf : (⟨S4x1024x32000, .f32⟩ : BufTy).Contents (Elt F) → (⟨S4x1024x32000, .f32⟩ : BufTy).Contents (Elt F) → (⟨S4x1024x32000, .f32⟩ : BufTy).Contents (Elt F)) ]

/-- The label column, the entry of each row at its label, the unit axis dropped. -/
abbrev ops2 : List (HloOp τ sig (Elt F)) :=
  [ unary main_arg1 main_v2 (broadcastInDim S4x1024x1 ![0, 1] bcast_S4x1024_S4x1024x1_0_1 : (⟨S4x1024, .i32⟩ : BufTy).Contents (Elt F) → (⟨S4x1024x1, .i32⟩ : BufTy).Contents (Elt F)),
    nullary main_call1_c (constantI S_ 32 0#32),
    unary main_call1_c main_call1_v0 ((broadcastInDim S4x1024x1 ![] bcast_S_S4x1024x1) : (⟨S_, .i32⟩ : BufTy).Contents (Elt F) → (⟨S4x1024x1, .i32⟩ : BufTy).Contents (Elt F)),
    binary main_v2 main_call1_v0 main_call1_v1 ((cmpi .slt) : (⟨S4x1024x1, .i32⟩ : BufTy).Contents (Elt F) → (⟨S4x1024x1, .i32⟩ : BufTy).Contents (Elt F) → (⟨S4x1024x1, .i1⟩ : BufTy).Contents (Elt F)),
    nullary main_call1_c_0 (constantI S_ 32 32000#32),
    unary main_call1_c_0 main_call1_v2 ((broadcastInDim S4x1024x1 ![] bcast_S_S4x1024x1) : (⟨S_, .i32⟩ : BufTy).Contents (Elt F) → (⟨S4x1024x1, .i32⟩ : BufTy).Contents (Elt F)),
    binary main_v2 main_call1_v2 main_call1_v3 (addi : (⟨S4x1024x1, .i32⟩ : BufTy).Contents (Elt F) → (⟨S4x1024x1, .i32⟩ : BufTy).Contents (Elt F) → (⟨S4x1024x1, .i32⟩ : BufTy).Contents (Elt F)),
    ternary main_call1_v1 main_call1_v3 main_v2 main_call1_v4 (select : (⟨S4x1024x1, .i1⟩ : BufTy).Contents (Elt F) → (⟨S4x1024x1, .i32⟩ : BufTy).Contents (Elt F) → (⟨S4x1024x1, .i32⟩ : BufTy).Contents (Elt F) → (⟨S4x1024x1, .i32⟩ : BufTy).Contents (Elt F)),
    reshape main_call1_v4 main_call1_v5 rfl shapeCasts_S4x1024x1_S4x1024x1x1,
    nullary main_call1_c_1 (constantI S1 32 31999#32),
    nullary main_call1_c_2 (constantI S_ 32 0#32),
    unary main_call1_c_2 main_call1_v6 ((broadcastInDim S4x1024x1x1 ![] bcast_S_S4x1024x1x1) : (⟨S_, .i32⟩ : BufTy).Contents (Elt F) → (⟨S4x1024x1x1, .i32⟩ : BufTy).Contents (Elt F)),
    binary main_call1_v5 main_call1_v6 main_call1_v7 ((cmpi .sge) : (⟨S4x1024x1x1, .i32⟩ : BufTy).Contents (Elt F) → (⟨S4x1024x1x1, .i32⟩ : BufTy).Contents (Elt F) → (⟨S4x1024x1x1, .i1⟩ : BufTy).Contents (Elt F)),
    unary main_call1_c_1 main_call1_v8 ((broadcastInDim S1x1x1x1 ![3] bcast_S1_S1x1x1x1_3) : (⟨S1, .i32⟩ : BufTy).Contents (Elt F) → (⟨S1x1x1x1, .i32⟩ : BufTy).Contents (Elt F)),
    unary main_call1_v8 main_call1_v9 ((broadcastInDim S4x1024x1x1 ![0, 1, 2, 3] bcast_S1x1x1x1_S4x1024x1x1_0_1_2_3) : (⟨S1x1x1x1, .i32⟩ : BufTy).Contents (Elt F) → (⟨S4x1024x1x1, .i32⟩ : BufTy).Contents (Elt F)),
    binary main_call1_v5 main_call1_v9 main_call1_v10 ((cmpi .sle) : (⟨S4x1024x1x1, .i32⟩ : BufTy).Contents (Elt F) → (⟨S4x1024x1x1, .i32⟩ : BufTy).Contents (Elt F) → (⟨S4x1024x1x1, .i1⟩ : BufTy).Contents (Elt F)),
    binary main_call1_v7 main_call1_v10 main_call1_v11 (andi : (⟨S4x1024x1x1, .i1⟩ : BufTy).Contents (Elt F) → (⟨S4x1024x1x1, .i1⟩ : BufTy).Contents (Elt F) → (⟨S4x1024x1x1, .i1⟩ : BufTy).Contents (Elt F)),
    nullary main_call1_c_3 (constantI S_ 1 1#1),
    binary main_call1_v11 main_call1_c_3 main_call1_v12 ((fun x v => Host.reduce IntOp.andi x v reducesTo_S4x1024x1x1_S4x1024x1_d3 h_S_) : (⟨S4x1024x1x1, .i1⟩ : BufTy).Contents (Elt F) → (⟨S_, .i1⟩ : BufTy).Contents (Elt F) → (⟨S4x1024x1, .i1⟩ : BufTy).Contents (Elt F)),
    binary main_v1 main_call1_v5 main_call1_v13 ((fun x i => Host.gather gather_S4x1024x32000_S4x1024x1x1_S4x1024x1_n_2_01_01_2_3_111 x i) : (⟨S4x1024x32000, .f32⟩ : BufTy).Contents (Elt F) → (⟨S4x1024x1x1, .i32⟩ : BufTy).Contents (Elt F) → (⟨S4x1024x1, .f32⟩ : BufTy).Contents (Elt F)),
    nullary main_call1_cst (constant S_ .f32 0x7FC00000#32),
    unary main_call1_cst main_call1_v14 ((broadcastInDim S4x1024x1 ![] bcast_S_S4x1024x1) : (⟨S_, .f32⟩ : BufTy).Contents (Elt F) → (⟨S4x1024x1, .f32⟩ : BufTy).Contents (Elt F)),
    ternary main_call1_v12 main_call1_v13 main_call1_v14 main_v3 (select : (⟨S4x1024x1, .i1⟩ : BufTy).Contents (Elt F) → (⟨S4x1024x1, .f32⟩ : BufTy).Contents (Elt F) → (⟨S4x1024x1, .f32⟩ : BufTy).Contents (Elt F) → (⟨S4x1024x1, .f32⟩ : BufTy).Contents (Elt F)),
    reshape main_v3 main_v4 rfl shapeCasts_S4x1024x1_S4x1024 ]

/-- The mask, the masked row averages, the difference of the two halves, its log-sigmoid, the loss. -/
abbrev ops3 : List (HloOp τ sig (Elt F)) :=
  [ nullary main_c (constantI S_ 32 4294967196#32),
    unary main_c main_v5 (broadcastInDim S4x1024 ![] bcast_S_S4x1024 : (⟨S_, .i32⟩ : BufTy).Contents (Elt F) → (⟨S4x1024, .i32⟩ : BufTy).Contents (Elt F)),
    binary main_arg1 main_v5 main_v6 (cmpi .ne : (⟨S4x1024, .i32⟩ : BufTy).Contents (Elt F) → (⟨S4x1024, .i32⟩ : BufTy).Contents (Elt F) → (⟨S4x1024, .i1⟩ : BufTy).Contents (Elt F)),
    unary main_v6 main_v7 (uitofp .f32 : (⟨S4x1024, .i1⟩ : BufTy).Contents (Elt F) → (⟨S4x1024, .f32⟩ : BufTy).Contents (Elt F)),
    binary main_v4 main_v7 main_v8 (mulf : (⟨S4x1024, .f32⟩ : BufTy).Contents (Elt F) → (⟨S4x1024, .f32⟩ : BufTy).Contents (Elt F) → (⟨S4x1024, .f32⟩ : BufTy).Contents (Elt F)),
    nullary main_cst (constant S_ .f32 0x00000000#32),
    binary main_v8 main_cst main_v9 ((fun x v => Host.reduceAdd x v reducesTo_S4x1024_S4_d1 h_S_) : (⟨S4x1024, .f32⟩ : BufTy).Contents (Elt F) → (⟨S_, .f32⟩ : BufTy).Contents (Elt F) → (⟨S4, .f32⟩ : BufTy).Contents (Elt F)),
    unary main_v6 main_v10 ((extui 32 · natLt_1_32) : (⟨S4x1024, .i1⟩ : BufTy).Contents (Elt F) → (⟨S4x1024, .i32⟩ : BufTy).Contents (Elt F)),
    nullary main_c_0 (constantI S_ 32 0#32),
    binary main_v10 main_c_0 main_v11 ((fun x v => Host.reduce IntOp.addi x v reducesTo_S4x1024_S4_d1 h_S_) : (⟨S4x1024, .i32⟩ : BufTy).Contents (Elt F) → (⟨S_, .i32⟩ : BufTy).Contents (Elt F) → (⟨S4, .i32⟩ : BufTy).Contents (Elt F)),
    nullary main_c_1 (constantI S_ 32 1#32),
    unary main_c_1 main_v12 (broadcastInDim S4 ![] bcast_S_S4 : (⟨S_, .i32⟩ : BufTy).Contents (Elt F) → (⟨S4, .i32⟩ : BufTy).Contents (Elt F)),
    binary main_v11 main_v12 main_v13 (maxsi : (⟨S4, .i32⟩ : BufTy).Contents (Elt F) → (⟨S4, .i32⟩ : BufTy).Contents (Elt F) → (⟨S4, .i32⟩ : BufTy).Contents (Elt F)),
    unary main_v13 main_v14 (sitofp .f32 : (⟨S4, .i32⟩ : BufTy).Contents (Elt F) → (⟨S4, .f32⟩ : BufTy).Contents (Elt F)),
    binary main_v9 main_v14 main_v15 (Host.divf : (⟨S4, .f32⟩ : BufTy).Contents (Elt F) → (⟨S4, .f32⟩ : BufTy).Contents (Elt F) → (⟨S4, .f32⟩ : BufTy).Contents (Elt F)),
    unary main_v15 main_v16 ((extractStridedSlice S2 ![0] · slices_S4_S2_0) : (⟨S4, .f32⟩ : BufTy).Contents (Elt F) → (⟨S2, .f32⟩ : BufTy).Contents (Elt F)),
    unary main_v15 main_v17 ((extractStridedSlice S2 ![2] · slices_S4_S2_2) : (⟨S4, .f32⟩ : BufTy).Contents (Elt F) → (⟨S2, .f32⟩ : BufTy).Contents (Elt F)),
    binary main_v16 main_v17 main_v18 (subf : (⟨S2, .f32⟩ : BufTy).Contents (Elt F) → (⟨S2, .f32⟩ : BufTy).Contents (Elt F) → (⟨S2, .f32⟩ : BufTy).Contents (Elt F)),
    nullary main_cst_2 (constant S_ .f32 0x3DCCCCCD#32),
    unary main_cst_2 main_v19 (broadcastInDim S2 ![] bcast_S_S2 : (⟨S_, .f32⟩ : BufTy).Contents (Elt F) → (⟨S2, .f32⟩ : BufTy).Contents (Elt F)),
    binary main_v19 main_v18 main_v20 (mulf : (⟨S2, .f32⟩ : BufTy).Contents (Elt F) → (⟨S2, .f32⟩ : BufTy).Contents (Elt F) → (⟨S2, .f32⟩ : BufTy).Contents (Elt F)),
    unary main_v20 main_call2_v0 (Host.negf : (⟨S2, .f32⟩ : BufTy).Contents (Elt F) → (⟨S2, .f32⟩ : BufTy).Contents (Elt F)),
    nullary main_call2_call0_cst (constant S_ .f32 0x00000000#32),
    unary main_call2_call0_cst main_call2_call0_v0 ((broadcastInDim S2 ![] bcast_S_S2) : (⟨S_, .f32⟩ : BufTy).Contents (Elt F) → (⟨S2, .f32⟩ : BufTy).Contents (Elt F)),
    binary main_call2_v0 main_call2_call0_v0 main_call2_call0_v1 (maximumf : (⟨S2, .f32⟩ : BufTy).Contents (Elt F) → (⟨S2, .f32⟩ : BufTy).Contents (Elt F) → (⟨S2, .f32⟩ : BufTy).Contents (Elt F)),
    unary main_call2_call0_cst main_call2_call0_v2 ((broadcastInDim S2 ![] bcast_S_S2) : (⟨S_, .f32⟩ : BufTy).Contents (Elt F) → (⟨S2, .f32⟩ : BufTy).Contents (Elt F)),
    binary main_call2_v0 main_call2_call0_v2 main_call2_call0_v3 (subf : (⟨S2, .f32⟩ : BufTy).Contents (Elt F) → (⟨S2, .f32⟩ : BufTy).Contents (Elt F) → (⟨S2, .f32⟩ : BufTy).Contents (Elt F)),
    binary main_call2_call0_v3 main_call2_call0_v3 main_call2_call0_v4 ((cmpf .une) : (⟨S2, .f32⟩ : BufTy).Contents (Elt F) → (⟨S2, .f32⟩ : BufTy).Contents (Elt F) → (⟨S2, .i1⟩ : BufTy).Contents (Elt F)),
    unary main_call2_call0_cst main_call2_call0_v5 ((broadcastInDim S2 ![] bcast_S_S2) : (⟨S_, .f32⟩ : BufTy).Contents (Elt F) → (⟨S2, .f32⟩ : BufTy).Contents (Elt F)),
    binary main_call2_v0 main_call2_call0_v5 main_call2_call0_v6 (addf : (⟨S2, .f32⟩ : BufTy).Contents (Elt F) → (⟨S2, .f32⟩ : BufTy).Contents (Elt F) → (⟨S2, .f32⟩ : BufTy).Contents (Elt F)),
    unary main_call2_call0_v3 main_call2_call0_v7 (Host.absf : (⟨S2, .f32⟩ : BufTy).Contents (Elt F) → (⟨S2, .f32⟩ : BufTy).Contents (Elt F)),
    unary main_call2_call0_v7 main_call2_call0_v8 (Host.negf : (⟨S2, .f32⟩ : BufTy).Contents (Elt F) → (⟨S2, .f32⟩ : BufTy).Contents (Elt F)),
    unary main_call2_call0_v8 main_call2_call0_v9 (Host.exp : (⟨S2, .f32⟩ : BufTy).Contents (Elt F) → (⟨S2, .f32⟩ : BufTy).Contents (Elt F)),
    unary main_call2_call0_v9 main_call2_call0_v10 (Host.log1p : (⟨S2, .f32⟩ : BufTy).Contents (Elt F) → (⟨S2, .f32⟩ : BufTy).Contents (Elt F)),
    binary main_call2_call0_v1 main_call2_call0_v10 main_call2_call0_v11 (addf : (⟨S2, .f32⟩ : BufTy).Contents (Elt F) → (⟨S2, .f32⟩ : BufTy).Contents (Elt F) → (⟨S2, .f32⟩ : BufTy).Contents (Elt F)),
    ternary main_call2_call0_v4 main_call2_call0_v6 main_call2_call0_v11 main_call2_v1 (select : (⟨S2, .i1⟩ : BufTy).Contents (Elt F) → (⟨S2, .f32⟩ : BufTy).Contents (Elt F) → (⟨S2, .f32⟩ : BufTy).Contents (Elt F) → (⟨S2, .f32⟩ : BufTy).Contents (Elt F)),
    unary main_call2_v1 main_v21 (Host.negf : (⟨S2, .f32⟩ : BufTy).Contents (Elt F) → (⟨S2, .f32⟩ : BufTy).Contents (Elt F)),
    nullary main_cst_3 (constant S_ .f32 0x00000000#32),
    binary main_v21 main_cst_3 main_v22 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    unary main_v22 main_v23 (Host.negf : (⟨S_, .f32⟩ : BufTy).Contents (Elt F) → (⟨S_, .f32⟩ : BufTy).Contents (Elt F)),
    nullary main_cst_4 (constant S_ .f32 0x40000000#32),
    binary main_v23 main_cst_4 main_v24 (Host.divf : (⟨S_, .f32⟩ : BufTy).Contents (Elt F) → (⟨S_, .f32⟩ : BufTy).Contents (Elt F) → (⟨S_, .f32⟩ : BufTy).Contents (Elt F)) ]

theorem cons_congr {a b : HloOp τ sig (Elt F)} {l m : List (HloOp τ sig (Elt F))} (h : a = b) (hl : l = m) :
    a :: l = b :: m := by rw [h, hl]

-- the folds over an operand's elements stay folded while an operation over typed references is compared with the
-- same operation over the bare references
attribute [local irreducible] Host.reduce Host.reduceAdd Host.gather in
theorem tops1_eq : (tops1 : List (HloOp τ sig (Elt F))) = ops1 := by
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  rfl

attribute [local irreducible] Host.reduce Host.reduceAdd Host.gather in
theorem tops2_eq : (tops2 : List (HloOp τ sig (Elt F))) = ops2 := by
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  rfl

attribute [local irreducible] Host.reduce Host.reduceAdd Host.gather in
theorem tops3_eq : (tops3 : List (HloOp τ sig (Elt F))) = ops3 := by
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  rfl

/-- @main is the three stretches in order. -/
theorem main_eq (c : Dev nD) : main (F := F) c = seq (ops1 ++ (ops2 ++ ops3)) := by
  rw [main_eqT, tops1_eq, tops2_eq, tops3_eq]

/-- Running two lines one after the other folds the second over the first's result. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

theorem scopedRefs_eq : (Finset.univ.filter fun b : Ref sig .tc => b.isScoped) = ∅ := by decide
theorem scopedSems_eq : (Finset.univ.filter fun sm : SemLoc sig => sm.isScoped .tc) = ∅ := by decide

theorem ops1_sub : (ops1 : List (HloOp τ sig (Elt F))).Forall fun op => op.bufs ⊆ tcRefs τ sig :=
  ⟨binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., unary_bufs_sub .., binary_bufs_sub ..⟩
theorem ops2_sub : (ops2 : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., reshape_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., nullary_bufs_sub .., unary_bufs_sub .., ternary_bufs_sub .., reshape_bufs_sub ..⟩
theorem ops3_sub : (ops3 : List (HloOp τ sig (Elt F))).Forall fun op => op.bufs ⊆ tcRefs τ sig :=
  ⟨nullary_bufs_sub .., unary_bufs_sub .., binary_bufs_sub .., unary_bufs_sub .., binary_bufs_sub .., nullary_bufs_sub ..,
    binary_bufs_sub .., unary_bufs_sub .., nullary_bufs_sub .., binary_bufs_sub .., nullary_bufs_sub .., unary_bufs_sub ..,
    binary_bufs_sub .., unary_bufs_sub .., binary_bufs_sub .., unary_bufs_sub .., unary_bufs_sub .., binary_bufs_sub ..,
    nullary_bufs_sub .., unary_bufs_sub .., binary_bufs_sub .., unary_bufs_sub .., nullary_bufs_sub .., unary_bufs_sub ..,
    binary_bufs_sub .., unary_bufs_sub .., binary_bufs_sub .., binary_bufs_sub .., unary_bufs_sub .., binary_bufs_sub ..,
    unary_bufs_sub .., unary_bufs_sub .., unary_bufs_sub .., unary_bufs_sub .., binary_bufs_sub .., ternary_bufs_sub ..,
    unary_bufs_sub .., nullary_bufs_sub .., binary_bufs_sub .., unary_bufs_sub .., nullary_bufs_sub .., binary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl⟩
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem forall_append3 {p : HloOp τ sig (Elt F) → Prop} {l₁ l₂ l₃ : List (HloOp τ sig (Elt F))}
    (h₁ : l₁.Forall p) (h₂ : l₂.Forall p) (h₃ : l₃.Forall p) : ∀ op ∈ l₁ ++ (l₂ ++ l₃), p op := fun op h => by
  rcases List.mem_append.1 h with h | h
  · exact List.forall_iff_forall_mem.1 h₁ op h
  rcases List.mem_append.1 h with h | h
  · exact List.forall_iff_forall_mem.1 h₂ op h
  · exact List.forall_iff_forall_mem.1 h₃ op h

/-- On every device, for any float values, from any memory with zero counters: every weakly fair execution of @main
    terminates with each buffer at the three stretches' fold over the launch contents. -/
theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b)
        = after ops3 (after ops2 (after ops1 (launchContents m c))) (Proc.devRef .tc b) :=
  (θ_run defs _ _).mono (fun _ h c b => (h c b).trans (by rw [after_append', after_append']))
    (run_seq scopedRefs_eq scopedSems_eq defs main (fun _ => ops1 ++ (ops2 ++ ops3)) main_eq
      (fun _ => List.forall_iff_forall_mem.2 (forall_append3 ops1_sub ops2_sub ops3_sub)) m ρ
      (fun _ => forall_append3 ops1_fresh ops2_fresh ops3_fresh))

end Cert.ReferenceIdeal.Val

end
-- ==== Proof.RefDefs.lean ====
/-
  The reference program's value per token, as pure functions of its inputs.

  `logps X W` is the log-softmax of the logits `X · Wᵀ` along the vocabulary axis, operation by operation as the
  reference states it: the row maximum (a fold of `max` from `-∞`, then `max` with a broadcast `-∞`), the shifted
  logits, their exponentials' row sum, its logarithm, and the difference. `gathered lp Y` picks, per token, the entry of
  `lp` at the label: the label is wrapped if negative, the wrapped label is tested for `0 ≤ · ≤ 31999`, the entry is
  gathered at the (clamped) label and kept where the test holds, a NaN elsewhere; the unit axis is then dropped.
-/
import proofs.«406065_j77429670412358_2_alg».proof.ReferenceIdeal

noncomputable section

namespace Cert.ReferenceIdeal.Val

open Idealize.ShloMosaic Cert.ReferenceIdeal Cert.ReferenceIdeal.Facts₀

variable [Cert.ReferenceIdeal.Facts] {F : FTy → Type} [FloatOps F]

/-- The log-softmax of the logits `X · Wᵀ` along the vocabulary axis. -/
def logps (X : FVec F S4x1024x2048 .f32) (W : FVec F S32000x2048 .f32) : FVec F S4x1024x32000 .f32 :=
  subf (subf (Host.dotGeneral dot_S4x1024x2048_S32000x2048_S4x1024x32000_2_1_01_0_n_n none X W) (broadcastInDim S4x1024x32000 ![0, 1, 2] bcast_S4x1024x1_S4x1024x32000_0_1_2 (broadcastInDim S4x1024x1 ![0, 1] bcast_S4x1024_S4x1024x1_0_1 (maximumf (broadcastInDim S4x1024 ![] bcast_S_S4x1024 (constant S_ .f32 0xFF800000#32)) (Host.reduce FloatOps.maximumf (Host.dotGeneral dot_S4x1024x2048_S32000x2048_S4x1024x32000_2_1_01_0_n_n none X W) (constant S_ .f32 0xFF800000#32) reducesTo_S4x1024x32000_S4x1024_d2 h_S_))))) (broadcastInDim S4x1024x32000 ![0, 1, 2] bcast_S4x1024x1_S4x1024x32000_0_1_2 (Host.log (broadcastInDim S4x1024x1 ![0, 1] bcast_S4x1024_S4x1024x1_0_1 (Host.reduceAdd (Host.exp (subf (Host.dotGeneral dot_S4x1024x2048_S32000x2048_S4x1024x32000_2_1_01_0_n_n none X W) (broadcastInDim S4x1024x32000 ![0, 1, 2] bcast_S4x1024x1_S4x1024x32000_0_1_2 (broadcastInDim S4x1024x1 ![0, 1] bcast_S4x1024_S4x1024x1_0_1 (maximumf (broadcastInDim S4x1024 ![] bcast_S_S4x1024 (constant S_ .f32 0xFF800000#32)) (Host.reduce FloatOps.maximumf (Host.dotGeneral dot_S4x1024x2048_S32000x2048_S4x1024x32000_2_1_01_0_n_n none X W) (constant S_ .f32 0xFF800000#32) reducesTo_S4x1024x32000_S4x1024_d2 h_S_)))))) (constant S_ .f32 0x00000000#32) reducesTo_S4x1024x32000_S4x1024_d2 h_S_))))

/-- The entry of `lp` at each token's label (a NaN where the wrapped label is outside the vocabulary). -/
def gathered (lp : FVec F S4x1024x32000 .f32) (Y : IVec S4x1024 32) : FVec F S4x1024 .f32 :=
  shapeCast S4x1024 (select (Host.reduce IntOp.andi (andi (cmpi .sge (shapeCast S4x1024x1x1 (select (cmpi .slt (broadcastInDim S4x1024x1 ![0, 1] bcast_S4x1024_S4x1024x1_0_1 Y) (broadcastInDim S4x1024x1 ![] bcast_S_S4x1024x1 (constantI S_ 32 0#32))) (addi (broadcastInDim S4x1024x1 ![0, 1] bcast_S4x1024_S4x1024x1_0_1 Y) (broadcastInDim S4x1024x1 ![] bcast_S_S4x1024x1 (constantI S_ 32 32000#32))) (broadcastInDim S4x1024x1 ![0, 1] bcast_S4x1024_S4x1024x1_0_1 Y)) shapeCasts_S4x1024x1_S4x1024x1x1) (broadcastInDim S4x1024x1x1 ![] bcast_S_S4x1024x1x1 (constantI S_ 32 0#32))) (cmpi .sle (shapeCast S4x1024x1x1 (select (cmpi .slt (broadcastInDim S4x1024x1 ![0, 1] bcast_S4x1024_S4x1024x1_0_1 Y) (broadcastInDim S4x1024x1 ![] bcast_S_S4x1024x1 (constantI S_ 32 0#32))) (addi (broadcastInDim S4x1024x1 ![0, 1] bcast_S4x1024_S4x1024x1_0_1 Y) (broadcastInDim S4x1024x1 ![] bcast_S_S4x1024x1 (constantI S_ 32 32000#32))) (broadcastInDim S4x1024x1 ![0, 1] bcast_S4x1024_S4x1024x1_0_1 Y)) shapeCasts_S4x1024x1_S4x1024x1x1) (broadcastInDim S4x1024x1x1 ![0, 1, 2, 3] bcast_S1x1x1x1_S4x1024x1x1_0_1_2_3 (broadcastInDim S1x1x1x1 ![3] bcast_S1_S1x1x1x1_3 (constantI S1 32 31999#32))))) (constantI S_ 1 1#1) reducesTo_S4x1024x1x1_S4x1024x1_d3 h_S_) (Host.gather gather_S4x1024x32000_S4x1024x1x1_S4x1024x1_n_2_01_01_2_3_111 lp (shapeCast S4x1024x1x1 (select (cmpi .slt (broadcastInDim S4x1024x1 ![0, 1] bcast_S4x1024_S4x1024x1_0_1 Y) (broadcastInDim S4x1024x1 ![] bcast_S_S4x1024x1 (constantI S_ 32 0#32))) (addi (broadcastInDim S4x1024x1 ![0, 1] bcast_S4x1024_S4x1024x1_0_1 Y) (broadcastInDim S4x1024x1 ![] bcast_S_S4x1024x1 (constantI S_ 32 32000#32))) (broadcastInDim S4x1024x1 ![0, 1] bcast_S4x1024_S4x1024x1_0_1 Y)) shapeCasts_S4x1024x1_S4x1024x1x1)) (broadcastInDim S4x1024x1 ![] bcast_S_S4x1024x1 (constant S_ .f32 0x7FC00000#32))) shapeCasts_S4x1024x1_S4x1024

end Cert.ReferenceIdeal.Val

end
-- ==== Proof.Tail.lean ====
/-
  What both programs do with the per-token log-probabilities `tok : [4, 1024]` and the labels `Y`.

  Each row `b` is averaged over the tokens whose label is not the ignore value -100,
  `s b = (∑ t, tok b t * [Y b t ≠ -100]) / max (#{t | Y b t ≠ -100}) 1`; one program counts in floats (`seqF`), the other
  counts in 32-bit integers and converts the clamped count (`seqI`). From the four averages on the two programs apply the
  same operations (`lossOf`): rows 0, 1 minus rows 2, 3, times 0.1, `-softplus (-x)` with softplus as
  `max x 0 + log1p (exp (-|x|))` (and its not-a-number guard), summed, negated, halved.
  The shape relations the operations take are passed as hypotheses (`EvSeq`, `EvLoss`), so that each program's run, which
  has them as its own stated facts, meets these terms up to proof irrelevance.
-/
import Idealize.ShloMosaic.PureOps.Ideal
import Idealize.ShloMosaic.Lib.StableHlo

noncomputable section

namespace Cert.Tail

open Idealize.ShloMosaic

abbrev S_ : Shape := ⟨0, ![]⟩
abbrev S2 : Shape := ⟨1, ![2]⟩
abbrev S4 : Shape := ⟨1, ![4]⟩
abbrev S4x1024 : Shape := ⟨2, ![4, 1024]⟩

/-- The shape relations of the averaging stretch. -/
structure EvSeq : Prop where
  bcast_S_S4x1024 : S_.BroadcastsInDim S4x1024 (![] : Fin 0 → Fin S4x1024.rank)
  reducesTo_S4x1024_S4_d1 : S4x1024.ReducesTo [1] S4
  h_S_ : 0 < S_.numel
  bcast_S_S4 : S_.BroadcastsInDim S4 (![] : Fin 0 → Fin S4.rank)

/-- The shape relations of the closing stretch. -/
structure EvLoss : Prop where
  h_S_ : 0 < S_.numel
  slices_S4_S2_0 : S4.Slices ![0] S2
  slices_S4_S2_2 : S4.Slices ![2] S2
  bcast_S_S2 : S_.BroadcastsInDim S2 (![] : Fin 0 → Fin S2.rank)
  reducesTo_S2_S_d0 : S2.ReducesTo [0] S_

variable {F : FTy → Type} [FloatOps F]

/-- The mask of the tokens that count, as floats: 1 where the label is not -100. -/
def maskF (e : EvSeq) (Y : IVec S4x1024 32) : FVec F S4x1024 .f32 :=
  uitofp .f32 (cmpi .ne Y (broadcastInDim S4x1024 ![] e.bcast_S_S4x1024 (constantI S_ 32 4294967196#32)))

/-- Row averages, the count taken as a float sum of the mask. -/
def seqF (e : EvSeq) (tok : FVec F S4x1024 .f32) (Y : IVec S4x1024 32) : FVec F S4 .f32 :=
  Host.divf
    (Host.reduceAdd (mulf tok (maskF e Y)) (constant S_ .f32 0x00000000#32) e.reducesTo_S4x1024_S4_d1 e.h_S_)
    (maximumf (Host.reduceAdd (maskF (F := F) e Y) (constant S_ .f32 0x00000000#32) e.reducesTo_S4x1024_S4_d1 e.h_S_)
      (broadcastInDim S4 ![] e.bcast_S_S4 (constant S_ .f32 0x3F800000#32)))

/-- Row averages, the count taken as a 32-bit integer sum of the mask, clamped below by 1 and converted. -/
def seqI (e : EvSeq) (h132 : 1 < 32) (tok : FVec F S4x1024 .f32) (Y : IVec S4x1024 32) : FVec F S4 .f32 :=
  Host.divf
    (Host.reduceAdd (mulf tok (maskF e Y)) (constant S_ .f32 0x00000000#32) e.reducesTo_S4x1024_S4_d1 e.h_S_)
    (sitofp .f32
      (maxsi
        (Host.reduce IntOp.addi
          (extui 32 (cmpi .ne Y (broadcastInDim S4x1024 ![] e.bcast_S_S4x1024 (constantI S_ 32 4294967196#32))) h132)
          (constantI S_ 32 0#32) e.reducesTo_S4x1024_S4_d1 e.h_S_)
        (broadcastInDim S4 ![] e.bcast_S_S4 (constantI S_ 32 1#32))))

/-- `softplus x = max x 0 + log1p (exp (-|x - 0|))`, with the guard that returns `x + 0` where `x - 0` is not a number. -/
def softplus (e : EvLoss) (x : FVec F S2 .f32) : FVec F S2 .f32 :=
  select (cmpf .une (subf x (broadcastInDim S2 ![] e.bcast_S_S2 (constant S_ .f32 0x00000000#32)))
      (subf x (broadcastInDim S2 ![] e.bcast_S_S2 (constant S_ .f32 0x00000000#32))))
    (addf x (broadcastInDim S2 ![] e.bcast_S_S2 (constant S_ .f32 0x00000000#32)))
    (addf (maximumf x (broadcastInDim S2 ![] e.bcast_S_S2 (constant S_ .f32 0x00000000#32)))
      (Host.log1p (Host.exp (Host.negf (Host.absf
        (subf x (broadcastInDim S2 ![] e.bcast_S_S2 (constant S_ .f32 0x00000000#32))))))))

/-- From the four row averages to the loss. -/
def lossOf (e : EvLoss) (s : FVec F S4 .f32) : FVec F S_ .f32 :=
  Host.divf
    (Host.negf
      (Host.reduceAdd
        (Host.negf (softplus e (Host.negf
          (mulf (broadcastInDim S2 ![] e.bcast_S_S2 (constant S_ .f32 0x3DCCCCCD#32))
            (subf (extractStridedSlice S2 ![0] s e.slices_S4_S2_0) (extractStridedSlice S2 ![2] s e.slices_S4_S2_2))))))
        (constant S_ .f32 0x00000000#32) e.reducesTo_S2_S_d0 e.h_S_))
    (constant S_ .f32 0x40000000#32)

end Cert.Tail

end
-- ==== Proof.RefRun.lean ====
/-
  The reference program's run with its result named. The three stretches of its operations leave, in turn: the
  log-softmax of the logits (`logps`) at `main_v1`; each row's entry at its label (`gathered`) at `main_v4`; the loss of
  the masked row averages, the count taken in 32-bit integers (`Cert.Tail.lossOf` of `Cert.Tail.seqI`), at `main_v24`.
  No operation writes an argument.
-/
import proofs.«406065_j77429670412358_2_alg».proof.Proof.RefOps
import proofs.«406065_j77429670412358_2_alg».proof.Proof.RefDefs
import proofs.«406065_j77429670412358_2_alg».proof.Proof.Tail

noncomputable section

namespace Cert.ReferenceIdeal.Val

open Cert.ReferenceIdeal Cert.ReferenceIdeal.Facts₀ Idealize.ShloMosaic Idealize.ShloMosaic.TcCoe Idealize.SL.Sem Idealize.ShloMosaic.StableHlo

variable [Cert.ReferenceIdeal.Facts] {F : FTy → Type} [FloatOps F]

theorem evSeq : Cert.Tail.EvSeq :=
  ⟨Facts₀.bcast_S_S4x1024, Facts₀.reducesTo_S4x1024_S4_d1, Facts₀.h_S_, Facts₀.bcast_S_S4⟩

theorem evLoss : Cert.Tail.EvLoss :=
  ⟨Facts₀.h_S_, Facts₀.slices_S4_S2_0, Facts₀.slices_S4_S2_2, Facts₀.bcast_S_S2, Facts₀.reducesTo_S2_S_d0⟩

/-- The first stretch leaves the log-softmax of the logits at `main_v1`. -/
theorem v1_eq (V : Valuation τ sig (Elt F)) :
    after ops1 V (Proc.devRef .tc main_v1)
      = logps (V (Proc.devRef .tc main_arg0)) (V (Proc.devRef .tc main_arg2)) := by
  after_results_simp
  rfl

theorem ops1_arg0 (V : Valuation τ sig (Elt F)) : after ops1 V (Proc.devRef .tc main_arg0) = V (Proc.devRef .tc main_arg0) := by
  after_results_simp
theorem ops1_arg1 (V : Valuation τ sig (Elt F)) : after ops1 V (Proc.devRef .tc main_arg1) = V (Proc.devRef .tc main_arg1) := by
  after_results_simp
theorem ops1_arg2 (V : Valuation τ sig (Elt F)) : after ops1 V (Proc.devRef .tc main_arg2) = V (Proc.devRef .tc main_arg2) := by
  after_results_simp

/-- The second stretch leaves each row's entry at its label at `main_v4`. -/
theorem v4_eq (V : Valuation τ sig (Elt F)) :
    after ops2 V (Proc.devRef .tc main_v4)
      = gathered (V (Proc.devRef .tc main_v1)) (V (Proc.devRef .tc main_arg1)) := by
  after_results_simp
  rfl

theorem ops2_arg0 (V : Valuation τ sig (Elt F)) : after ops2 V (Proc.devRef .tc main_arg0) = V (Proc.devRef .tc main_arg0) := by
  after_results_simp
theorem ops2_arg1 (V : Valuation τ sig (Elt F)) : after ops2 V (Proc.devRef .tc main_arg1) = V (Proc.devRef .tc main_arg1) := by
  after_results_simp
theorem ops2_arg2 (V : Valuation τ sig (Elt F)) : after ops2 V (Proc.devRef .tc main_arg2) = V (Proc.devRef .tc main_arg2) := by
  after_results_simp

/-- The third stretch leaves the loss of the row averages at `main_v24`. -/
theorem v24_eq (V : Valuation τ sig (Elt F)) :
    after ops3 V (Proc.devRef .tc main_v24)
      = Cert.Tail.lossOf (F := F) evLoss (Cert.Tail.seqI (F := F) evSeq Facts₀.natLt_1_32
          (V (Proc.devRef .tc main_v4)) (V (Proc.devRef .tc main_arg1))) := by
  after_results_simp
  rfl

theorem ops3_arg0 (V : Valuation τ sig (Elt F)) : after ops3 V (Proc.devRef .tc main_arg0) = V (Proc.devRef .tc main_arg0) := by
  after_results_simp
theorem ops3_arg1 (V : Valuation τ sig (Elt F)) : after ops3 V (Proc.devRef .tc main_arg1) = V (Proc.devRef .tc main_arg1) := by
  after_results_simp
theorem ops3_arg2 (V : Valuation τ sig (Elt F)) : after ops3 V (Proc.devRef .tc main_arg2) = V (Proc.devRef .tc main_arg2) := by
  after_results_simp

/-- Every weakly fair execution ends with the result at the loss of the row averages of the label entries of the
    log-softmax of the logits, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v24)
          = Cert.Tail.lossOf (F := Ideal) evLoss (Cert.Tail.seqI (F := Ideal) evSeq Facts₀.natLt_1_32
              (gathered (logps (m ((c.tc : Thread nD τ).loc main_arg0)) (m ((c.tc : Thread nD τ).loc main_arg2)))
                (m ((c.tc : Thread nD τ).loc main_arg1)))
              (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c =>
    ⟨(h c main_v24).trans (by rw [v24_eq, v4_eq, ops2_arg1, v1_eq, ops1_arg1] <;> rfl),
      (h c main_arg0).trans (by rw [ops3_arg0, ops2_arg0, ops1_arg0] <;> rfl),
      (h c main_arg1).trans (by rw [ops3_arg1, ops2_arg1, ops1_arg1] <;> rfl),
      (h c main_arg2).trans (by rw [ops3_arg2, ops2_arg2, ops1_arg2] <;> rfl)⟩)
    (run_after (F := Ideal) m ρ)

end Cert.ReferenceIdeal.Val

end
-- ==== Proof.Spec.lean ====
/-
  The mathematics both programs compute, for one token's row of logits `a : Fin V → EReal`.

  A fused log-softmax pick: the program that streams the vocabulary in chunks keeps, after the first `n` columns,
  the running maximum `rowMax a n`, the running sum `rowSumExp a n = ∑_{v<n} exp (a v - rowMax a n)` and the picked
  logit `rowPick a y n = ∑_{v<n} [v = y] a v`; one more chunk of `c` columns updates them by
  `m' = max m (chunk max)`, `l' = exp (m - m') * l + ∑_chunk exp (a v - m')`, `t' = t + ∑_chunk [v = y] a v`
  (`rowMax_step`, `rowSumExp_step`, `rowPick_step`). The second law needs every logit to be a real number:
  `exp (m - m') * exp (a v - m) = exp (a v - m')` fails at infinities. At `n = V` the program returns
  `t - (m + log l)`, which for a label `y < V` is the log-softmax `(a y - m) - log l` the two-pass program gathers
  (`rowPick_full`, `fused_eq_two_pass`).
-/
import Idealize.ShloMosaic.PureOps.Ideal
import Idealize.ShloMosaic.Lib.ValueIdx

noncomputable section

open scoped BigOperators

namespace Cert.Spec

open Idealize.ShloMosaic Idealize.ShloMosaic.ValueIdx

/-- The logit of token `(b, t)` against vocabulary row `v`: the inner product over the hidden axis. -/
def logit (X : (⟨3, ![4, 1024, 2048]⟩ : Shape).Idx → EReal) (W : (⟨2, ![32000, 2048]⟩ : Shape).Idx → EReal)
    (b : Fin 4) (t : Fin 1024) (v : Fin 32000) : EReal :=
  ∑ k : Fin 2048, X (ix3 b t k) * W (ix2 v k)

variable {V : ℕ}

/-- Column `n + j` of a chunk of `c` columns that starts at column `n`. -/
def col (n c : ℕ) (h : n + c ≤ V) (j : Fin c) : Fin V := ⟨n + j.val, by have := j.isLt; omega⟩

@[simp] theorem col_val (n c : ℕ) (h : n + c ≤ V) (j : Fin c) : (col n c h j).val = n + j.val := rfl

/-- The maximum of the first `n` logits of a row (`⊥` of none). -/
def rowMax (a : Fin V → EReal) (n : ℕ) : EReal := (Finset.univ.filter fun v : Fin V => v.val < n).sup a

/-- The sum of `exp (a v - rowMax a n)` over the first `n` logits. -/
def rowSumExp (a : Fin V → EReal) (n : ℕ) : EReal :=
  ∑ v ∈ Finset.univ.filter (fun v : Fin V => v.val < n), Ideal.exp (a v - rowMax a n)

/-- The logit at the label among the first `n` columns (`0` if the label is not among them): a column's number is
    compared with the label as 32-bit words. -/
def rowPick (a : Fin V → EReal) (y : BitVec 32) (n : ℕ) : EReal :=
  ∑ v ∈ Finset.univ.filter (fun v : Fin V => v.val < n), if BitVec.ofNat 32 v.val = y then a v else 0

/-- Every column lies below V. -/
theorem filter_lt_full : (Finset.univ.filter fun v : Fin V => v.val < V) = Finset.univ :=
  Finset.filter_true_of_mem fun v _ => v.isLt

/-- A fold of max from ⊥ is the supremum. -/
theorem fold_max_eq_sup {ι : Type*} (s : Finset ι) (f : ι → EReal) : s.fold max ⊥ f = s.sup f := rfl

theorem col_injective (n c : ℕ) (h : n + c ≤ V) : Function.Injective (col n c h) := by
  intro i j hij
  have := congrArg Fin.val hij
  simp only [col_val] at this
  exact Fin.ext (by omega)

/-- The first n + c columns are the first n together with the chunk of c columns that starts at n. -/
theorem filter_lt_add (n c : ℕ) (h : n + c ≤ V) :
    (Finset.univ.filter fun v : Fin V => v.val < n + c)
      = (Finset.univ.filter fun v : Fin V => v.val < n) ∪ Finset.univ.image (col n c h) := by
  ext v
  simp only [Finset.mem_filter, Finset.mem_univ, true_and, Finset.mem_union, Finset.mem_image]
  constructor
  · intro hv
    by_cases hn : v.val < n
    · exact Or.inl hn
    · refine Or.inr ⟨⟨v.val - n, by omega⟩, Fin.ext ?_⟩
      simp only [col_val]; omega
  · rintro (hv | ⟨j, rfl⟩)
    · omega
    · have := j.isLt; simp only [col_val]; omega

theorem disjoint_chunk (n c : ℕ) (h : n + c ≤ V) :
    Disjoint (Finset.univ.filter fun v : Fin V => v.val < n) (Finset.univ.image (col n c h)) := by
  rw [Finset.disjoint_left]
  intro v hv hv'
  simp only [Finset.mem_filter, Finset.mem_univ, true_and] at hv
  obtain ⟨j, _, rfl⟩ := Finset.mem_image.mp hv'
  simp only [col_val] at hv; omega

/-- A sum over the first n + c columns splits into the first n and the chunk. -/
theorem sum_lt_add {M : Type*} [AddCommMonoid M] (f : Fin V → M) (n c : ℕ) (h : n + c ≤ V) :
    ∑ v ∈ Finset.univ.filter (fun v : Fin V => v.val < n + c), f v
      = ∑ v ∈ Finset.univ.filter (fun v : Fin V => v.val < n), f v + ∑ j : Fin c, f (col n c h j) := by
  rw [filter_lt_add n c h, Finset.sum_union (disjoint_chunk n c h),
    Finset.sum_image (fun i _ j _ hij => col_injective n c h hij)]

/-- The coercion of a finite sum of reals is the sum of the coercions. -/
theorem coe_finset_sum {ι : Type*} (s : Finset ι) (g : ι → ℝ) :
    ((∑ i ∈ s, g i : ℝ) : EReal) = ∑ i ∈ s, (g i : EReal) := by
  classical
  induction s using Finset.induction_on with
  | empty => simp
  | insert i s hi ih => rw [Finset.sum_insert hi, Finset.sum_insert hi, EReal.coe_add, ih]

theorem rowMax_zero (a : Fin V → EReal) : rowMax a 0 = ⊥ := by
  simp [rowMax]

theorem rowSumExp_zero (a : Fin V → EReal) : rowSumExp a 0 = 0 := by
  simp [rowSumExp]

theorem rowPick_zero (a : Fin V → EReal) (y : BitVec 32) : rowPick a y 0 = 0 := by
  simp [rowPick]

/-- Over the whole row the running maximum is the fold of `max` from `⊥` over every column. -/
theorem rowMax_full (a : Fin V → EReal) : rowMax a V = (Finset.univ : Finset (Fin V)).fold max ⊥ a := by
  rw [rowMax, filter_lt_full, fold_max_eq_sup]

/-- Over the whole row the running sum is the sum over every column. -/
theorem rowSumExp_full (a : Fin V → EReal) : rowSumExp a V = ∑ v : Fin V, Ideal.exp (a v - rowMax a V) := by
  rw [rowSumExp, filter_lt_full]

/-- One more chunk: the running maximum. -/
theorem rowMax_step (a : Fin V → EReal) (n c : ℕ) (h : n + c ≤ V) :
    max (rowMax a n) ((Finset.univ : Finset (Fin c)).fold max ⊥ fun j => a (col n c h j)) = rowMax a (n + c) := by
  rw [fold_max_eq_sup, rowMax, rowMax, filter_lt_add n c h, Finset.sup_union, Finset.sup_image]
  rfl

/-- The maximum of a nonempty initial stretch of real logits is a real number. -/
theorem rowMax_real (a : Fin V → EReal) (hfin : ∀ v, ∃ r : ℝ, a v = (r : EReal)) (n : ℕ) (hn : 0 < n) (hnV : n ≤ V) :
    ∃ M : ℝ, rowMax a n = (M : EReal) := by
  have hne : (Finset.univ.filter fun v : Fin V => v.val < n).Nonempty :=
    ⟨⟨0, by omega⟩, by simp [hn]⟩
  obtain ⟨i, _, hi⟩ := Finset.exists_mem_eq_sup _ hne a
  obtain ⟨r, hr⟩ := hfin i
  exact ⟨r, by rw [rowMax, hi, hr]⟩

/-- Moving the reference point of a sum of exponentials of real logits from M to M'. -/
theorem exp_rescale (a : Fin V → EReal) (hfin : ∀ v, ∃ r : ℝ, a v = (r : EReal)) (s : Finset (Fin V)) (M M' : ℝ) :
    Ideal.exp ((M : EReal) - (M' : EReal)) * ∑ v ∈ s, Ideal.exp (a v - (M : EReal))
      = ∑ v ∈ s, Ideal.exp (a v - (M' : EReal)) := by
  choose a' ha' using hfin
  simp only [ha', ← EReal.coe_sub, Ideal.exp_coe]
  rw [← coe_finset_sum, ← coe_finset_sum, ← EReal.coe_mul, Finset.mul_sum]
  refine congrArg _ (Finset.sum_congr rfl fun v _ => ?_)
  rw [← Real.exp_add]
  congr 1
  ring

/-- One more chunk: the running sum, rescaled to the new maximum. Every logit is a real number. -/
theorem rowSumExp_step (a : Fin V → EReal) (hfin : ∀ v, ∃ r : ℝ, a v = (r : EReal)) (n c : ℕ) (hc : 0 < c) (h : n + c ≤ V) :
    Ideal.exp (rowMax a n - rowMax a (n + c)) * rowSumExp a n
        + ∑ j : Fin c, Ideal.exp (a (col n c h j) - rowMax a (n + c))
      = rowSumExp a (n + c) := by
  rw [rowSumExp, rowSumExp, sum_lt_add _ n c h]
  congr 1
  obtain ⟨M', hM'⟩ := rowMax_real a hfin (n + c) (by omega) h
  rcases Nat.eq_zero_or_pos n with rfl | hn
  · simp
  · obtain ⟨M, hM⟩ := rowMax_real a hfin n hn (by omega)
    rw [hM, hM']
    exact exp_rescale a hfin _ M M'

/-- One more chunk: the picked logit. -/
theorem rowPick_step (a : Fin V → EReal) (y : BitVec 32) (n c : ℕ) (h : n + c ≤ V) :
    rowPick a y n + ∑ j : Fin c, (if BitVec.ofNat 32 (col n c h j).val = y then a (col n c h j) else 0)
      = rowPick a y (n + c) := by
  rw [rowPick, rowPick, sum_lt_add _ n c h]

/-- Over the whole row, a label below `V` picks its own logit. -/
theorem rowPick_full (a : Fin V → EReal) (hV : V < 2 ^ 32) (y : BitVec 32) (hy : y.toNat < V) :
    rowPick a y V = a ⟨y.toNat, hy⟩ := by
  rw [rowPick, filter_lt_full, Finset.sum_eq_single (⟨y.toNat, hy⟩ : Fin V)]
  · rw [if_pos]
    simp
  · intro b _ hb
    rw [if_neg]
    intro hby
    apply hb
    apply Fin.ext
    have := congrArg BitVec.toNat hby
    rw [BitVec.toNat_ofNat, Nat.mod_eq_of_lt (by have := b.isLt; omega)] at this
    exact this
  · intro hne
    exact absurd (Finset.mem_univ _) hne

/-- The fused form `t - (m + log l)` is the two-pass log-softmax `(a y - m) - log l` when every logit is real. -/
theorem fused_eq_two_pass (a : Fin V → EReal) (hfin : ∀ v, ∃ r : ℝ, a v = (r : EReal)) (hV : 0 < V) (v : Fin V) :
    a v - (rowMax a V + Ideal.log (rowSumExp a V)) = (a v - rowMax a V) - Ideal.log (rowSumExp a V) := by
  obtain ⟨M, hM⟩ := rowMax_real a hfin V hV le_rfl
  obtain ⟨r, hr⟩ := hfin v
  have hl : ∃ L : ℝ, Ideal.log (rowSumExp a V) = (L : EReal) := by
    choose a' ha' using hfin
    rw [rowSumExp, hM]
    simp only [ha', ← EReal.coe_sub, Ideal.exp_coe]
    rw [← coe_finset_sum, Ideal.log_coe, if_neg]
    · exact ⟨_, rfl⟩
    · rw [not_le]
      apply Finset.sum_pos
      · intro i _
        exact Real.exp_pos _
      · exact ⟨⟨0, hV⟩, by simp [hV]⟩
  obtain ⟨L, hL⟩ := hl
  rw [hM, hL, hr, ← EReal.coe_add, ← EReal.coe_sub, ← EReal.coe_sub, ← EReal.coe_sub, sub_add_eq_sub_sub]

/-- A logit of real inputs is a real number. -/
theorem logit_real (X : (⟨3, ![4, 1024, 2048]⟩ : Shape).Idx → EReal) (W : (⟨2, ![32000, 2048]⟩ : Shape).Idx → EReal)
    (hX : ∀ i, ∃ r : ℝ, X i = (r : EReal)) (hW : ∀ i, ∃ r : ℝ, W i = (r : EReal)) (b : Fin 4) (t : Fin 1024) (v : Fin 32000) :
    ∃ r : ℝ, logit X W b t v = (r : EReal) := by
  choose x hx using hX
  choose w hw using hW
  refine ⟨∑ k : Fin 2048, x (ix3 b t k) * w (ix2 v k), ?_⟩
  rw [logit, coe_finset_sum]
  refine Finset.sum_congr rfl fun k _ => ?_
  rw [hx, hw, EReal.coe_mul]

/-- The per-token value of the streaming program over the whole vocabulary: the picked logit minus
    `max + log (sum of exp)`, for any label word (a label outside the vocabulary picks nothing). -/
def tokFused (X : (⟨3, ![4, 1024, 2048]⟩ : Shape).Idx → EReal) (W : (⟨2, ![32000, 2048]⟩ : Shape).Idx → EReal)
    (Y : (⟨2, ![4, 1024]⟩ : Shape).Idx → BitVec 32) : (⟨2, ![4, 1024]⟩ : Shape).Idx → EReal := fun i =>
  rowPick (logit X W (i 0) (i 1)) (Y i) 32000
    - (rowMax (logit X W (i 0) (i 1)) 32000 + Ideal.log (rowSumExp (logit X W (i 0) (i 1)) 32000))

end Cert.Spec

end
-- ==== Proof.KernelPay.lean ====
/-
  The body's arithmetic at ONE grid point, read at an index, at the ideal values.

  The block of scores is `s b r j = ∑ k, x (b, r, k) * w (j, k)` (the matrix product of the token block with the
  vocabulary chunk, transposed on the right). Against a row function `a b r : Fin 32000 → EReal` with
  `s b r j = a b r (n + j)` for the chunk's first column `n`, the three carried columns move from their values at `n` to
  their values at `n + 1280` (`Cert.Spec`'s running maximum, running sum and picked logit), and the last point's output
  is `t - (m + log l)`.
-/
import proofs.«406065_j77429670412358_2_alg».proof.Proof.Gen.KernelIdeal.Skeleton
import proofs.«406065_j77429670412358_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Idealize.ShloMosaic Idealize.ShloMosaic.ValueIdx Cert.KernelIdeal Cert.KernelIdeal.Gen Cert.Spec

variable [Cert.KernelIdeal.Facts]

/-! ## The scores -/

/-- Row `256 * b + r` of the token block laid out as 1024 rows. -/
def row (b : Fin 4) (r : Fin 256) : Fin 1024 := ⟨b.val * 256 + r.val, by have := b.isLt; have := r.isLt; omega⟩

/-- A `[4, 256, n]` array cast to `[1024, n]` reads, at row `256 * b + r`, the operand at `(b, r, ·)`. -/
theorem flat_rows_apply {α : Type} {n : ℕ} (x : (⟨3, ![4, 256, n]⟩ : Shape).Idx → α)
    (h : (⟨3, ![4, 256, n]⟩ : Shape).ShapeCasts ⟨2, ![1024, n]⟩) (b : Fin 4) (r : Fin 256) (k : Fin n) :
    shapeCast ⟨2, ![1024, n]⟩ x h (ix2 (row b r) k) = x (ix3 b r k) :=
  shapeCast_apply x h _ _ (by
    rw [Shape.rowMajor_val_three, Shape.rowMajor_val_two]
    rfl)

/-- A `[1024, n]` array cast to `[4, 256, n]` reads, at `(b, r, ·)`, the operand's row `256 * b + r`. -/
theorem unflat_rows_apply {α : Type} {n : ℕ} (x : (⟨2, ![1024, n]⟩ : Shape).Idx → α)
    (h : (⟨2, ![1024, n]⟩ : Shape).ShapeCasts ⟨3, ![4, 256, n]⟩) (b : Fin 4) (r : Fin 256) (k : Fin n) :
    shapeCast ⟨3, ![4, 256, n]⟩ x h (ix3 b r k) = x (ix2 (row b r) k) :=
  shapeCast_apply x h _ _ (by
    rw [Shape.rowMajor_val_three, Shape.rowMajor_val_two]
    rfl)

/-- The product of the rows with the chunk, contracted over the hidden axis of both, read at `(p, j)`: the inner
    product of row `p` of the left operand with row `j` of the right one. -/
theorem matmul_rows_apply (A : FVec Ideal S1024x2048 .bf16) (B : FVec Ideal S1280x2048 .bf16) (p : Fin 1024) (j : Fin 1280) :
    matmul dot_S1024x2048_S1280x2048_S1024x1280_1_1_0_0_n_n none A B (constant (F := Ideal) S1024x1280 .f32 0x00000000#32) (ix2 p j)
      = ∑ k : Fin 2048, A (ix2 p k) * B (ix2 j k) := by
  show FloatOps.matmul _ none A B _ (ix2 p j) = _
  rw [Ideal.matmul_constant_zero_apply,
    ← Equiv.sum_comp (contrEquiv1 dot_S1024x2048_S1280x2048_S1024x1280_1_1_0_0_n_n 2048 rfl rfl).symm]
  refine Finset.sum_congr rfl fun c _ => ?_
  have c2 := contrEquiv1_symm_val dot_S1024x2048_S1280x2048_S1024x1280_1_1_0_0_n_n 2048 rfl rfl c
  have l2 : dot_S1024x2048_S1280x2048_S1024x1280_1_1_0_0_n_n.lhsIdx (ix2 p j) ((contrEquiv1 _ 2048 rfl rfl).symm c) = ix2 p c := by
    funext ax; apply Fin.ext
    match ax with
    | ⟨0, _⟩ => simp [DotDims.lhsIdx, dot_S1024x2048_S1280x2048_S1024x1280_1_1_0_0_n_n]; rfl
    | ⟨1, _⟩ => simp [DotDims.lhsIdx, dot_S1024x2048_S1280x2048_S1024x1280_1_1_0_0_n_n]; exact c2
  have r2 : dot_S1024x2048_S1280x2048_S1024x1280_1_1_0_0_n_n.rhsIdx (ix2 p j) ((contrEquiv1 _ 2048 rfl rfl).symm c) = ix2 j c := by
    funext ax; apply Fin.ext
    match ax with
    | ⟨0, _⟩ => simp [DotDims.rhsIdx, dot_S1024x2048_S1280x2048_S1024x1280_1_1_0_0_n_n]; rfl
    | ⟨1, _⟩ => simp [DotDims.rhsIdx, dot_S1024x2048_S1280x2048_S1024x1280_1_1_0_0_n_n]; exact c2
  rw [l2, r2]

/-- The scores: the token block times the vocabulary chunk, read at (b, r, j). -/
theorem pay8_apply (xb : Vec Ideal S4x256x2048 .bf16) (wb : Vec Ideal S1280x2048 .bf16) (b : Fin 4) (r : Fin 256) (j : Fin 1280) :
    k0_pay8 (F := Ideal) xb wb (ix3 b r j) = ∑ k : Fin 2048, xb (ix3 b r k) * wb (ix2 j k) := by
  unfold k0_pay8
  refine (unflat_rows_apply _ _ b r j).trans ?_
  refine (matmul_rows_apply _ _ (row b r) j).trans ?_
  refine Finset.sum_congr rfl fun k _ => ?_
  rw [flat_rows_apply, shapeCast_self, shapeCast_self]

/-! ## Layout operations of the carried columns, read at coordinates -/

/-- An `[a, b, 1]` array cast to `[a, b]` reads, at `(i, j)`, the operand at `(i, j, 0)`. -/
theorem shapeCast_ab1_ab_apply {α : Type} {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b]` array cast to `[a, b, 1]` reads, at `(i, j, u)`, the operand at `(i, j)`, whatever the unit coordinate. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` column broadcast along the last axis to `[a, b, c]` reads, at `(i, j, k)`, the operand at `(i, j, 0)`. -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The source index over `(b, r)` with lane `k` inserted on the last axis is `(b, r, k)`. -/
theorem lift_lane (b : Fin 4) (r : Fin 256) (k : Fin 1280) :
    (Facts₀.reduces_S4x256x1280_S4x256).lift (ix2 b r) k = ix3 b r k := by
  funext ax; apply Fin.ext
  match ax with
  | ⟨0, _⟩ => rfl
  | ⟨1, _⟩ => rfl
  | ⟨2, _⟩ => rfl

/-- The f32 word of `-∞` is `⊥`. -/
theorem ofBits_neg_inf_f32 : Ideal.ofBits .f32 0xFF800000#32 = (⊥ : EReal) := by
  simp [Ideal.ofBits, Ideal.ieee]

/-- A sum over the lanes, read at `(b, r)`. -/
theorem lane_sum_apply (src : FVec Ideal S4x256x1280 .f32) (b : Fin 4) (r : Fin 256) :
    multiReduction (F := Ideal) .add [2] S4x256 src 0x00000000#32 Facts₀.reduces_S4x256x1280_S4x256 (.inl rfl) rfl (ix2 b r)
      = ∑ k : Fin 1280, src (ix3 b r k) := by
  refine (Ideal.multiReduction_add_single src 0x00000000#32 Facts₀.reduces_S4x256x1280_S4x256 (.inl rfl) rfl (ix2 b r)).trans ?_
  exact Finset.sum_congr rfl fun k _ => congrArg src (lift_lane b r k)

/-- A maximum over the lanes from `-∞`, read at `(b, r)`. -/
theorem lane_max_apply (src : FVec Ideal S4x256x1280 .f32) (b : Fin 4) (r : Fin 256) :
    multiReduction (F := Ideal) .maximumf [2] S4x256 src 0xFF800000#32 Facts₀.reduces_S4x256x1280_S4x256 (.inl rfl) rfl (ix2 b r)
      = (Finset.univ : Finset (Fin 1280)).fold max ⊥ fun k => src (ix3 b r k) := by
  refine (Ideal.multiReduction_maximumf_single src 0xFF800000#32 Facts₀.reduces_S4x256x1280_S4x256 (.inl rfl) rfl (ix2 b r)).trans ?_
  have hf : src ∘ (Facts₀.reduces_S4x256x1280_S4x256).lift (ix2 b r) = fun k : Fin 1280 => src (ix3 b r k) :=
    funext fun k => congrArg src (lift_lane b r k)
  show Finset.fold max (Ideal.ofBits .f32 0xFF800000#32) _ _ = _
  rw [ofBits_neg_inf_f32, hf]
  rfl

/-! ## The reset values, the stored maximum and the output -/

/-- The reset values the first chunk of a token tile stores: `-∞`, `0`, `0`. -/
theorem pay5_apply (j : S4x256x1.Idx) : k0_pay5 (F := Ideal) j = (⊥ : EReal) := by
  unfold k0_pay5
  rw [shapeCast_self]
  exact ofBits_neg_inf_f32
theorem pay6_apply (j : S4x256x1.Idx) : k0_pay6 (F := Ideal) j = (0 : EReal) := by
  unfold k0_pay6
  rw [shapeCast_self]
  exact Ideal.ofBits_zero_f32
theorem pay7_apply (j : S4x256x1.Idx) : k0_pay7 (F := Ideal) j = (0 : EReal) := by
  unfold k0_pay7
  rw [shapeCast_self]
  exact Ideal.ofBits_zero_f32

/-- Storing the new maximum is the identity on it. -/
theorem pay2_eq (v : FVec Ideal S4x256x1 .f32) : k0_pay2 (F := Ideal) v = v := by
  unfold k0_pay2
  exact shapeCast_self _ _

/-! ## One chunk's update of the three carried columns -/

/-- The column number of lane `k` of the chunk at grid column `c`, as a 32-bit word: `1280 * c + k`. -/
theorem col_word (c k : ℕ) :
    IntOp.addi (Scalar.muli (BitVec.ofNat 32 c) 1280#32) (BitVec.ofNat 32 k) = BitVec.ofNat 32 (1280 * c + k) := by
  show BitVec.ofNat 32 c * BitVec.ofNat 32 1280 + BitVec.ofNat 32 k = _
  rw [← BitVec.ofNat_mul, ← BitVec.ofNat_add, Nat.mul_comm]

/-- A select on the equality of two words is the `if` on it. -/
theorem select_cmpi_eq {α : Type} (x y : BitVec 32) (A B : α) :
    Scalar.select (IntOp.cmpi .eq x y) A B = if x = y then A else B := by
  have hc : IntOp.cmpi .eq x y = BitVec.ofBool (x == y) := rfl
  unfold Scalar.select
  rw [hc]
  by_cases h : x = y
  · rw [if_pos h, h]; simp
  · rw [if_neg h, beq_eq_false_iff_ne.mpr h]; rfl

/-- The chunk's maximum joined to the old one, over the scores. -/
theorem pay10_apply (xb : Vec Ideal S4x256x2048 .bf16) (wb : Vec Ideal S1280x2048 .bf16) (ms : Vec Ideal S4x256x1 .f32)
    (b : Fin 4) (r : Fin 256) :
    k0_pay10 (F := Ideal) xb wb ms (ix3 b r (0 : Fin 1))
      = max (ms (ix3 b r (0 : Fin 1)))
          ((Finset.univ : Finset (Fin 1280)).fold max ⊥ fun j => k0_pay8 (F := Ideal) xb wb (ix3 b r j)) := by
  unfold k0_pay10
  refine (maximumf_apply _ _ _).trans ?_
  exact congrArg (max _) ((shapeCast_ab_ab1_apply _ _ b r 0).trans (lane_max_apply _ b r))

/-- The chunk's picked score: the sum over the lanes of the score where the lane's column number is the label. -/
theorem pay9_apply (i : grid0.Coords) (xb : Vec Ideal S4x256x2048 .bf16) (wb : Vec Ideal S1280x2048 .bf16)
    (yb : Vec Ideal S4x256 .i32) (b : Fin 4) (r : Fin 256) :
    k0_pay9 (F := Ideal) i xb wb yb (ix3 b r (0 : Fin 1))
      = ∑ k : Fin 1280, if BitVec.ofNat 32 (1280 * (i 1).val + k.val) = yb (ix2 b r)
          then k0_pay8 (F := Ideal) xb wb (ix3 b r k) else 0 := by
  unfold k0_pay9
  refine (shapeCast_ab_ab1_apply _ _ b r 0).trans ?_
  refine (lane_sum_apply _ b r).trans ?_
  refine Finset.sum_congr rfl fun k _ => ?_
  refine (select_apply _ _ _ _).trans ?_
  refine (select_cmpi_eq _ _ _ _).trans ?_
  have e1 : addi (broadcast S4x256x1280 (Scalar.muli (BitVec.ofNat 32 (i 1).val) 1280#32))
      (iota .tc S4x256x1280 32 [2] Facts₀.iota_S4x256x1280_d2_w32) (ix3 b r k) = BitVec.ofNat 32 (1280 * (i 1).val + k.val) := by
    show IntOp.addi _ (iota .tc S4x256x1280 32 [2] _ (ix3 b r k)) = _
    rw [iota_single_apply]
    exact col_word _ _
  have e2 : broadcastTo S4x256x1280 (shapeCast S4x256x1 yb Facts₀.shapeCasts_S4x256_S4x256x1)
      Facts₀.broadcasts_S4x256x1_S4x256x1280 (ix3 b r k) = yb (ix2 b r) :=
    (broadcastTo_ab1_abc_apply _ _ b r k).trans (shapeCast_ab_ab1_apply _ _ b r 0)
  have e3 : broadcast S4x256x1280 (FloatOps.ofBits (F := Ideal) .f32 0x00000000#32) (ix3 b r k) = (0 : EReal) :=
    Ideal.ofBits_zero_f32
  exact if_congr (Eq.to_iff (congrArg₂ (· = ·) e1 e2)) rfl e3

/-- The chunk's exponentials against the new maximum. -/
theorem pay11_apply (xb : Vec Ideal S4x256x2048 .bf16) (wb : Vec Ideal S1280x2048 .bf16) (ms : Vec Ideal S4x256x1 .f32)
    (b : Fin 4) (r : Fin 256) (k : Fin 1280) :
    k0_pay11 (F := Ideal) xb wb ms (ix3 b r k)
      = Ideal.exp (k0_pay8 (F := Ideal) xb wb (ix3 b r k) - k0_pay10 (F := Ideal) xb wb ms (ix3 b r (0 : Fin 1))) := by
  unfold k0_pay11
  show Ideal.exp (_ - broadcastTo S4x256x1280 _ _ (ix3 b r k)) = _
  rw [broadcastTo_ab1_abc_apply]

/-- The old sum rescaled to the new maximum. -/
theorem pay12_apply (xb : Vec Ideal S4x256x2048 .bf16) (wb : Vec Ideal S1280x2048 .bf16) (ms ms' ls : Vec Ideal S4x256x1 .f32)
    (j : S4x256x1.Idx) :
    k0_pay12 (F := Ideal) xb wb ms ms' ls j = Ideal.exp (ms' j - k0_pay10 (F := Ideal) xb wb ms j) * ls j := rfl

/-- The stored sum: the rescaled old sum plus the sum of the chunk's exponentials over the lanes. -/
theorem pay1_apply (v28 : FVec Ideal S4x256x1280 .f32) (v33 : FVec Ideal S4x256x1 .f32) (b : Fin 4) (r : Fin 256) :
    k0_pay1 (F := Ideal) v28 v33 (ix3 b r (0 : Fin 1)) = v33 (ix3 b r (0 : Fin 1)) + ∑ k : Fin 1280, v28 (ix3 b r k) := by
  unfold k0_pay1
  rw [shapeCast_self]
  refine (addf_apply _ _ _).trans ?_
  exact congrArg (_ + ·) ((shapeCast_ab_ab1_apply _ _ b r 0).trans (lane_sum_apply _ b r))

section step

variable (i : grid0.Coords) (xb : Vec Ideal S4x256x2048 .bf16) (yb : Vec Ideal S4x256 .i32) (wb : Vec Ideal S1280x2048 .bf16)
  (ms ls ts : Vec Ideal S4x256x1 .f32) (a : Fin 4 → Fin 256 → Fin 32000 → EReal) (n : ℕ) (hn : n + 1280 ≤ 32000)
  (hs : ∀ (b : Fin 4) (r : Fin 256) (j : Fin 1280), (∑ k : Fin 2048, xb (ix3 b r k) * wb (ix2 j k)) = a b r (col n 1280 hn j))

include hs in
/-- The new running maximum. -/
theorem new_max (hm : ∀ b r, ms (ix3 b r (0 : Fin 1)) = rowMax (a b r) n) (b : Fin 4) (r : Fin 256) :
    k0_pay10 (F := Ideal) xb wb ms (ix3 b r (0 : Fin 1)) = rowMax (a b r) (n + 1280) := by
  rw [pay10_apply, hm b r]
  have hf : (fun j : Fin 1280 => k0_pay8 (F := Ideal) xb wb (ix3 b r j)) = fun j => a b r (col n 1280 hn j) :=
    funext fun j => (pay8_apply xb wb b r j).trans (hs b r j)
  rw [hf]
  exact rowMax_step (a b r) n 1280 hn

include hs in
/-- The new running sum: the old one rescaled plus the chunk's. Every score is a real number. -/
theorem new_sum (hfin : ∀ b r v, ∃ x : ℝ, a b r v = (x : EReal))
    (hm : ∀ b r, ms (ix3 b r (0 : Fin 1)) = rowMax (a b r) n) (hl : ∀ b r, ls (ix3 b r (0 : Fin 1)) = rowSumExp (a b r) n)
    (b : Fin 4) (r : Fin 256) :
    k0_pay1 (F := Ideal) (k0_pay11 xb wb ms) (k0_pay12 xb wb ms ms ls) (ix3 b r (0 : Fin 1)) = rowSumExp (a b r) (n + 1280) := by
  have hM := new_max xb wb ms a n hn hs hm b r
  have hk : ∀ k : Fin 1280, k0_pay11 (F := Ideal) xb wb ms (ix3 b r k)
      = Ideal.exp (a b r (col n 1280 hn k) - rowMax (a b r) (n + 1280)) := fun k => by
    rw [pay11_apply, pay8_apply, hs b r k, hM]
  rw [pay1_apply, pay12_apply, hm b r, hl b r, hM, Finset.sum_congr rfl fun k _ => hk k]
  exact rowSumExp_step (a b r) (hfin b r) n 1280 (by norm_num) hn

include hs in
/-- The new picked logit: the chunk's columns are numbered from `1280 * (i 1)`. -/
theorem new_pick (hi : n = 1280 * (i 1).val) (ht : ∀ b r, ts (ix3 b r (0 : Fin 1)) = rowPick (a b r) (yb (ix2 b r)) n)
    (b : Fin 4) (r : Fin 256) :
    k0_pay3 (F := Ideal) (k0_pay9 i xb wb yb) ts (ix3 b r (0 : Fin 1)) = rowPick (a b r) (yb (ix2 b r)) (n + 1280) := by
  have hk : ∀ k : Fin 1280,
      (if BitVec.ofNat 32 (1280 * (i 1).val + k.val) = yb (ix2 b r) then k0_pay8 (F := Ideal) xb wb (ix3 b r k) else 0)
        = (if BitVec.ofNat 32 (col n 1280 hn k).val = yb (ix2 b r) then a b r (col n 1280 hn k) else 0) := fun k => by
    rw [pay8_apply, hs b r k, col_val, ← hi]
  unfold k0_pay3
  rw [shapeCast_self]
  refine (addf_apply _ _ _).trans ?_
  rw [ht b r, pay9_apply, Finset.sum_congr rfl fun k _ => hk k]
  exact rowPick_step (a b r) (yb (ix2 b r)) n 1280 hn

end step

/-- The last chunk's output block: `t - (m + log l)` of the three columns. -/
theorem pay4_apply (mv lv tv : Vec Ideal S4x256x1 .f32) (b : Fin 4) (r : Fin 256) :
    k0_pay4 (F := Ideal) mv lv tv (ix2 b r)
      = tv (ix3 b r (0 : Fin 1)) - (mv (ix3 b r (0 : Fin 1)) + Ideal.log (lv (ix3 b r (0 : Fin 1)))) := by
  unfold k0_pay4
  refine (shapeCast_ab1_ab_apply _ _ b r).trans ?_
  rfl

end Cert.KernelIdeal.Pay

end
-- ==== Proof.KernelPieces.lean ====
/-
  What one run of the body leaves in the three carried columns and in the output block, as the body's arithmetic of
  the blocks it loaded.

  At the first chunk of a token tile the columns are first reset (to the values of `k0_pay5`, `k0_pay6`, `k0_pay7`) and
  then updated from the reset values; at every later chunk they are updated from what the chunk before left; at the last
  chunk the output block is computed from the columns after that chunk's own update.
-/
import proofs.«406065_j77429670412358_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

variable (c : Dev nD) (i : grid0.Coords) (arg2 : Memref sig .tc .vmem S4x256x2048 .bf16) (harg2 : arg2.IsWhole) (arg3 : Memref sig .tc .vmem S4x256 .i32) (harg3 : arg3.IsWhole) (arg4 : Memref sig .tc .vmem S1280x2048 .bf16) (harg4 : arg4.IsWhole) (arg5 : Memref sig .tc .vmem S4x256 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1 .f32) (harg8 : arg8.IsWhole)

theorem sout_A_0 (hc0 : cond0_0 i) (hc1 : ¬cond0_1 i) (x0 : Vec F S4x256x2048 .bf16) (x1 : Vec F S4x256 .i32) (x2 : Vec F S1280x2048 .bf16) :
    sout0_A_0 c i arg2 harg2 arg3 harg3 arg4 harg4 arg5 harg5 arg6 harg6 arg7 harg7 arg8 harg8 hc0 hc1 x0 x1 x2 = k0_pay2 (k0_pay10 x0 x2 k0_pay5) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S4x256x1) hz3]
  simp only [View.readAt_eq_ld, harg2.read_unread, harg3.read_unread, harg4.read_unread, View.readCov_unit_zero (S := S4x256x1) _ hz3, View.ld_unit_zero (S := S4x256x2048) hz3, View.ld_unit_zero (S := S1280x2048) hz2, View.ld_unit_zero (S := S4x256) hz2, View.ld_unit_zero (S := S4x256x1) hz3]

theorem sout_A_1 (hc0 : cond0_0 i) (hc1 : ¬cond0_1 i) (x0 : Vec F S4x256x2048 .bf16) (x1 : Vec F S4x256 .i32) (x2 : Vec F S1280x2048 .bf16) :
    sout0_A_1 c i arg2 harg2 arg3 harg3 arg4 harg4 arg5 harg5 arg6 harg6 arg7 harg7 arg8 harg8 hc0 hc1 x0 x1 x2 = k0_pay1 (k0_pay11 x0 x2 k0_pay5) (k0_pay12 x0 x2 k0_pay5 k0_pay5 k0_pay6) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S4x256x1) hz3]
  simp only [View.readAt_eq_ld, harg2.read_unread, harg3.read_unread, harg4.read_unread, View.readCov_unit_zero (S := S4x256x1) _ hz3, View.ld_unit_zero (S := S4x256x2048) hz3, View.ld_unit_zero (S := S1280x2048) hz2, View.ld_unit_zero (S := S4x256) hz2, View.ld_unit_zero (S := S4x256x1) hz3]

theorem sout_A_2 (hc0 : cond0_0 i) (hc1 : ¬cond0_1 i) (x0 : Vec F S4x256x2048 .bf16) (x1 : Vec F S4x256 .i32) (x2 : Vec F S1280x2048 .bf16) :
    sout0_A_2 c i arg2 harg2 arg3 harg3 arg4 harg4 arg5 harg5 arg6 harg6 arg7 harg7 arg8 harg8 hc0 hc1 x0 x1 x2 = k0_pay3 (k0_pay9 i x0 x2 x1) k0_pay7 := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S4x256x1) hz3]
  simp only [View.readAt_eq_ld, harg2.read_unread, harg3.read_unread, harg4.read_unread, View.readCov_unit_zero (S := S4x256x1) _ hz3, View.ld_unit_zero (S := S4x256x2048) hz3, View.ld_unit_zero (S := S1280x2048) hz2, View.ld_unit_zero (S := S4x256) hz2, View.ld_unit_zero (S := S4x256x1) hz3]

theorem sout_B_0 (hc0 : ¬cond0_0 i) (hc1 : ¬cond0_1 i) (x0 : Vec F S4x256x2048 .bf16) (x1 : Vec F S4x256 .i32) (x2 : Vec F S1280x2048 .bf16) (xs0 xs1 xs2 : Vec F S4x256x1 .f32) :
    sout0_B_0 c i arg2 harg2 arg3 harg3 arg4 harg4 arg5 harg5 arg6 harg6 arg7 harg7 arg8 harg8 hc0 hc1 x0 x1 x2 xs0 xs1 xs2 = k0_pay2 (k0_pay10 x0 x2 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz3]
  simp only [View.readAt_eq_ld, harg2.read_unread, harg3.read_unread, harg4.read_unread, harg6.read_unread, harg7.read_unread, harg8.read_unread, View.ld_unit_zero (S := S4x256x2048) hz3, View.ld_unit_zero (S := S1280x2048) hz2, View.ld_unit_zero (S := S4x256) hz2, View.ld_unit_zero (S := S4x256x1) hz3]

theorem sout_B_1 (hc0 : ¬cond0_0 i) (hc1 : ¬cond0_1 i) (x0 : Vec F S4x256x2048 .bf16) (x1 : Vec F S4x256 .i32) (x2 : Vec F S1280x2048 .bf16) (xs0 xs1 xs2 : Vec F S4x256x1 .f32) :
    sout0_B_1 c i arg2 harg2 arg3 harg3 arg4 harg4 arg5 harg5 arg6 harg6 arg7 harg7 arg8 harg8 hc0 hc1 x0 x1 x2 xs0 xs1 xs2 = k0_pay1 (k0_pay11 x0 x2 xs0) (k0_pay12 x0 x2 xs0 xs0 xs1) := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz3]
  simp only [View.readAt_eq_ld, harg2.read_unread, harg3.read_unread, harg4.read_unread, harg6.read_unread, harg7.read_unread, harg8.read_unread, View.ld_unit_zero (S := S4x256x2048) hz3, View.ld_unit_zero (S := S1280x2048) hz2, View.ld_unit_zero (S := S4x256) hz2, View.ld_unit_zero (S := S4x256x1) hz3]

theorem sout_B_2 (hc0 : ¬cond0_0 i) (hc1 : ¬cond0_1 i) (x0 : Vec F S4x256x2048 .bf16) (x1 : Vec F S4x256 .i32) (x2 : Vec F S1280x2048 .bf16) (xs0 xs1 xs2 : Vec F S4x256x1 .f32) :
    sout0_B_2 c i arg2 harg2 arg3 harg3 arg4 harg4 arg5 harg5 arg6 harg6 arg7 harg7 arg8 harg8 hc0 hc1 x0 x1 x2 xs0 xs1 xs2 = k0_pay3 (k0_pay9 i x0 x2 x1) xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz3]
  simp only [View.readAt_eq_ld, harg2.read_unread, harg3.read_unread, harg4.read_unread, harg6.read_unread, harg7.read_unread, harg8.read_unread, View.ld_unit_zero (S := S4x256x2048) hz3, View.ld_unit_zero (S := S1280x2048) hz2, View.ld_unit_zero (S := S4x256) hz2, View.ld_unit_zero (S := S4x256x1) hz3]

theorem sout_C_0 (hc0 : ¬cond0_0 i) (hc1 : cond0_1 i) (x0 : Vec F S4x256x2048 .bf16) (x1 : Vec F S4x256 .i32) (x2 : Vec F S1280x2048 .bf16) (xs0 xs1 xs2 : Vec F S4x256x1 .f32) :
    sout0_C_0 c i arg2 harg2 arg3 harg3 arg4 harg4 arg5 harg5 arg6 harg6 arg7 harg7 arg8 harg8 hc0 hc1 x0 x1 x2 xs0 xs1 xs2 = k0_pay2 (k0_pay10 x0 x2 xs0) := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz3]
  simp only [View.readAt_eq_ld, harg2.read_unread, harg3.read_unread, harg4.read_unread, harg6.read_unread, harg7.read_unread, harg8.read_unread, View.ld_unit_zero (S := S4x256x2048) hz3, View.ld_unit_zero (S := S1280x2048) hz2, View.ld_unit_zero (S := S4x256) hz2, View.ld_unit_zero (S := S4x256x1) hz3]

theorem sout_C_1 (hc0 : ¬cond0_0 i) (hc1 : cond0_1 i) (x0 : Vec F S4x256x2048 .bf16) (x1 : Vec F S4x256 .i32) (x2 : Vec F S1280x2048 .bf16) (xs0 xs1 xs2 : Vec F S4x256x1 .f32) :
    sout0_C_1 c i arg2 harg2 arg3 harg3 arg4 harg4 arg5 harg5 arg6 harg6 arg7 harg7 arg8 harg8 hc0 hc1 x0 x1 x2 xs0 xs1 xs2 = k0_pay1 (k0_pay11 x0 x2 xs0) (k0_pay12 x0 x2 xs0 xs0 xs1) := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz3]
  simp only [View.readAt_eq_ld, harg2.read_unread, harg3.read_unread, harg4.read_unread, harg6.read_unread, harg7.read_unread, harg8.read_unread, View.ld_unit_zero (S := S4x256x2048) hz3, View.ld_unit_zero (S := S1280x2048) hz2, View.ld_unit_zero (S := S4x256) hz2, View.ld_unit_zero (S := S4x256x1) hz3]

theorem sout_C_2 (hc0 : ¬cond0_0 i) (hc1 : cond0_1 i) (x0 : Vec F S4x256x2048 .bf16) (x1 : Vec F S4x256 .i32) (x2 : Vec F S1280x2048 .bf16) (xs0 xs1 xs2 : Vec F S4x256x1 .f32) :
    sout0_C_2 c i arg2 harg2 arg3 harg3 arg4 harg4 arg5 harg5 arg6 harg6 arg7 harg7 arg8 harg8 hc0 hc1 x0 x1 x2 xs0 xs1 xs2 = k0_pay3 (k0_pay9 i x0 x2 x1) xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz3]
  simp only [View.readAt_eq_ld, harg2.read_unread, harg3.read_unread, harg4.read_unread, harg6.read_unread, harg7.read_unread, harg8.read_unread, View.ld_unit_zero (S := S4x256x2048) hz3, View.ld_unit_zero (S := S1280x2048) hz2, View.ld_unit_zero (S := S4x256) hz2, View.ld_unit_zero (S := S4x256x1) hz3]

theorem out_C_3 (hc0 : ¬cond0_0 i) (hc1 : cond0_1 i) (x0 : Vec F S4x256x2048 .bf16) (x1 : Vec F S4x256 .i32) (x2 : Vec F S1280x2048 .bf16) (xs0 xs1 xs2 : Vec F S4x256x1 .f32) :
    out0_C_3 c i arg2 harg2 arg3 harg3 arg4 harg4 arg5 harg5 arg6 harg6 arg7 harg7 arg8 harg8 hc0 hc1 x0 x1 x2 xs0 xs1 xs2 = k0_pay4 (k0_pay2 (k0_pay10 x0 x2 xs0)) (k0_pay1 (k0_pay11 x0 x2 xs0) (k0_pay12 x0 x2 xs0 xs0 xs1)) (k0_pay3 (k0_pay9 i x0 x2 x1) xs2) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz2]
  simp only [View.readAt_eq_ld, harg2.read_unread, harg3.read_unread, harg4.read_unread, harg6.read_unread, harg7.read_unread, harg8.read_unread, View.readCov_unit_zero (S := S4x256x1) _ hz3, View.ld_unit_zero (S := S4x256x2048) hz3, View.ld_unit_zero (S := S1280x2048) hz2, View.ld_unit_zero (S := S4x256) hz2, View.ld_unit_zero (S := S4x256x1) hz3]

end Cert.KernelIdeal.Pieces

end
-- ==== Proof.KernelBlocks.lean ====
/-
  The blocks a grid point works on, read at an index.

  A grid point `t = 25 * ti + vi` sees rows `256 * ti ..` of every one of the 4 batch rows of the first argument and of
  the labels, and rows `1280 * vi ..` of the third argument (the vocabulary). The two float arguments reach the program
  through a narrowing of the float format, which changes no ideal value.
-/
import proofs.«406065_j77429670412358_2_alg».proof.Proof.Gen.KernelIdeal.Frame
import Idealize.ShloMosaic.PureOps.Ideal
import Idealize.ShloMosaic.Lib.ValueIdx
import Idealize.ShloMosaic.Lib.Pipeline.Value
import Idealize.ShloMosaic.Lib.Tactic

noncomputable section

namespace Cert.KernelIdeal.Blocks

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The three argument arrays as launched. -/
abbrev X (c : Dev nD) : S4x1024x2048.Idx → EReal := m ((c.tc : Thread nD τ).loc main_arg0)
abbrev W (c : Dev nD) : S32000x2048.Idx → EReal := m ((c.tc : Thread nD τ).loc main_arg2)
abbrev Y (c : Dev nD) : S4x1024.Idx → BitVec 32 := m ((c.tc : Thread nD τ).loc main_arg1)

/-- The blocks a grid point works on, at their literal types. -/
abbrev xblk (c : Dev nD) (t : Fin cfg0.N) : Vec Ideal S4x256x2048 .bf16 := iblk m c 0 t
abbrev yblk (c : Dev nD) (t : Fin cfg0.N) : Vec Ideal S4x256 .i32 := iblk m c 1 t
abbrev wblk (c : Dev nD) (t : Fin cfg0.N) : Vec Ideal S1280x2048 .bf16 := iblk m c 2 t

/-- Narrowing the float format changes no ideal value: the narrowed copy of the first argument is the argument. -/
theorem V_x (c : Dev nD) : (V m c main_v0 : S4x1024x2048.Idx → EReal) = X m c := by
  show StableHlo.after hostOps0 (fun b => m (c, b)) (Proc.devRef .tc main_v0) = _
  after_results
  rfl

/-- The same for the third argument. -/
theorem V_w (c : Dev nD) : (V m c main_v1 : S32000x2048.Idx → EReal) = W m c := by
  show StableHlo.after hostOps0 (fun b => m (c, b)) (Proc.devRef .tc main_v1) = _
  after_results
  rfl

theorem V_y (c : Dev nD) : (V m c main_arg1 : S4x1024.Idx → BitVec 32) = Y m c := V_main_arg1 m c

/-- Point `t = 25 * ti + vi`: every window's block index in terms of `ti = t / 25` and `vi = t % 25`. -/
theorem idx_facts : ∀ t : Fin cfg0.N,
    win0_0.index t (0 : Fin 3) = 0 ∧ win0_0.index t (1 : Fin 3) = t.val / 25 ∧ win0_0.index t (2 : Fin 3) = 0
    ∧ win0_1.index t (0 : Fin 2) = 0 ∧ win0_1.index t (1 : Fin 2) = t.val / 25
    ∧ win0_2.index t (0 : Fin 2) = t.val % 25 ∧ win0_2.index t (1 : Fin 2) = 0
    ∧ win0_3.index t (0 : Fin 2) = 0 ∧ win0_3.index t (1 : Fin 2) = t.val / 25
    ∧ ((grid0.coords t) 1).val = t.val % 25 :=
  (by decide +kernel : ∀ t : Fin grid0.N, _)

theorem N_eq : cfg0.N = 100 := N_0

/-- Row `r` of token tile `t / 25`. -/
def tok (t : Fin cfg0.N) (r : Fin 256) : Fin 1024 :=
  ⟨256 * (t.val / 25) + r.val, by have h : t.val < 100 := lt_of_lt_of_eq t.isLt N_eq; have := r.isLt; omega⟩

/-- Column `j` of vocabulary chunk `t % 25`. -/
def voc (t : Fin cfg0.N) (j : Fin 1280) : Fin 32000 :=
  ⟨1280 * (t.val % 25) + j.val, by have := j.isLt; omega⟩

theorem xblk_apply (c : Dev nD) (t : Fin cfg0.N) (b : Fin 4) (r : Fin 256) (k : Fin 2048) :
    xblk m c t (ix3 b r k) = X m c (ix3 b (tok t r) k) := by
  obtain ⟨e0, e1, e2, -⟩ := idx_facts t
  rw [← V_x m c]
  unfold xblk iblk
  rw [View.read_apply]
  show V m c main_v0 _ = V m c main_v0 _
  congr 1
  funext a
  apply Fin.ext
  match a with
  | ⟨0, _⟩ => show win0_0.index t (0 : Fin 3) * 4 + 1 * b.val = b.val; rw [e0]; omega
  | ⟨1, _⟩ => show win0_0.index t (1 : Fin 3) * 256 + 1 * r.val = 256 * (t.val / 25) + r.val; rw [e1]; omega
  | ⟨2, _⟩ => show win0_0.index t (2 : Fin 3) * 2048 + 1 * k.val = k.val; rw [e2]; omega

theorem wblk_apply (c : Dev nD) (t : Fin cfg0.N) (j : Fin 1280) (k : Fin 2048) :
    wblk m c t (ix2 j k) = W m c (ix2 (voc t j) k) := by
  obtain ⟨-, -, -, -, -, e0, e1, -⟩ := idx_facts t
  rw [← V_w m c]
  unfold wblk iblk
  rw [View.read_apply]
  show V m c main_v1 _ = V m c main_v1 _
  congr 1
  funext a
  apply Fin.ext
  match a with
  | ⟨0, _⟩ => show win0_2.index t (0 : Fin 2) * 1280 + 1 * j.val = 1280 * (t.val % 25) + j.val; rw [e0]; omega
  | ⟨1, _⟩ => show win0_2.index t (1 : Fin 2) * 2048 + 1 * k.val = k.val; rw [e1]; omega

theorem yblk_apply (c : Dev nD) (t : Fin cfg0.N) (b : Fin 4) (r : Fin 256) :
    yblk m c t (ix2 b r) = Y m c (ix2 b (tok t r)) := by
  obtain ⟨-, -, -, e0, e1, -⟩ := idx_facts t
  rw [← V_y m c]
  unfold yblk iblk
  rw [View.read_apply]
  show V m c main_arg1 _ = V m c main_arg1 _
  congr 1
  funext a
  apply Fin.ext
  match a with
  | ⟨0, _⟩ => show win0_1.index t (0 : Fin 2) * 4 + 1 * b.val = b.val; rw [e0]; omega
  | ⟨1, _⟩ => show win0_1.index t (1 : Fin 2) * 256 + 1 * r.val = 256 * (t.val / 25) + r.val; rw [e1]; omega

end Cert.KernelIdeal.Blocks

end
-- ==== Proof.KernelInv.lean ====
/-
  The invariant of the streaming program, by induction on the grid point.

  A grid point `t = 25 * ti + vi` works on the token tile `ti` and the vocabulary chunk `vi`. After the point, the three
  carried columns hold, for each token of the tile, the running maximum, the running sum of exponentials and the picked
  logit of the token's row of logits over the first `1280 * (vi + 1)` columns: the first chunk of a tile starts from the
  reset values (`-∞`, `0`, `0`: the three quantities over no column), every later chunk from what the chunk before left
  (the same tile, the columns before `1280 * vi`). At the last chunk the output block is the picked logit minus
  `max + log (sum of exp)` over all 32000 columns.
-/
import proofs.«406065_j77429670412358_2_alg».proof.Proof.Gen.KernelIdeal.Frame
import proofs.«406065_j77429670412358_2_alg».proof.Proof.KernelPay
import proofs.«406065_j77429670412358_2_alg».proof.Proof.Spec
import proofs.«406065_j77429670412358_2_alg».proof.Proof.KernelPieces
import proofs.«406065_j77429670412358_2_alg».proof.Proof.KernelBlocks
import Idealize.ShloMosaic.PureOps.Ideal
import Idealize.ShloMosaic.Lib.ValueIdx
import Idealize.ShloMosaic.Lib.Pipeline.Value
import Idealize.ShloMosaic.Lib.Tactic

noncomputable section

namespace Cert.KernelIdeal.Inv

open scoped BigOperators
open Idealize.ShloMosaic Idealize.ShloMosaic.TcCoe Idealize.ShloMosaic.ValueIdx Idealize.SL.Sem
open Cert.KernelIdeal Cert.KernelIdeal.Gen Cert.KernelIdeal.Blocks Cert.Spec

variable [Cert.KernelIdeal.Facts]
variable (m : (ℓ : Loc nD τ sig) → Buf (Elt Ideal) ℓ)

/-- The row of logits of the token in batch row `b`, row `r` of the tile of point `t`. -/
def row (c : Dev nD) (t : Fin cfg0.N) (b : Fin 4) (r : Fin 256) : Fin 32000 → EReal :=
  logit (X m c) (W m c) b (tok t r)

/-- The block of scores of point `t` is columns `1280 * (t % 25) ..` of those rows. -/
theorem scores (c : Dev nD) (t : Fin cfg0.N) (n : ℕ) (hnt : n = 1280 * (t.val % 25)) (hn : n + 1280 ≤ 32000)
    (b : Fin 4) (r : Fin 256) (j : Fin 1280) :
    (∑ k : Fin 2048, xblk m c t (ix3 b r k) * wblk m c t (ix2 j k)) = row m c t b r (col n 1280 hn j) := by
  subst hnt
  unfold row logit
  refine Finset.sum_congr rfl fun k _ => ?_
  rw [xblk_apply, wblk_apply]
  rfl

/-- One chunk moves the three columns from their values at column `n` to their values at column `n + 1280`. -/
theorem step (i : grid0.Coords) (xb : Vec Ideal S4x256x2048 .bf16) (yb : Vec Ideal S4x256 .i32) (wb : Vec Ideal S1280x2048 .bf16)
    (ms ls ts : Vec Ideal S4x256x1 .f32) (a : Fin 4 → Fin 256 → Fin 32000 → EReal) (n : ℕ) (hn : n + 1280 ≤ 32000)
    (hs : ∀ (b : Fin 4) (r : Fin 256) (j : Fin 1280), (∑ k : Fin 2048, xb (ix3 b r k) * wb (ix2 j k)) = a b r (col n 1280 hn j))
    (hfin : ∀ b r v, ∃ x : ℝ, a b r v = (x : EReal)) (hi : n = 1280 * (i 1).val)
    (hm : ∀ b r, ms (ix3 b r (0 : Fin 1)) = rowMax (a b r) n)
    (hl : ∀ b r, ls (ix3 b r (0 : Fin 1)) = rowSumExp (a b r) n)
    (ht : ∀ b r, ts (ix3 b r (0 : Fin 1)) = rowPick (a b r) (yb (ix2 b r)) n) (b : Fin 4) (r : Fin 256) :
    k0_pay2 (F := Ideal) (k0_pay10 xb wb ms) (ix3 b r (0 : Fin 1)) = rowMax (a b r) (n + 1280)
    ∧ k0_pay1 (F := Ideal) (k0_pay11 xb wb ms) (k0_pay12 xb wb ms ms ls) (ix3 b r (0 : Fin 1)) = rowSumExp (a b r) (n + 1280)
    ∧ k0_pay3 (F := Ideal) (k0_pay9 i xb wb yb) ts (ix3 b r (0 : Fin 1)) = rowPick (a b r) (yb (ix2 b r)) (n + 1280) :=
  ⟨(congrFun (Pay.pay2_eq (k0_pay10 xb wb ms)) (ix3 b r (0 : Fin 1))).trans
      (Pay.new_max (xb := xb) (wb := wb) (ms := ms) (a := a) (n := n) (hn := hn) (hs := hs) hm b r),
    Pay.new_sum (xb := xb) (wb := wb) (ms := ms) (ls := ls) (a := a) (n := n) (hn := hn) (hs := hs) hfin hm hl b r,
    Pay.new_pick (i := i) (xb := xb) (yb := yb) (wb := wb) (ts := ts) (a := a) (n := n) (hn := hn) (hs := hs) hi ht b r⟩

/-- After point `t` the three carried columns hold the running maximum, the running sum and the picked logit of each
    token's row over the columns before `1280 * (t % 25) + 1280`. -/
def Holds (c : Dev nD) (t : Fin cfg0.N) : Prop := ∀ (b : Fin 4) (r : Fin 256),
    (outsAt0 m c t.val t.isLt).2.1 (ix3 b r (0 : Fin 1)) = rowMax (row m c t b r) (1280 * (t.val % 25) + 1280)
    ∧ (outsAt0 m c t.val t.isLt).2.2.1 (ix3 b r (0 : Fin 1)) = rowSumExp (row m c t b r) (1280 * (t.val % 25) + 1280)
    ∧ (outsAt0 m c t.val t.isLt).2.2.2 (ix3 b r (0 : Fin 1))
        = rowPick (row m c t b r) (yblk m c t (ix2 b r)) (1280 * (t.val % 25) + 1280)

section
variable (c : Dev nD)
  (hX : ∀ i, ∃ x : ℝ, X m c i = (x : EReal)) (hW : ∀ i, ∃ x : ℝ, W m c i = (x : EReal))
include hX hW

theorem row_real (t : Fin cfg0.N) (b : Fin 4) (r : Fin 256) (v : Fin 32000) : ∃ x : ℝ, row m c t b r v = (x : EReal) :=
  logit_real (X m c) (W m c) hX hW b (tok t r) v

/-- The first chunk of a tile: the columns are reset, then updated from column 0. -/
theorem holds_A (t : Fin cfg0.N) (h0 : t.val % 25 = 0) : Holds m c t := by
  intro b r
  have h1 : ¬t.val % 25 = 24 := by omega
  have e : 1280 * (t.val % 25) + 1280 = 0 + 1280 := by omega
  obtain ⟨-, -, -, -, -, -, -, -, -, ei⟩ := idx_facts t
  have hst := step (grid0.coords t) (xblk m c t) (yblk m c t) (wblk m c t) (k0_pay5 (F := Ideal)) (k0_pay6 (F := Ideal)) (k0_pay7 (F := Ideal)) (row m c t) 0 (by omega)
    (scores m c t 0 (by omega) (by omega)) (row_real m c hX hW t) (by rw [ei]; omega)
    (fun b r => (Pay.pay5_apply (ix3 b r (0 : Fin 1))).trans (rowMax_zero (row m c t b r)).symm)
    (fun b r => (Pay.pay6_apply (ix3 b r (0 : Fin 1))).trans (rowSumExp_zero (row m c t b r)).symm)
    (fun b r => (Pay.pay7_apply (ix3 b r (0 : Fin 1))).trans (rowPick_zero (row m c t b r) (yblk m c t (ix2 b r))).symm) b r
  rw [outsAt0_A m c t h0 h1]
  dsimp only
  rw [e]
  exact ⟨(congrFun (Pieces.sout_A_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (xblk m c t) (yblk m c t) (wblk m c t)) (ix3 b r (0 : Fin 1))).trans hst.1,
    (congrFun (Pieces.sout_A_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (xblk m c t) (yblk m c t) (wblk m c t)) (ix3 b r (0 : Fin 1))).trans hst.2.1,
    (congrFun (Pieces.sout_A_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (xblk m c t) (yblk m c t) (wblk m c t)) (ix3 b r (0 : Fin 1))).trans hst.2.2⟩

/-- A later chunk of a tile: the columns the chunk before left, updated from column `1280 * (t % 25)`. -/
theorem step_at (t : Fin cfg0.N) (h0 : ¬t.val % 25 = 0)
    (ih : Holds m c ⟨t.val - 1, Nat.lt_of_le_of_lt (Nat.sub_le _ _) t.isLt⟩) (b : Fin 4) (r : Fin 256) :
    k0_pay2 (F := Ideal) (k0_pay10 (xblk m c t) (wblk m c t) (outsAt0 m c (t.val - 1) (Nat.lt_of_le_of_lt (Nat.sub_le _ _) t.isLt)).2.1) (ix3 b r (0 : Fin 1))
        = rowMax (row m c t b r) (1280 * (t.val % 25) + 1280)
    ∧ k0_pay1 (F := Ideal) (k0_pay11 (xblk m c t) (wblk m c t) (outsAt0 m c (t.val - 1) (Nat.lt_of_le_of_lt (Nat.sub_le _ _) t.isLt)).2.1)
          (k0_pay12 (xblk m c t) (wblk m c t) (outsAt0 m c (t.val - 1) (Nat.lt_of_le_of_lt (Nat.sub_le _ _) t.isLt)).2.1 (outsAt0 m c (t.val - 1) (Nat.lt_of_le_of_lt (Nat.sub_le _ _) t.isLt)).2.1 (outsAt0 m c (t.val - 1) (Nat.lt_of_le_of_lt (Nat.sub_le _ _) t.isLt)).2.2.1) (ix3 b r (0 : Fin 1))
        = rowSumExp (row m c t b r) (1280 * (t.val % 25) + 1280)
    ∧ k0_pay3 (F := Ideal) (k0_pay9 (grid0.coords t) (xblk m c t) (wblk m c t) (yblk m c t)) (outsAt0 m c (t.val - 1) (Nat.lt_of_le_of_lt (Nat.sub_le _ _) t.isLt)).2.2.2 (ix3 b r (0 : Fin 1))
        = rowPick (row m c t b r) (yblk m c t (ix2 b r)) (1280 * (t.val % 25) + 1280) := by
  have hN : t.val < 100 := lt_of_lt_of_eq t.isLt N_eq
  have htok : ∀ r, tok ⟨t.val - 1, Nat.lt_of_le_of_lt (Nat.sub_le _ _) t.isLt⟩ r = tok t r := fun r =>
    Fin.ext (by show 256 * ((t.val - 1) / 25) + r.val = 256 * (t.val / 25) + r.val; omega)
  have hrow : ∀ b r, row m c ⟨t.val - 1, Nat.lt_of_le_of_lt (Nat.sub_le _ _) t.isLt⟩ b r = row m c t b r := fun b r => by
    unfold row; rw [htok]
  have hy : ∀ b r, yblk m c ⟨t.val - 1, Nat.lt_of_le_of_lt (Nat.sub_le _ _) t.isLt⟩ (ix2 b r) = yblk m c t (ix2 b r) := fun b r => by
    rw [yblk_apply, yblk_apply, htok]
  have hn' : 1280 * ((t.val - 1) % 25) + 1280 = 1280 * (t.val % 25) := by omega
  obtain ⟨-, -, -, -, -, -, -, -, -, ei⟩ := idx_facts t
  exact step (grid0.coords t) (xblk m c t) (yblk m c t) (wblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    (row m c t) (1280 * (t.val % 25)) (by omega)
    (scores m c t (1280 * (t.val % 25)) rfl (by omega)) (row_real m c hX hW t) (by rw [ei])
    (fun b r => by have := (ih b r).1; dsimp only at this; rw [hrow, hn'] at this; exact this)
    (fun b r => by have := (ih b r).2.1; dsimp only at this; rw [hrow, hn'] at this; exact this)
    (fun b r => by have := (ih b r).2.2; dsimp only at this; rw [hrow, hn', hy] at this; exact this) b r

theorem holds_BC (t : Fin cfg0.N) (h0 : ¬t.val % 25 = 0)
    (ih : Holds m c ⟨t.val - 1, Nat.lt_of_le_of_lt (Nat.sub_le _ _) t.isLt⟩) : Holds m c t := by
  intro b r
  have hst := step_at m c hX hW t h0 ih b r
  by_cases h1 : t.val % 25 = 24
  · rw [outsAt0_C m c t h0 h1]
    dsimp only
    exact ⟨(congrFun (Pieces.sout_C_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (xblk m c t) (yblk m c t) (wblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix3 b r (0 : Fin 1))).trans hst.1,
      (congrFun (Pieces.sout_C_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (xblk m c t) (yblk m c t) (wblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix3 b r (0 : Fin 1))).trans hst.2.1,
      (congrFun (Pieces.sout_C_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (xblk m c t) (yblk m c t) (wblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix3 b r (0 : Fin 1))).trans hst.2.2⟩
  · rw [outsAt0_B m c t h0 h1]
    dsimp only
    exact ⟨(congrFun (Pieces.sout_B_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (xblk m c t) (yblk m c t) (wblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix3 b r (0 : Fin 1))).trans hst.1,
      (congrFun (Pieces.sout_B_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (xblk m c t) (yblk m c t) (wblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix3 b r (0 : Fin 1))).trans hst.2.1,
      (congrFun (Pieces.sout_B_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (xblk m c t) (yblk m c t) (wblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix3 b r (0 : Fin 1))).trans hst.2.2⟩

/-- The invariant at every point, by induction on the point. -/
theorem holds_all : ∀ (n : ℕ) (t : Fin cfg0.N), t.val = n → Holds m c t
  | 0, t, ht => holds_A m c hX hW t (by omega)
  | n + 1, t, ht => by
    by_cases h0 : t.val % 25 = 0
    · exact holds_A m c hX hW t h0
    · exact holds_BC m c hX hW t h0 (holds_all n ⟨t.val - 1, Nat.lt_of_le_of_lt (Nat.sub_le _ _) t.isLt⟩ (by show t.val - 1 = n; omega))

/-- At the last chunk of a tile the output block holds, at every token of the tile, the picked logit minus
    `max + log (sum of exp)` over the whole vocabulary. -/
theorem out_C (t : Fin cfg0.N) (h1 : t.val % 25 = 24)
    (ih : Holds m c ⟨t.val - 1, Nat.lt_of_le_of_lt (Nat.sub_le _ _) t.isLt⟩) (b : Fin 4) (r : Fin 256) :
    (outsAt0 m c t.val t.isLt).1 (ix2 b r) = tokFused (X m c) (W m c) (Y m c) (ix2 b (tok t r)) := by
  have h0 : ¬t.val % 25 = 0 := by omega
  have hst := step_at m c hX hW t h0 ih b r
  have e : 1280 * (t.val % 25) + 1280 = 32000 := by omega
  rw [e] at hst
  rw [outsAt0_C m c t h0 h1]
  dsimp only
  refine (congrFun (Pieces.out_C_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (xblk m c t) (yblk m c t) (wblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 b r)).trans ?_
  refine (Pay.pay4_apply _ _ _ b r).trans ?_
  rw [hst.1, hst.2.1, hst.2.2, yblk_apply]
  rfl

/-- The invariant after the point before `t`. -/
theorem holds_pred (t : Fin cfg0.N) : Holds m c ⟨t.val - 1, Nat.lt_of_le_of_lt (Nat.sub_le _ _) t.isLt⟩ :=
  holds_all m c hX hW (t.val - 1) ⟨t.val - 1, Nat.lt_of_le_of_lt (Nat.sub_le _ _) t.isLt⟩ rfl

end

end Cert.KernelIdeal.Inv

end
-- ==== Proof.KernelCover.lean ====
/-
  From the blocks to the array. The output array is written tile by tile: the token tile `ti` (rows `256 * ti` to
  `256 * ti + 255` of each of the four rows) is written back once, by the last vocabulary chunk of the tile, the grid
  point `25 * ti + 24`; at the other points the output window is idle. So if at every such point the block holds the
  restriction of one whole-array function `G`, the array after the last write-back is `G`.
-/
import proofs.«406065_j77429670412358_2_alg».proof.Proof.Gen.KernelIdeal.Frame
import Idealize.ShloMosaic.Lib.ValueIdx
import Idealize.ShloMosaic.Lib.Pipeline.Value

noncomputable section

namespace Cert.KernelIdeal.Val

open Idealize.ShloMosaic Idealize.ShloMosaic.ValueIdx Idealize.SL.Sem Cert.KernelIdeal Cert.KernelIdeal.Gen

namespace Cover

/-- The output window's block index at a grid point, decided over the grid: block (0, t / 25). -/
theorem idx3 : ∀ t : Fin cfg0.N, win0_3.index t (0 : Fin 2) = 0 ∧ win0_3.index t (1 : Fin 2) = t.val / 25 :=
  (by decide +kernel : ∀ t : Fin grid0.N, win0_3.index t (0 : Fin 2) = 0 ∧ win0_3.index t (1 : Fin 2) = t.val / 25)

end Cover

variable [Cert.KernelIdeal.Facts]

namespace Cover

/-- What a writing-back point writes is the restriction of `G` to its block: block (0, t / 25) of shape [4, 256] sits at
    rows `256 * (t / 25)` onward of the array. -/
theorem flushed3_eq (m : (ℓ : Loc nD τ sig) → Buf (Elt Ideal) ℓ) (c : Dev nD) (G : S4x1024.Idx → EReal)
    (hblk : ∀ (t : Fin cfg0.N), t.val % 25 = 24 → ∀ (b : Fin 4) (r : Fin 256) (hlt : 256 * (t.val / 25) + r.val < 1024),
      (outsAt0 (F := Ideal) m c t.val t.isLt).1 (ix2 b r) = G (ix2 b ⟨256 * (t.val / 25) + r.val, hlt⟩))
    (t : Fin cfg0.N) (hf : (cfg0.win 3).flush t = true) :
    (dats (F := Ideal) m 0 c).flushed 3 t = ((cfg0.win 3).blk t).view.read (Elt Ideal) G := by
  have h24 : t.val % 25 = 24 := (flush0_3 t).mp hf
  have hN : cfg0.N = 100 := N_0
  obtain ⟨e0, e1⟩ := idx3 t
  show (cfg0.win 3).cut (grid0.coords t) ((dats (F := Ideal) m 0 c).after 3 t) = _
  rw [after0_3]
  refine funext fun (j : S4x256.Idx) => ?_
  have hj0 : (j 0).val < 4 := (j 0).isLt
  have hj1 : (j 1).val < 256 := (j 1).isLt
  have hlt : 256 * (t.val / 25) + (j 1).val < 1024 := by have := t.isLt; omega
  have hb := hblk t h24 ⟨(j 0).val, hj0⟩ ⟨(j 1).val, hj1⟩ hlt
  show (outsAt0 (F := Ideal) m c t.val t.isLt).1 ((cfg0.win 3).xinj (grid0.coords t) j) = G (((cfg0.win 3).blk t).view.emb j)
  have hx : (cfg0.win 3).xinj (grid0.coords t) j = ix2 ⟨(j 0).val, hj0⟩ ⟨(j 1).val, hj1⟩ := by
    funext a
    match a with
    | ⟨0, _⟩ => rfl
    | ⟨1, _⟩ => rfl
  have he : ((cfg0.win 3).blk t).view.emb j = ix2 ⟨(j 0).val, hj0⟩ ⟨256 * (t.val / 25) + (j 1).val, hlt⟩ := by
    funext a
    apply Fin.ext
    match a with
    | ⟨0, _⟩ => show win0_3.index t (0 : Fin 2) * 4 + 1 * (j 0).val = (j 0).val; omega
    | ⟨1, _⟩ => show win0_3.index t (1 : Fin 2) * 256 + 1 * (j 1).val = 256 * (t.val / 25) + (j 1).val; omega
  rw [hx, he]
  exact hb

end Cover

theorem final_of_blocks (m : (ℓ : Loc nD τ sig) → Buf (Elt Ideal) ℓ) (c : Dev nD) (G : S4x1024.Idx → EReal)
    (hblk : ∀ (t : Fin cfg0.N), t.val % 25 = 24 → ∀ (b : Fin 4) (r : Fin 256) (hlt : 256 * (t.val / 25) + r.val < 1024),
      (outsAt0 (F := Ideal) m c t.val t.isLt).1 (ix2 b r) = G (ix2 b ⟨256 * (t.val / 25) + r.val, hlt⟩)) :
    (dats (F := Ideal) m 0 c).arrAt 3 cfg0.N = G := by
  have hN : cfg0.N = 100 := N_0
  refine (dats (F := Ideal) m 0 c).arrAt_eq_of_cover 3 G (Cover.flushed3_eq m c G hblk) fun (i : S4x1024.Idx) => ?_
  -- row (i 1) of the array lies in token tile (i 1) / 256, written back by that tile's last grid point
  have hi0 : (i 0).val < 4 := (i 0).isLt
  have hi1 : (i 1).val < 1024 := (i 1).isLt
  have htN : 25 * ((i 1).val / 256) + 24 < cfg0.N := by omega
  have ht : (⟨25 * ((i 1).val / 256) + 24, htN⟩ : Fin cfg0.N).val = 25 * ((i 1).val / 256) + 24 := rfl
  obtain ⟨e0, e1⟩ := Cover.idx3 ⟨25 * ((i 1).val / 256) + 24, htN⟩
  refine ⟨⟨25 * ((i 1).val / 256) + 24, htN⟩, (flush0_3 _).mpr (by rw [ht]; omega), ?_⟩
  show i ∈ ((View.whole main_v2).slice (win0_3.rect ⟨25 * ((i 1).val / 256) + 24, htN⟩)).set
  rw [View.set_slice_whole, Rect.mem_set_unit]
  rw [ht] at e1
  intro a
  match a with
  | ⟨0, _⟩ =>
    show win0_3.index ⟨25 * ((i 1).val / 256) + 24, htN⟩ (0 : Fin 2) * 4 ≤ (i 0).val
      ∧ (i 0).val < win0_3.index ⟨25 * ((i 1).val / 256) + 24, htN⟩ (0 : Fin 2) * 4 + 4
    omega
  | ⟨1, _⟩ =>
    show win0_3.index ⟨25 * ((i 1).val / 256) + 24, htN⟩ (1 : Fin 2) * 256 ≤ (i 1).val
      ∧ (i 1).val < win0_3.index ⟨25 * ((i 1).val / 256) + 24, htN⟩ (1 : Fin 2) * 256 + 256
    omega

end Cert.KernelIdeal.Val

end
-- ==== Proof.KernelFinal.lean ====
/-
  What the streaming program leaves in its output array: at every token, the picked logit minus
  `max + log (sum of exp)` over the whole vocabulary (`Cert.Spec.tokFused`).

  A grid point `t = 25 * ti + vi` works on the token tile `ti` (256 tokens of each of the 4 rows) and the vocabulary
  chunk `vi` (1280 columns). The three carried columns hold, after the point, the running maximum, running sum and picked
  logit of each token's row over the first `1280 * (vi + 1)` columns (by induction on the point: the first chunk of a tile
  resets them, every chunk updates them); the last chunk of a tile writes the tile's block of the output, and the tiles'
  blocks make up the array.
-/
import proofs.«406065_j77429670412358_2_alg».proof.Proof.Gen.KernelIdeal.Frame
import proofs.«406065_j77429670412358_2_alg».proof.Proof.KernelInv
import proofs.«406065_j77429670412358_2_alg».proof.Proof.KernelCover
import proofs.«406065_j77429670412358_2_alg».proof.Proof.Spec

noncomputable section

namespace Cert.KernelIdeal.Val

open Idealize.ShloMosaic Idealize.SL.Sem Cert.KernelIdeal Cert.KernelIdeal.Gen

variable [Cert.KernelIdeal.Facts]

/-- The output array after the last write-back is the fused per-token value of the three arguments.
    The two float arguments hold real numbers. -/
theorem final (m : (ℓ : Loc nD τ sig) → Buf (Elt Ideal) ℓ) (c : Dev nD)
    (hX : ∀ i, ∃ x : ℝ, m ((c.tc : Thread nD τ).loc main_arg0) i = (x : EReal))
    (hW : ∀ i, ∃ x : ℝ, m ((c.tc : Thread nD τ).loc main_arg2) i = (x : EReal)) :
    (dats (F := Ideal) m 0 c).arrAt 3 cfg0.N
      = Cert.Spec.tokFused (m ((c.tc : Thread nD τ).loc main_arg0)) (m ((c.tc : Thread nD τ).loc main_arg2))
          (m ((c.tc : Thread nD τ).loc main_arg1)) :=
  final_of_blocks m c _ fun t h24 b r _ =>
    Cert.KernelIdeal.Inv.out_C m c hX hW t h24 (Cert.KernelIdeal.Inv.holds_pred m c hX hW t) b r

end Cert.KernelIdeal.Val

end
-- ==== Proof.KernelVal.lean ====
/-
  The streaming program's run with its result named: the loss of the row averages of `Cert.Spec.tokFused`.
-/
import proofs.«406065_j77429670412358_2_alg».proof.Proof.Gen.KernelIdeal.Frame
import proofs.«406065_j77429670412358_2_alg».proof.Proof.KernelFinal
import proofs.«406065_j77429670412358_2_alg».proof.Proof.Spec
import proofs.«406065_j77429670412358_2_alg».proof.Proof.Tail

noncomputable section

namespace Cert.KernelIdeal.Val

open Idealize.ShloMosaic Idealize.SL.Sem Cert.KernelIdeal Cert.KernelIdeal.Gen

variable [Cert.KernelIdeal.Facts]

theorem evSeq : Cert.Tail.EvSeq :=
  ⟨Facts₀.bcast_S_S4x1024, Facts₀.reducesTo_S4x1024_S4_d1, Facts₀.h_S_, Facts₀.bcast_S_S4⟩

theorem evLoss : Cert.Tail.EvLoss :=
  ⟨Facts₀.h_S_, Facts₀.slices_S4_S2_0, Facts₀.slices_S4_S2_2, Facts₀.bcast_S_S2, Facts₀.reducesTo_S2_S_d0⟩

/-- The host operations after the region, from any contents `W` of the buffers: the result is the loss of the row
    averages of what `W` holds at the region's output, the labels read at the second argument. For any float type. -/
theorem tail_gen {F : FTy → Type} [FloatOps F] (W : Valuation τ sig (Elt F)) :
    StableHlo.after (List.flatten [hostOps1, hostOps1_1, hostOps1_2]) W (Proc.devRef .tc main_v20)
      = Cert.Tail.lossOf (F := F) evLoss
          (Cert.Tail.seqF (F := F) evSeq (W (Proc.devRef .tc main_v2)) (W (Proc.devRef .tc main_arg1))) := by
  simp only [hostOps1, hostOps1_1, hostOps1_2, List.flatten_cons, List.flatten_nil, List.append_nil, List.cons_append,
    List.nil_append]
  after_results_simp
  simp only [StableHlo.TRef.ofBuf, StableHlo.TRef.toBuf, cast_eq]
  rfl

/-- What the frame run leaves at the result: the loss of the row averages of the fused per-token values. -/
theorem tail_val (m : (ℓ : Loc nD τ sig) → Buf (Elt Ideal) ℓ) (c : Dev nD)
    (hX : ∀ i, ∃ x : ℝ, m ((c.tc : Thread nD τ).loc main_arg0) i = (x : EReal))
    (hW : ∀ i, ∃ x : ℝ, m ((c.tc : Thread nD τ).loc main_arg2) i = (x : EReal)) :
    Pipeline.afterTail₀ cfgs (dats (F := Ideal) m) 0 (V0 m) [hostOps1, hostOps1_1, hostOps1_2] c main_v20
      = Cert.Tail.lossOf (F := Ideal) evLoss (Cert.Tail.seqF (F := Ideal) evSeq
          (Cert.Spec.tokFused (m ((c.tc : Thread nD τ).loc main_arg0)) (m ((c.tc : Thread nD τ).loc main_arg2))
            (m ((c.tc : Thread nD τ).loc main_arg1)))
          (m ((c.tc : Thread nD τ).loc main_arg1))) := by
  unfold Pipeline.afterTail₀
  refine (tail_gen (F := Ideal) _).trans ?_
  have e2 := (Pipeline.withArrays_arr spec0 launch0.win.arr_inj c (V0 m c)
    (fun w => (dats (F := Ideal) m 0 c).arrAt w cfg0.N) 3).trans (final m c hX hW)
  have e1 := (Pipeline.withArrays_arr spec0 launch0.win.arr_inj c (V0 m c)
    (fun w => (dats (F := Ideal) m 0 c).arrAt w cfg0.N) 1).trans
      (((dats (F := Ideal) m 0 c).arrAt_in 1 rfl _).trans ((A_eq m c 1).trans (V_main_arg1 m c)))
  exact congrArg₂ (fun t y => Cert.Tail.lossOf (F := Ideal) evLoss (Cert.Tail.seqF (F := Ideal) evSeq t y)) e2 e1

/-- Every weakly fair execution ends with the result at the loss of the row averages of the fused per-token values,
    the arguments unchanged. The two float arguments hold real numbers. -/
theorem run (m : (ℓ : Loc nD τ sig) → Buf (Elt Ideal) ℓ) (ρ : Dev nD → PrngReg)
    (hX : ∀ (c : Dev nD) i, ∃ x : ℝ, m ((c.tc : Thread nD τ).loc main_arg0) i = (x : EReal))
    (hW : ∀ (c : Dev nD) i, ∃ x : ℝ, m ((c.tc : Thread nD τ).loc main_arg2) i = (x : EReal)) :
    θ_run (defs (F := Ideal)) (onTc (τ := τ) (main (F := Ideal))) ⟨m, fun _ => 0, ρ⟩ (fun r => ∀ c : Dev nD,
      r.2.mem ((c.tc : Thread nD τ).loc main_v20)
          = Cert.Tail.lossOf (F := Ideal) evLoss (Cert.Tail.seqF (F := Ideal) evSeq
              (Cert.Spec.tokFused (m ((c.tc : Thread nD τ).loc main_arg0)) (m ((c.tc : Thread nD τ).loc main_arg2))
                (m ((c.tc : Thread nD τ).loc main_arg1)))
              (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c =>
    ⟨((h c).2 main_v20 (Pipeline.mem_restRefs_of main_v20 (by decide) (by decide))).trans (tail_val m c (hX c) (hW c)),
      ((h c).2 main_arg0 (Pipeline.mem_restRefs_of main_arg0 (by decide) (by decide))).trans (W_main_arg0 m (dats m) c),
      ((h c).1 1).trans (((dats (F := Ideal) m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Val

end
-- ==== Proof.RefVal.lean ====
/-
  The reference's value per token, read off its operations one index at a time.

  For a token `(b, t)` whose label `y` lies inside the vocabulary, the reference gathers, from the log-softmax of the
  logits `X · Wᵀ`, the entry at `y`. Read at the ideal values:
  * the logit at `(b, t, v)` is the inner product over the hidden axis of token `(b, t)` with vocabulary row `v`
    (the product's one contracted coordinate re-indexed by `Fin 2048`);
  * the row maximum is the fold of `max` from `⊥` over the 32000 columns (`-∞` is `⊥`, the identity of `max`, so the
    further `max` with a broadcast `-∞` changes nothing);
  * the row sum is `0 +` the sum over the columns of the exponentials of the shifted logits, and the log-softmax entry is
    the shifted logit less the logarithm of that sum;
  * a label word `y` with `y.toNat < 32000` is not negative as a signed number, so it is not wrapped; it passes the test
    `0 ≤ y ≤ 31999`, so the pick keeps the gathered entry; and the gather, whose one start-index component goes to the
    vocabulary axis and whose batching axes are the token's two, reads the operand at `(b, t, min y 31999) = (b, t, y)`.
  The last theorem states the result through the row maximum and row sum of exponentials of Proof/Spec.lean.
-/
import proofs.«406065_j77429670412358_2_alg».proof.Proof.RefDefs
import proofs.«406065_j77429670412358_2_alg».proof.Proof.Spec
import Idealize.ShloMosaic.Lib.ValueIdx
import Idealize.ShloMosaic.Lib.Pipeline.Value
import Idealize.ShloMosaic.PureOps.Ideal.Laws
import Idealize.ShloMosaic.Lib.ValueLayout
import Idealize.ShloMosaic.Lib.IdealHost

noncomputable section

open scoped BigOperators

namespace Cert.ReferenceIdeal.Val

open Idealize.ShloMosaic Idealize.ShloMosaic.ValueIdx Cert.ReferenceIdeal Cert.ReferenceIdeal.Facts₀

variable [Cert.ReferenceIdeal.Facts]

section Layout
variable {α : Type}

/-- A `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- A `[a, b, 1]` array cast to `[a, b, 1, 1]` reads, at `(i, j, u, w)`, the operand at `(i, j, 0)`. -/
theorem shapeCast_ab1_ab11_apply {a b : ℕ} (x : (⟨3, ![a, b, 1]⟩ : Shape).Idx → α)
    (h : (⟨3, ![a, b, 1]⟩ : Shape).ShapeCasts ⟨4, ![a, b, 1, 1]⟩) (i : Fin a) (j : Fin b) (u w : Fin 1) :
    shapeCast ⟨4, ![a, b, 1, 1]⟩ x h (ix4 i j u w) = x (ix3 i j (0 : Fin 1)) :=
  shapeCast_apply x h _ _ (by
    have hu : u.val = 0 := by omega
    have hw : w.val = 0 := by omega
    rw [Shape.rowMajor_val_three, Shape.rowMajor_val_four]
    show (i.val * b + j.val) * 1 + 0 = ((i.val * b + j.val) * 1 + u.val) * 1 + w.val
    rw [hu, hw, Nat.mul_one, Nat.add_zero, Nat.mul_one, Nat.add_zero])

/-- An `[a, b]` array broadcast to `[a, b, 1]` along its two axes reads, at `(i, j, u)`, the operand at `(i, j)`. -/
theorem broadcast_ab_ab1_apply (x : (⟨2, ![4, 1024]⟩ : Shape).Idx → α)
    (h : (⟨2, ![4, 1024]⟩ : Shape).BroadcastsInDim ⟨3, ![4, 1024, 1]⟩ ![0, 1]) (i : Fin 4) (j : Fin 1024) (u : Fin 1) :
    broadcastInDim ⟨3, ![4, 1024, 1]⟩ ![0, 1] h x (ix3 i j u) = x (ix2 i j) :=
  broadcastInDim_apply _ h x _ _ (fun a => match a with
    | ⟨0, _⟩ => rfl
    | ⟨1, _⟩ => rfl)

/-- A `[4, 1024, 1]` array broadcast to `[4, 1024, 32000]` reads, at `(i, j, v)`, the operand at `(i, j, 0)`. -/
theorem broadcast_ab1_abc_apply (x : (⟨3, ![4, 1024, 1]⟩ : Shape).Idx → α)
    (h : (⟨3, ![4, 1024, 1]⟩ : Shape).BroadcastsInDim ⟨3, ![4, 1024, 32000]⟩ ![0, 1, 2]) (i : Fin 4) (j : Fin 1024)
    (v : Fin 32000) :
    broadcastInDim ⟨3, ![4, 1024, 32000]⟩ ![0, 1, 2] h x (ix3 i j v) = x (ix3 i j (0 : Fin 1)) :=
  broadcastInDim_apply _ h x _ _ (fun a => match a with
    | ⟨0, _⟩ => rfl
    | ⟨1, _⟩ => rfl
    | ⟨2, _⟩ => rfl)

/-- A one-element vector broadcast to `[1, 1, 1, 1]` reads its element. -/
theorem broadcast_1_1111_apply (x : (⟨1, ![1]⟩ : Shape).Idx → α)
    (h : (⟨1, ![1]⟩ : Shape).BroadcastsInDim ⟨4, ![1, 1, 1, 1]⟩ ![3]) (j : (⟨4, ![1, 1, 1, 1]⟩ : Shape).Idx) :
    broadcastInDim ⟨4, ![1, 1, 1, 1]⟩ ![3] h x j = x (ix1 (0 : Fin 1)) :=
  broadcastInDim_apply _ h x _ _ (fun a => match a with
    | ⟨0, _⟩ => rfl)

/-- A `[1, 1, 1, 1]` array broadcast to `[4, 1024, 1, 1]` reads its element. -/
theorem broadcast_1111_ab11_apply (x : (⟨4, ![1, 1, 1, 1]⟩ : Shape).Idx → α)
    (h : (⟨4, ![1, 1, 1, 1]⟩ : Shape).BroadcastsInDim ⟨4, ![4, 1024, 1, 1]⟩ ![0, 1, 2, 3])
    (j : (⟨4, ![4, 1024, 1, 1]⟩ : Shape).Idx) :
    broadcastInDim ⟨4, ![4, 1024, 1, 1]⟩ ![0, 1, 2, 3] h x j = x (ix4 (0 : Fin 1) (0 : Fin 1) (0 : Fin 1) (0 : Fin 1)) :=
  broadcastInDim_apply _ h x _ _ (fun a => match a with
    | ⟨0, _⟩ => rfl
    | ⟨1, _⟩ => rfl
    | ⟨2, _⟩ => rfl
    | ⟨3, _⟩ => rfl)

end Layout

section Reductions

/-- Dropping the vocabulary axis of `[4, 1024, 32000]` leaves `[4, 1024]`. -/
theorem reduces_vocab : (⟨3, ![4, 1024, 32000]⟩ : Shape).Reduces [2] ⟨2, ![4, 1024]⟩ := by decide

/-- The token `(b, t)` with the column `v` inserted on the vocabulary axis is `(b, t, v)`. -/
theorem lift_vocab (h : (⟨3, ![4, 1024, 32000]⟩ : Shape).Reduces [2] ⟨2, ![4, 1024]⟩) (b : Fin 4) (t : Fin 1024)
    (v : Fin 32000) : h.lift (ix2 b t) v = ix3 b t v := by
  funext c
  apply Fin.ext
  match c with
  | ⟨0, _⟩ => rfl
  | ⟨1, _⟩ => rfl
  | ⟨2, _⟩ => rfl

/-- The host's maximum over the vocabulary axis at a token is the fold of `max` from the initial value over the columns. -/
theorem hostReduce_max_apply (x : FVec Ideal ⟨3, ![4, 1024, 32000]⟩ .f32) (init : FVec Ideal ⟨0, ![]⟩ .f32)
    (h' : (⟨3, ![4, 1024, 32000]⟩ : Shape).ReducesTo [2] ⟨2, ![4, 1024]⟩) (hu : 0 < (⟨0, ![]⟩ : Shape).numel)
    (b : Fin 4) (t : Fin 1024) :
    Host.reduce FloatOps.maximumf x init h' hu (ix2 b t)
      = (Finset.univ : Finset (Fin 32000)).fold max (init ix0) (fun v => x (ix3 b t v)) := by
  refine (Host.reduce_eq_fold_single _ x init h' reduces_vocab hu (ix2 b t)).trans ?_
  have hf : (x ∘ reduces_vocab.lift (ix2 b t)) = fun v : Fin 32000 => x (ix3 b t v) :=
    funext fun v => congrArg x (lift_vocab _ b t v)
  rw [hf, eq_ix0 (Shape.Idx.first hu)]
  rfl

/-- The host's sum over the vocabulary axis at a token is the initial value plus the sum over the columns. -/
theorem hostReduceAdd_vocab_apply (x : FVec Ideal ⟨3, ![4, 1024, 32000]⟩ .f32) (init : FVec Ideal ⟨0, ![]⟩ .f32)
    (h' : (⟨3, ![4, 1024, 32000]⟩ : Shape).ReducesTo [2] ⟨2, ![4, 1024]⟩) (hu : 0 < (⟨0, ![]⟩ : Shape).numel)
    (b : Fin 4) (t : Fin 1024) :
    Host.reduceAdd (F := Ideal) x init h' hu (ix2 b t) = init ix0 + ∑ v : Fin 32000, x (ix3 b t v) := by
  refine (hostReduceAdd_apply x init h' hu (ix2 b t)).trans ?_
  refine (Ideal.hostReduceAdd_single h' reduces_vocab x _ (ix2 b t)).trans ?_
  rw [eq_ix0 (Shape.Idx.first hu)]
  exact congrArg (init ix0 + ·) (Finset.sum_congr rfl fun v _ => congrArg x (lift_vocab _ b t v))

/-- Dropping the last unit axis of `[4, 1024, 1, 1]` leaves `[4, 1024, 1]`. -/
theorem reduces_unit : (⟨4, ![4, 1024, 1, 1]⟩ : Shape).Reduces [3] ⟨3, ![4, 1024, 1]⟩ := by decide

theorem lift_unit (h : (⟨4, ![4, 1024, 1, 1]⟩ : Shape).Reduces [3] ⟨3, ![4, 1024, 1]⟩) (b : Fin 4) (t : Fin 1024)
    (u w : Fin 1) : h.lift (ix3 b t u) w = ix4 b t u w := by
  funext c
  apply Fin.ext
  match c with
  | ⟨0, _⟩ => rfl
  | ⟨1, _⟩ => rfl
  | ⟨2, _⟩ => rfl
  | ⟨3, _⟩ => rfl

/-- The host's `and` over a unit axis is the `and` of the one element with the initial value. -/
theorem hostReduce_and_apply (x : IVec ⟨4, ![4, 1024, 1, 1]⟩ 1) (init : IVec ⟨0, ![]⟩ 1)
    (h' : (⟨4, ![4, 1024, 1, 1]⟩ : Shape).ReducesTo [3] ⟨3, ![4, 1024, 1]⟩) (hu : 0 < (⟨0, ![]⟩ : Shape).numel)
    (b : Fin 4) (t : Fin 1024) (u : Fin 1) :
    Host.reduce IntOp.andi x init h' hu (ix3 b t u) = IntOp.andi (x (ix4 b t u (0 : Fin 1))) (init ix0) := by
  refine (Host.reduce_eq_fold_single _ x init h' reduces_unit hu (ix3 b t u)).trans ?_
  have hU : (Finset.univ : Finset (Fin 1)) = {(0 : Fin 1)} := by decide
  have hf : (x ∘ reduces_unit.lift (ix3 b t u)) = fun w : Fin 1 => x (ix4 b t u w) :=
    funext fun w => congrArg x (lift_unit _ b t u w)
  rw [hf, eq_ix0 (Shape.Idx.first hu)]
  show Finset.fold IntOp.andi (init ix0) (fun w : Fin 1 => x (ix4 b t u w)) (Finset.univ : Finset (Fin 1)) = _
  rw [hU, Finset.fold_singleton]

end Reductions

section Dot

theorem dot_lhs_0 (j : S4x1024x32000.Idx) (k : dot_S4x1024x2048_S32000x2048_S4x1024x32000_2_1_01_0_n_n.contr.Idx) :
    (dot_S4x1024x2048_S32000x2048_S4x1024x32000_2_1_01_0_n_n.lhsIdx j k 0).val = (j 0).val := rfl

theorem dot_lhs_1 (j : S4x1024x32000.Idx) (k : dot_S4x1024x2048_S32000x2048_S4x1024x32000_2_1_01_0_n_n.contr.Idx) :
    (dot_S4x1024x2048_S32000x2048_S4x1024x32000_2_1_01_0_n_n.lhsIdx j k 1).val = (j 1).val := rfl

theorem dot_lhs_2 (j : S4x1024x32000.Idx) (k : dot_S4x1024x2048_S32000x2048_S4x1024x32000_2_1_01_0_n_n.contr.Idx) :
    (dot_S4x1024x2048_S32000x2048_S4x1024x32000_2_1_01_0_n_n.lhsIdx j k 2).val = (k ⟨0, Nat.one_pos⟩).val :=
  dot_S4x1024x2048_S32000x2048_S4x1024x32000_2_1_01_0_n_n.lhsIdx_val_of_single rfl j k

theorem dot_rhs_0 (j : S4x1024x32000.Idx) (k : dot_S4x1024x2048_S32000x2048_S4x1024x32000_2_1_01_0_n_n.contr.Idx) :
    (dot_S4x1024x2048_S32000x2048_S4x1024x32000_2_1_01_0_n_n.rhsIdx j k 0).val = (j 2).val := rfl

theorem dot_rhs_1 (j : S4x1024x32000.Idx) (k : dot_S4x1024x2048_S32000x2048_S4x1024x32000_2_1_01_0_n_n.contr.Idx) :
    (dot_S4x1024x2048_S32000x2048_S4x1024x32000_2_1_01_0_n_n.rhsIdx j k 1).val = (k ⟨0, Nat.one_pos⟩).val :=
  dot_S4x1024x2048_S32000x2048_S4x1024x32000_2_1_01_0_n_n.rhsIdx_val_of_single rfl j k

/-- The logits: the host's product at `(b, t, v)` is the inner product of token `(b, t)` with vocabulary row `v`. -/
theorem dot_apply (X : FVec Ideal S4x1024x2048 .f32) (W : FVec Ideal S32000x2048 .f32) (b : Fin 4) (t : Fin 1024)
    (v : Fin 32000) :
    Host.dotGeneral (F := Ideal) dot_S4x1024x2048_S32000x2048_S4x1024x32000_2_1_01_0_n_n none X W (ix3 b t v) = ∑ k : Fin 2048, X (ix3 b t k) * W (ix2 v k) := by
  refine (Ideal.dotGeneral_apply dot_S4x1024x2048_S32000x2048_S4x1024x32000_2_1_01_0_n_n none .single X W (ix3 b t v)).trans ?_
  refine ((Equiv.sum_comp (contrEquiv1 dot_S4x1024x2048_S32000x2048_S4x1024x32000_2_1_01_0_n_n 2048 rfl rfl).symm _).symm).trans ?_
  refine Finset.sum_congr rfl fun k _ => ?_
  have hk := contrEquiv1_symm_val dot_S4x1024x2048_S32000x2048_S4x1024x32000_2_1_01_0_n_n 2048 rfl rfl k
  have hl : dot_S4x1024x2048_S32000x2048_S4x1024x32000_2_1_01_0_n_n.lhsIdx (ix3 b t v) ((contrEquiv1 dot_S4x1024x2048_S32000x2048_S4x1024x32000_2_1_01_0_n_n 2048 rfl rfl).symm k) = ix3 b t k := by
    funext a
    apply Fin.ext
    match a with
    | ⟨0, _⟩ => exact dot_lhs_0 _ _
    | ⟨1, _⟩ => exact dot_lhs_1 _ _
    | ⟨2, _⟩ => exact (dot_lhs_2 _ _).trans hk
  have hr : dot_S4x1024x2048_S32000x2048_S4x1024x32000_2_1_01_0_n_n.rhsIdx (ix3 b t v) ((contrEquiv1 dot_S4x1024x2048_S32000x2048_S4x1024x32000_2_1_01_0_n_n 2048 rfl rfl).symm k) = ix2 v k := by
    funext a
    apply Fin.ext
    match a with
    | ⟨0, _⟩ => exact dot_rhs_0 _ _
    | ⟨1, _⟩ => exact (dot_rhs_1 _ _).trans hk
  show X _ * W _ = _
  rw [hl, hr]

end Dot

section Words

/-- A label word below the vocabulary size is its own value read signed. -/
theorem toInt_of_lt (y : BitVec 32) (hy : y.toNat < 32000) : y.toInt = (y.toNat : Int) := by
  rw [BitVec.toInt_eq_toNat_cond, if_pos (by omega)]

theorem slt_zero_of_lt (y : BitVec 32) (hy : y.toNat < 32000) : IntOp.cmpi .slt y 0#32 = 0#1 := by
  have h : y.slt 0#32 = false := by
    simp only [BitVec.slt, toInt_of_lt y hy, decide_eq_false_iff_not]
    show ¬ ((y.toNat : Int) < 0)
    omega
  show BitVec.ofBool (y.slt 0#32) = 0#1
  rw [h]; rfl

theorem sge_zero_of_lt (y : BitVec 32) (hy : y.toNat < 32000) : IntOp.cmpi .sge y 0#32 = 1#1 := by
  have h : (0#32 : BitVec 32).sle y = true := by
    simp only [BitVec.sle, toInt_of_lt y hy, decide_eq_true_eq]
    show (0 : Int) ≤ (y.toNat : Int)
    omega
  show BitVec.ofBool ((0#32 : BitVec 32).sle y) = 1#1
  rw [h]; rfl

theorem sle_last_of_lt (y : BitVec 32) (hy : y.toNat < 32000) : IntOp.cmpi .sle y 31999#32 = 1#1 := by
  have h : y.sle 31999#32 = true := by
    simp only [BitVec.sle, toInt_of_lt y hy, decide_eq_true_eq]
    show (y.toNat : Int) ≤ 31999
    omega
  show BitVec.ofBool (y.sle 31999#32) = 1#1
  rw [h]; rfl

end Words

section Gather
variable {α : Type}

theorem gather_start_0 (j : S4x1024x1.Idx) (idx : IVec S4x1024x1x1 32) :
    gather_S4x1024x32000_S4x1024x1x1_S4x1024x1_n_2_01_01_2_3_111.start j idx 0 = 0 :=
  gather_S4x1024x32000_S4x1024x1x1_S4x1024x1_n_2_01_01_2_3_111.start_batching j idx 0 (by show (0 : Fin 3) ∈ [(0 : Fin 3), 1]; decide)

theorem gather_start_1 (j : S4x1024x1.Idx) (idx : IVec S4x1024x1x1 32) :
    gather_S4x1024x32000_S4x1024x1x1_S4x1024x1_n_2_01_01_2_3_111.start j idx 1 = 0 :=
  gather_S4x1024x32000_S4x1024x1x1_S4x1024x1_n_2_01_01_2_3_111.start_batching j idx 1 (by show (1 : Fin 3) ∈ [(0 : Fin 3), 1]; decide)

theorem gather_batch_0 (j : S4x1024x1.Idx) : gather_S4x1024x32000_S4x1024x1x1_S4x1024x1_n_2_01_01_2_3_111.batchCoord j 0 = (j 0).val := rfl

theorem gather_batch_1 (j : S4x1024x1.Idx) : gather_S4x1024x32000_S4x1024x1x1_S4x1024x1_n_2_01_01_2_3_111.batchCoord j 1 = (j 1).val := rfl

theorem gather_batch_2 (j : S4x1024x1.Idx) : gather_S4x1024x32000_S4x1024x1x1_S4x1024x1_n_2_01_01_2_3_111.batchCoord j 2 = 0 :=
  gather_S4x1024x32000_S4x1024x1x1_S4x1024x1_n_2_01_01_2_3_111.batchCoord_eq_zero j 2 (by show (2 : Fin 3) ∉ [(0 : Fin 3), 1]; decide)

theorem gather_off_0 (j : S4x1024x1.Idx) : gather_S4x1024x32000_S4x1024x1x1_S4x1024x1_n_2_01_01_2_3_111.offCoord j 0 = 0 :=
  gather_S4x1024x32000_S4x1024x1x1_S4x1024x1_n_2_01_01_2_3_111.offCoord_eq_zero j 0 (fun h => ((gather_S4x1024x32000_S4x1024x1x1_S4x1024x1_n_2_01_01_2_3_111.mem_sKept 0).mp h).2 (by show (0 : Fin 3) ∈ [(0 : Fin 3), 1]; decide))

theorem gather_off_1 (j : S4x1024x1.Idx) : gather_S4x1024x32000_S4x1024x1x1_S4x1024x1_n_2_01_01_2_3_111.offCoord j 1 = 0 :=
  gather_S4x1024x32000_S4x1024x1x1_S4x1024x1_n_2_01_01_2_3_111.offCoord_eq_zero j 1 (fun h => ((gather_S4x1024x32000_S4x1024x1x1_S4x1024x1_n_2_01_01_2_3_111.mem_sKept 1).mp h).2 (by show (1 : Fin 3) ∈ [(0 : Fin 3), 1]; decide))

theorem gather_off_2 (j : S4x1024x1.Idx) : gather_S4x1024x32000_S4x1024x1x1_S4x1024x1_n_2_01_01_2_3_111.offCoord j 2 = 0 :=
  gather_S4x1024x32000_S4x1024x1x1_S4x1024x1_n_2_01_01_2_3_111.offCoord_eq_zero j 2 (fun h => ((gather_S4x1024x32000_S4x1024x1x1_S4x1024x1_n_2_01_01_2_3_111.mem_sKept 2).mp h).1 (by show (2 : Fin 3) ∈ [(2 : Fin 3)]; decide))

/-- On the vocabulary axis the slice starts at the start index of the token, read signed and clamped to the last column. -/
theorem gather_start_2 (b : Fin 4) (t : Fin 1024) (u : Fin 1) (idx : IVec S4x1024x1x1 32) :
    gather_S4x1024x32000_S4x1024x1x1_S4x1024x1_n_2_01_01_2_3_111.start (ix3 b t u) idx 2 = min (idx (ix4 b t u (0 : Fin 1))).toInt.toNat 31999 := by
  unfold GatherDims.start
  rw [dif_pos (show (2 : Fin 3) ∈ gather_S4x1024x32000_S4x1024x1x1_S4x1024x1_n_2_01_01_2_3_111.startIndexMap from List.mem_singleton.mpr rfl)]
  have hsi : gather_S4x1024x32000_S4x1024x1x1_S4x1024x1_n_2_01_01_2_3_111.siIdx (ix3 b t u) ⟨List.idxOf (2 : Fin 3) gather_S4x1024x32000_S4x1024x1x1_S4x1024x1_n_2_01_01_2_3_111.startIndexMap,
      List.idxOf_lt_length_iff.2 (List.mem_singleton.mpr rfl)⟩ = ix4 b t u (0 : Fin 1) := by
    funext c
    refine Fin.ext ?_
    match c with
    | ⟨0, _⟩ => rfl
    | ⟨1, _⟩ => rfl
    | ⟨2, _⟩ => rfl
    | ⟨3, _⟩ => rfl
  rw [hsi]
  rfl

/-- The gather read at a token: the operand at the token's row and the clamped start index. -/
theorem gather_apply (x : S4x1024x32000.Idx → α) (idx : IVec S4x1024x1x1 32) (b : Fin 4) (t : Fin 1024) (u : Fin 1)
    (n : Fin 32000) (hn : min (idx (ix4 b t u (0 : Fin 1))).toInt.toNat 31999 = n.val) :
    Host.gather gather_S4x1024x32000_S4x1024x1x1_S4x1024x1_n_2_01_01_2_3_111 x idx (ix3 b t u) = x (ix3 b t n) := by
  unfold Host.gather
  refine congrArg x (funext fun a => Fin.ext ?_)
  match a with
  | ⟨0, _⟩ =>
    show gather_S4x1024x32000_S4x1024x1x1_S4x1024x1_n_2_01_01_2_3_111.start (ix3 b t u) idx 0 + gather_S4x1024x32000_S4x1024x1x1_S4x1024x1_n_2_01_01_2_3_111.batchCoord (ix3 b t u) 0 + gather_S4x1024x32000_S4x1024x1x1_S4x1024x1_n_2_01_01_2_3_111.offCoord (ix3 b t u) 0 = b.val
    rw [gather_start_0, gather_batch_0, gather_off_0]
    show 0 + b.val + 0 = b.val
    omega
  | ⟨1, _⟩ =>
    show gather_S4x1024x32000_S4x1024x1x1_S4x1024x1_n_2_01_01_2_3_111.start (ix3 b t u) idx 1 + gather_S4x1024x32000_S4x1024x1x1_S4x1024x1_n_2_01_01_2_3_111.batchCoord (ix3 b t u) 1 + gather_S4x1024x32000_S4x1024x1x1_S4x1024x1_n_2_01_01_2_3_111.offCoord (ix3 b t u) 1 = t.val
    rw [gather_start_1, gather_batch_1, gather_off_1]
    show 0 + t.val + 0 = t.val
    omega
  | ⟨2, _⟩ =>
    show gather_S4x1024x32000_S4x1024x1x1_S4x1024x1_n_2_01_01_2_3_111.start (ix3 b t u) idx 2 + gather_S4x1024x32000_S4x1024x1x1_S4x1024x1_n_2_01_01_2_3_111.batchCoord (ix3 b t u) 2 + gather_S4x1024x32000_S4x1024x1x1_S4x1024x1_n_2_01_01_2_3_111.offCoord (ix3 b t u) 2 = n.val
    rw [gather_start_2, gather_batch_2, gather_off_2, hn]
    omega

end Gather

section Values
variable {F : FTy → Type} [FloatOps F]

/-- The logits `X · Wᵀ`. -/
def logits (X : FVec F S4x1024x2048 .f32) (W : FVec F S32000x2048 .f32) : FVec F S4x1024x32000 .f32 :=
  Host.dotGeneral dot_S4x1024x2048_S32000x2048_S4x1024x32000_2_1_01_0_n_n none X W

/-- Each token's maximum over the vocabulary: the fold from `-∞`, then `max` with a broadcast `-∞`. -/
def rowmax (lg : FVec F S4x1024x32000 .f32) : FVec F S4x1024 .f32 :=
  maximumf (broadcastInDim S4x1024 ![] bcast_S_S4x1024 (constant S_ .f32 0xFF800000#32))
    (Host.reduce FloatOps.maximumf lg (constant S_ .f32 0xFF800000#32) reducesTo_S4x1024x32000_S4x1024_d2 h_S_)

/-- The logits less their token's maximum. -/
def shifted (lg : FVec F S4x1024x32000 .f32) : FVec F S4x1024x32000 .f32 :=
  subf lg (broadcastInDim S4x1024x32000 ![0, 1, 2] bcast_S4x1024x1_S4x1024x32000_0_1_2
    (broadcastInDim S4x1024x1 ![0, 1] bcast_S4x1024_S4x1024x1_0_1 (rowmax lg)))

/-- The logarithm of each token's sum of exponentials, on a trailing unit axis. -/
def logsum (sh : FVec F S4x1024x32000 .f32) : FVec F S4x1024x1 .f32 :=
  Host.log (broadcastInDim S4x1024x1 ![0, 1] bcast_S4x1024_S4x1024x1_0_1
    (Host.reduceAdd (Host.exp sh) (constant S_ .f32 0x00000000#32) reducesTo_S4x1024x32000_S4x1024_d2 h_S_))

/-- The log-softmax is the shifted logits less the broadcast logarithm of their sum of exponentials. -/
theorem logps_eq (X : FVec F S4x1024x2048 .f32) (W : FVec F S32000x2048 .f32) :
    logps X W = subf (shifted (logits X W))
      (broadcastInDim S4x1024x32000 ![0, 1, 2] bcast_S4x1024x1_S4x1024x32000_0_1_2 (logsum (shifted (logits X W)))) := rfl

/-- Each token's label on a trailing unit axis. -/
def labels3 (Y : IVec S4x1024 32) : IVec S4x1024x1 32 :=
  broadcastInDim S4x1024x1 ![0, 1] bcast_S4x1024_S4x1024x1_0_1 Y

/-- The gather's start indices: each label, wrapped by the vocabulary size if negative, on two trailing unit axes. -/
def starts (Y : IVec S4x1024 32) : IVec S4x1024x1x1 32 :=
  shapeCast S4x1024x1x1
    (select (cmpi .slt (labels3 Y) (broadcastInDim S4x1024x1 ![] bcast_S_S4x1024x1 (constantI S_ 32 0#32)))
      (addi (labels3 Y) (broadcastInDim S4x1024x1 ![] bcast_S_S4x1024x1 (constantI S_ 32 32000#32))) (labels3 Y))
    shapeCasts_S4x1024x1_S4x1024x1x1

/-- Whether each start index lies in `[0, 31999]`. -/
def inRange (Y : IVec S4x1024 32) : IVec S4x1024x1 1 :=
  Host.reduce IntOp.andi
    (andi (cmpi .sge (starts Y) (broadcastInDim S4x1024x1x1 ![] bcast_S_S4x1024x1x1 (constantI S_ 32 0#32)))
      (cmpi .sle (starts Y) (broadcastInDim S4x1024x1x1 ![0, 1, 2, 3] bcast_S1x1x1x1_S4x1024x1x1_0_1_2_3
        (broadcastInDim S1x1x1x1 ![3] bcast_S1_S1x1x1x1_3 (constantI S1 32 31999#32)))))
    (constantI S_ 1 1#1) reducesTo_S4x1024x1x1_S4x1024x1_d3 h_S_

/-- The pick: the gathered entry where the start index is in range, a NaN elsewhere, the unit axis dropped. -/
theorem gathered_eq (lp : FVec F S4x1024x32000 .f32) (Y : IVec S4x1024 32) :
    gathered lp Y = shapeCast S4x1024
      (select (inRange Y) (Host.gather gather_S4x1024x32000_S4x1024x1x1_S4x1024x1_n_2_01_01_2_3_111 lp (starts Y))
        (broadcastInDim S4x1024x1 ![] bcast_S_S4x1024x1 (constant S_ .f32 0x7FC00000#32)))
      shapeCasts_S4x1024x1_S4x1024 := rfl

theorem labels3_apply (Y : IVec S4x1024 32) (b : Fin 4) (t : Fin 1024) (u : Fin 1) :
    labels3 Y (ix3 b t u) = Y (ix2 b t) :=
  broadcast_ab_ab1_apply Y _ b t u

/-- A label inside the vocabulary is its own start index. -/
theorem starts_apply (Y : IVec S4x1024 32) (b : Fin 4) (t : Fin 1024) (u w : Fin 1)
    (hy : (Y (ix2 b t)).toNat < 32000) : starts Y (ix4 b t u w) = Y (ix2 b t) := by
  unfold starts
  refine (shapeCast_ab1_ab11_apply _ _ b t u w).trans ?_
  refine (select_apply _ _ _ _).trans ?_
  show Scalar.select (IntOp.cmpi .slt (labels3 Y (ix3 b t (0 : Fin 1)))
      (broadcastInDim S4x1024x1 ![] bcast_S_S4x1024x1 (constantI S_ 32 0#32) (ix3 b t (0 : Fin 1)))) _
      (labels3 Y (ix3 b t (0 : Fin 1))) = _
  rw [labels3_apply, broadcastInDim_scalar_apply, constantI_apply, slt_zero_of_lt _ hy, select_zero]

/-- A label inside the vocabulary passes the range test. -/
theorem inRange_apply (Y : IVec S4x1024 32) (b : Fin 4) (t : Fin 1024) (u : Fin 1)
    (hy : (Y (ix2 b t)).toNat < 32000) : inRange Y (ix3 b t u) = 1#1 := by
  unfold inRange
  refine (hostReduce_and_apply _ _ _ _ b t u).trans ?_
  show IntOp.andi
      (IntOp.andi
        (IntOp.cmpi .sge (starts Y (ix4 b t u (0 : Fin 1)))
          (broadcastInDim S4x1024x1x1 ![] bcast_S_S4x1024x1x1 (constantI S_ 32 0#32) (ix4 b t u (0 : Fin 1))))
        (IntOp.cmpi .sle (starts Y (ix4 b t u (0 : Fin 1)))
          (broadcastInDim S4x1024x1x1 ![0, 1, 2, 3] bcast_S1x1x1x1_S4x1024x1x1_0_1_2_3
            (broadcastInDim S1x1x1x1 ![3] bcast_S1_S1x1x1x1_3 (constantI S1 32 31999#32)) (ix4 b t u (0 : Fin 1)))))
      (constantI S_ 1 1#1 ix0) = 1#1
  rw [starts_apply Y b t u 0 hy, broadcastInDim_scalar_apply, broadcast_1111_ab11_apply, broadcast_1_1111_apply]
  simp only [constantI_apply]
  rw [sge_zero_of_lt _ hy, sle_last_of_lt _ hy]
  rfl

/-- The pick at a token whose label is inside the vocabulary: the entry at the label. -/
theorem gathered_apply (lp : FVec F S4x1024x32000 .f32) (Y : IVec S4x1024 32) (b : Fin 4) (t : Fin 1024)
    (hy : (Y (ix2 b t)).toNat < 32000) :
    gathered lp Y (ix2 b t) = lp (ix3 b t ⟨(Y (ix2 b t)).toNat, hy⟩) := by
  rw [gathered_eq]
  refine (shapeCast_ab1_ab_apply _ _ b t).trans ?_
  refine (select_apply _ _ _ _).trans ?_
  rw [inRange_apply Y b t 0 hy, select_one]
  refine gather_apply lp (starts Y) b t 0 ⟨_, hy⟩ ?_
  rw [starts_apply Y b t 0 0 hy, toInt_of_lt _ hy]
  show min ((Y (ix2 b t)).toNat : Int).toNat 31999 = (Y (ix2 b t)).toNat
  omega

end Values

section Ideal

/-- The f32 pattern of `-∞` is the extended reals' bottom. -/
theorem ofBits_neg_inf_f32 : Ideal.ofBits .f32 0xFF800000#32 = ⊥ := by simp [Ideal.ofBits, Ideal.ieee]

/-- A logit of the reference is the inner product of the token with the vocabulary row. -/
theorem logits_apply (X : FVec Ideal S4x1024x2048 .f32) (W : FVec Ideal S32000x2048 .f32) (b : Fin 4) (t : Fin 1024)
    (v : Fin 32000) : logits (F := Ideal) X W (ix3 b t v) = Cert.Spec.logit X W b t v :=
  dot_apply X W b t v

/-- A token's maximum is the fold of `max` from `⊥` over its columns. -/
theorem rowmax_apply (lg : FVec Ideal S4x1024x32000 .f32) (b : Fin 4) (t : Fin 1024) :
    rowmax lg (ix2 b t) = (Finset.univ : Finset (Fin 32000)).fold max ⊥ (fun v => lg (ix3 b t v)) := by
  unfold rowmax
  refine (maximumf_apply _ _ _).trans ?_
  rw [broadcastInDim_scalar_apply, hostReduce_max_apply, constant_apply, ofBits_neg_inf_f32]
  exact max_bot_left _

theorem shifted_apply (lg : FVec Ideal S4x1024x32000 .f32) (b : Fin 4) (t : Fin 1024) (v : Fin 32000) :
    shifted lg (ix3 b t v) = lg (ix3 b t v) - rowmax lg (ix2 b t) := by
  unfold shifted
  refine (subf_apply _ _ _).trans ?_
  rw [broadcast_ab1_abc_apply, broadcast_ab_ab1_apply]

/-- The host's logarithm and exponential at an index are the extended reals' ones. -/
theorem hostLog_apply {s : Shape} (x : FVec Ideal s .f32) (i : s.Idx) : Host.log x i = Ideal.log (x i) := rfl

theorem hostExp_apply {s : Shape} (x : FVec Ideal s .f32) (i : s.Idx) : Host.exp x i = Ideal.exp (x i) := rfl

theorem logsum_apply (sh : FVec Ideal S4x1024x32000 .f32) (b : Fin 4) (t : Fin 1024) (u : Fin 1) :
    logsum sh (ix3 b t u) = Ideal.log (∑ v : Fin 32000, Ideal.exp (sh (ix3 b t v))) := by
  unfold logsum
  refine (hostLog_apply _ _).trans ?_
  rw [broadcast_ab_ab1_apply, hostReduceAdd_vocab_apply, constant_apply, Ideal.ofBits_zero_f32, zero_add]
  exact congrArg Ideal.log (Finset.sum_congr rfl fun v _ => hostExp_apply sh _)

/-- The reference's log-softmax at `(b, t, v)`: the logit less the row's maximum, less the logarithm of the row's sum of
    exponentials of the shifted logits. -/
theorem logps_apply (X : FVec Ideal S4x1024x2048 .f32) (W : FVec Ideal S32000x2048 .f32) (b : Fin 4) (t : Fin 1024)
    (v : Fin 32000) :
    logps (F := Ideal) X W (ix3 b t v)
      = (Cert.Spec.logit X W b t v - (Finset.univ : Finset (Fin 32000)).fold max ⊥ (Cert.Spec.logit X W b t))
        - Ideal.log (∑ v' : Fin 32000,
            Ideal.exp (Cert.Spec.logit X W b t v' - (Finset.univ : Finset (Fin 32000)).fold max ⊥ (Cert.Spec.logit X W b t))) := by
  have hlg : (fun v' : Fin 32000 => logits (F := Ideal) X W (ix3 b t v')) = Cert.Spec.logit X W b t :=
    funext fun v' => logits_apply X W b t v'
  rw [logps_eq]
  refine (subf_apply _ _ _).trans ?_
  rw [broadcast_ab1_abc_apply, logsum_apply]
  simp only [shifted_apply, rowmax_apply, hlg, logits_apply]

end Ideal

/-- THE REFERENCE'S VALUE PER TOKEN: for a label inside the vocabulary, the picked log-softmax entry is the logit at the
    label less the row's maximum, less the logarithm of the row's sum of exponentials. -/
theorem gathered_logps (X : FVec Ideal S4x1024x2048 .f32) (Y : IVec S4x1024 32) (W : FVec Ideal S32000x2048 .f32)
    (hX : ∀ i, ∃ x : ℝ, X i = (x : EReal)) (hW : ∀ i, ∃ x : ℝ, W i = (x : EReal)) (b : Fin 4) (t : Fin 1024)
    (hy : (Y (ix2 b t)).toNat < 32000) :
    gathered (F := Ideal) (logps X W) Y (ix2 b t)
      = (Cert.Spec.logit X W b t ⟨(Y (ix2 b t)).toNat, hy⟩ - Cert.Spec.rowMax (Cert.Spec.logit X W b t) 32000)
        - Ideal.log (Cert.Spec.rowSumExp (Cert.Spec.logit X W b t) 32000) := by
  rw [gathered_apply (logps X W) Y b t hy, logps_apply, Cert.Spec.rowSumExp_full, Cert.Spec.rowMax_full]

end Cert.ReferenceIdeal.Val

end
-- ==== Proof.PreFacts.lean ====
/-
  What the precondition says, entry by entry: every entry of the two float inputs is a real number, and every label is
  either a class number below 32000 or the ignore value -100 (as a 32-bit word, 4294967196).
-/
import proofs.«406065_j77429670412358_2_alg».proof.Pre_finite_inputs
import proofs.«406065_j77429670412358_2_alg».proof.Proof.Gen.Pre_finite_inputs
import Idealize.ShloMosaic.Lib.ReduceAll
import Idealize.ShloMosaic.Lib.StableHlo.Predicate
import Idealize.ShloMosaic.Lib.ValueIdx

noncomputable section

namespace Cert.PreFacts

open Idealize.ShloMosaic Cert.Pre_finite_inputs

variable [Cert.Pre_finite_inputs.Facts]

/-- The scalar shape has one index. -/
instance subsingleton_scalar_idx : Subsingleton S_.Idx := ⟨fun a b => funext fun d => d.elim0⟩

/-- An extended real whose absolute value max x (-x) lies strictly below +inf (the word 0x7F800000) is a real number. -/
theorem real_of_abs_lt_inf (x : Ideal .f32)
    (hx : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at hx
  rw [htop] at hx
  unfold Ideal.cmp at hx
  have hlt : max (x : EReal) (-(x : EReal)) < ⊤ := by
    simpa [StableHlo.Predicate.ofBool_eq_one_iff] using hx
  rw [max_lt_iff] at hlt
  induction x using EReal.rec with
  | bot => simp at hlt
  | coe r => exact ⟨r, rfl⟩
  | top => simp at hlt

/-- A 32-bit word that, read signed, lies in [0, 32000) or equals -100: as an unsigned value it is below 32000, or it is
    the word 4294967196. -/
theorem label_of_word (y : BitVec 32)
    (hy : IntOp.ori (IntOp.andi (IntOp.cmpi .sge y 0#32) (IntOp.cmpi .slt y 32000#32)) (IntOp.cmpi .eq y 4294967196#32)
      = 1#1) :
    y.toNat < 32000 ∨ y = 4294967196#32 := by
  rcases IntOp.ori_eq_one.1 hy with h | h
  · left
    obtain ⟨h1, h2⟩ := IntOp.andi_eq_one.1 h
    simp only [IntOp.cmpi, StableHlo.Predicate.ofBool_eq_one_iff] at h1 h2
    rw [BitVec.sle_iff_toInt_le] at h1
    rw [BitVec.slt_iff_toInt_lt] at h2
    have e0 : (0#32 : BitVec 32).toInt = 0 := by decide
    have e1 : (32000#32 : BitVec 32).toInt = 32000 := by decide
    rw [e0] at h1
    rw [e1] at h2
    rw [BitVec.toInt_eq_toNat_cond] at h1 h2
    split at h1 <;> omega
  · right
    exact StableHlo.Predicate.cmpi_eq_iff.1 h

theorem of_pre (X : FVec Ideal S4x1024x2048 .f32) (Y : IVec S4x1024 32) (W : FVec Ideal S32000x2048 .f32)
    (h : Cert.Pre_finite_inputs.fn (F := Ideal) X Y W = fun _ => 1#1) :
    (∀ i, ∃ r : ℝ, X i = (r : EReal)) ∧ (∀ i, ∃ r : ℝ, W i = (r : EReal))
      ∧ (∀ i, (Y i).toNat < 32000 ∨ Y i = 4294967196#32) := by
  have h0 := congrFun h ValueIdx.ix0
  dsimp only [Cert.Pre_finite_inputs.fn, Cert.Pre_finite_inputs.fn_part1] at h0
  obtain ⟨h12, h3⟩ := IntOp.andi_eq_one.1 h0
  obtain ⟨h1, h2⟩ := IntOp.andi_eq_one.1 h12
  refine ⟨fun i => ?_, fun i => ?_, fun i => ?_⟩
  · exact real_of_abs_lt_inf (X i) (Host.reduce_andi_all _ _ _ _ _ h1 i)
  · exact real_of_abs_lt_inf (W i) (Host.reduce_andi_all _ _ _ _ _ h2 i)
  · exact label_of_word (Y i) (Host.reduce_andi_all _ _ _ _ _ h3 i)

end Cert.PreFacts

end
-- ==== Proof.Bridge.lean ====
/-
  The two ways of averaging agree at the ideal values. Per row, both numerators are the sum of the per-token values
  times the 0/1 mask, so they agree as soon as the two per-token arrays agree where the label is not the ignore value
  (elsewhere the mask is `0` and `x * 0 = 0` for every extended real `x`). The denominators are `max (∑ mask) 1` taken in
  floats, and the 32-bit integer `max (∑ mask) 1` converted: the integer sum of at most 1024 zeros and ones does not wrap,
  so both are the same natural number.
-/
import proofs.«406065_j77429670412358_2_alg».proof.Proof.Tail
import Idealize.ShloMosaic.PureOps.Ideal.Laws
import Idealize.ShloMosaic.Lib.ValueIdx
import Idealize.ShloMosaic.Lib.StableHlo.Predicate

noncomputable section

open scoped BigOperators

namespace Cert.Tail

open Idealize.ShloMosaic Idealize.ShloMosaic.ValueIdx

namespace Bridge

/-- The word 0x3F800000 is the number one. -/
theorem ofBits_one_f32 : Ideal.ofBits .f32 0x3F800000#32 = 1 := by
  simp [Ideal.ofBits, Ideal.ieee, -EReal.coe_mul]; norm_num

/-- The float mask at a token: the one-bit word "the label is not -100", read as a number. -/
theorem maskF_apply (e : EvSeq) (Y : IVec S4x1024 32) (i : S4x1024.Idx) :
    maskF (F := Ideal) e Y i = (((IntOp.cmpi .ne (Y i) 4294967196#32).toNat : ℝ) : EReal) := rfl

/-- A natural-number sum, coerced to an extended real, is the sum of the coerced terms. -/
theorem coe_nat_sum {ι : Type} (S : Finset ι) (f : ι → ℕ) :
    ∑ i ∈ S, (((f i : ℕ) : ℝ) : EReal) = (((∑ i ∈ S, f i : ℕ) : ℝ) : EReal) := by
  classical
  induction S using Finset.induction_on with
  | empty => simp
  | insert a S ha ih =>
    rw [Finset.sum_insert ha, Finset.sum_insert ha, ih, Nat.cast_add, EReal.coe_add]

/-- The signed maximum of a small word with one, as an integer. -/
theorem toInt_maxsi_one (w : BitVec 32) (hw : w.toNat < 2 ^ 31) :
    (IntOp.maxsi w 1#32).toInt = max (w.toNat : ℤ) 1 := by
  have hti : w.toInt = w.toNat := StableHlo.Predicate.toInt_eq_toNat_of_lt hw
  have h1 : (1#32 : BitVec 32).toInt = 1 := by decide
  unfold IntOp.maxsi
  split <;> rename_i hc <;> simp only [BitVec.slt, hti, h1, decide_eq_true_eq] at hc
  · rw [hti]; omega
  · rw [h1]; omega

/-- The two denominators at a row: the float `max (0 + ∑ mask) 1` and the converted integer `max (∑ mask) 1` are the
    same number, the sum having at most 4096 terms that are 0 or 1. -/
theorem den_eq (e : EvSeq) (h132 : 1 < 32) (Y : IVec S4x1024 32) (j : S4.Idx) :
    max (Ideal.hostReduceAdd e.reducesTo_S4x1024_S4_d1 (maskF (F := Ideal) e Y) (Ideal.ofBits .f32 0x00000000#32) j)
        (Ideal.ofBits .f32 0x3F800000#32)
      = (((IntOp.maxsi (Host.reduce IntOp.addi
            (extui 32 (cmpi .ne Y (broadcastInDim S4x1024 ![] e.bcast_S_S4x1024 (constantI S_ 32 4294967196#32))) h132)
            (constantI S_ 32 0#32) e.reducesTo_S4x1024_S4_d1 e.h_S_ j) 1#32).toInt : ℝ) : EReal) := by
  classical
  -- the rows' tokens, the mask bit, and the count
  let S : Finset S4x1024.Idx := Finset.univ.filter fun i => e.reducesTo_S4x1024_S4_d1.drop i = j
  let m : S4x1024.Idx → BitVec 1 := fun i => IntOp.cmpi .ne (Y i) 4294967196#32
  let N : ℕ := ∑ i ∈ S, (m i).toNat
  have hbit : ∀ i, (m i).toNat ≤ 1 := fun i => by have := (m i).isLt; omega
  have hN : N ≤ 4096 := by
    calc N ≤ ∑ _i ∈ S, 1 := Finset.sum_le_sum fun i _ => hbit i
      _ = S.card := (Finset.card_eq_sum_ones S).symm
      _ ≤ Fintype.card S4x1024.Idx := Finset.card_le_univ S
      _ = 4096 := by rw [Shape.card_idx]; decide
  -- the integer sum is the count
  have hwide : ∀ i, (extui 32 (cmpi .ne Y (broadcastInDim S4x1024 ![] e.bcast_S_S4x1024 (constantI S_ 32 4294967196#32)))
      h132 i).toNat = (m i).toNat := fun i => by
    show ((m i).setWidth 32).toNat = (m i).toNat
    rw [BitVec.toNat_setWidth]
    exact Nat.mod_eq_of_lt (by have := (m i).isLt; omega)
  have hint : (Host.reduce IntOp.addi
      (extui 32 (cmpi .ne Y (broadcastInDim S4x1024 ![] e.bcast_S_S4x1024 (constantI S_ 32 4294967196#32))) h132)
      (constantI S_ 32 0#32) e.reducesTo_S4x1024_S4_d1 e.h_S_ j).toNat = N := by
    rw [Host.reduce_eq_fold]
    show (Finset.fold IntOp.addi 0#32 _ S).toNat = N
    have hsum : ∑ i ∈ S, (extui 32 (cmpi .ne Y (broadcastInDim S4x1024 ![] e.bcast_S_S4x1024
        (constantI S_ 32 4294967196#32))) h132 i).toNat = N := Finset.sum_congr rfl fun i _ => hwide i
    rw [StableHlo.Predicate.toNat_fold_addi _ _ (by rw [hsum]; omega), hsum]
  -- the float sum is the count
  have hflt : Ideal.hostReduceAdd e.reducesTo_S4x1024_S4_d1 (maskF (F := Ideal) e Y) (Ideal.ofBits .f32 0x00000000#32) j
      = ((N : ℝ) : EReal) := by
    show Ideal.ofBits .f32 0x00000000#32 + ∑ i ∈ S, maskF (F := Ideal) e Y i = _
    rw [Ideal.ofBits_zero_f32, zero_add]
    exact coe_nat_sum S fun i => (m i).toNat
  rw [hflt, ofBits_one_f32, toInt_maxsi_one _ (by rw [hint]; omega), hint]
  have hc : (((max (N : ℤ) 1 : ℤ) : ℝ)) = max (N : ℝ) 1 := by push_cast; rfl
  rw [hc]
  rcases le_total (N : ℝ) 1 with hle | hle
  · rw [max_eq_right hle, max_eq_right (by rw [← EReal.coe_one]; exact EReal.coe_le_coe_iff.2 hle), EReal.coe_one]
  · rw [max_eq_left hle, max_eq_left (by rw [← EReal.coe_one]; exact EReal.coe_le_coe_iff.2 hle)]

end Bridge

theorem seqF_eq_seqI (e : EvSeq) (h132 : 1 < 32) (tokA tokB : FVec Ideal S4x1024 .f32) (Y : IVec S4x1024 32)
    (h : ∀ i, Y i ≠ 4294967196#32 → tokA i = tokB i) :
    seqF (F := Ideal) e tokA Y = seqI (F := Ideal) e h132 tokB Y := by
  -- the numerators' summands agree: off the ignore label by hypothesis, on it both are x * 0
  have hnum : mulf tokA (maskF (F := Ideal) e Y) = mulf tokB (maskF (F := Ideal) e Y) := by
    funext i
    show tokA i * maskF (F := Ideal) e Y i = tokB i * maskF (F := Ideal) e Y i
    by_cases hy : Y i = 4294967196#32
    · have hm : maskF (F := Ideal) e Y i = 0 := by
        rw [Bridge.maskF_apply, hy]
        simp [IntOp.cmpi]
      rw [hm, mul_zero, mul_zero]
    · rw [h i hy]
  funext j
  unfold seqF seqI
  rw [hnum]
  show Ideal.div _ _ = Ideal.div _ _
  congr 1
  exact Bridge.den_eq e h132 Y j

end Cert.Tail

end
-- ==== Proof.Algebraic.lean ====
/-
  The two idealized programs end with equal results.

  Per token whose label is not the ignore value the label is a class number `y < 32000` (the precondition), the
  streaming program's picked logit over the whole row is the logit at `y`, and `a y - (m + log l) = (a y - m) - log l`
  because every logit is a real number: that is the entry the two-pass program gathers from its log-softmax. Tokens with
  the ignore label are multiplied by a zero mask in both programs, so the row averages agree, and from the averages on
  the two programs apply the same operations.
-/
import proofs.«406065_j77429670412358_2_alg».proof.Defs
import proofs.«406065_j77429670412358_2_alg».proof.Proof.Gen.KernelIdeal
import proofs.«406065_j77429670412358_2_alg».proof.Proof.Gen.ReferenceIdeal
import proofs.«406065_j77429670412358_2_alg».proof.Proof.Gen.Pre_finite_inputs
import proofs.«406065_j77429670412358_2_alg».proof.Proof.KernelVal
import proofs.«406065_j77429670412358_2_alg».proof.Proof.RefRun
import proofs.«406065_j77429670412358_2_alg».proof.Proof.RefVal
import proofs.«406065_j77429670412358_2_alg».proof.Proof.PreFacts
import proofs.«406065_j77429670412358_2_alg».proof.Proof.Bridge
import proofs.«406065_j77429670412358_2_alg».proof.Proof.Spec

noncomputable section

namespace Cert.Proof.Alg

open Idealize.ShloMosaic Idealize.ShloMosaic.ValueIdx Idealize.SL.Sem

/-- At a token whose label is a class number the fused value is the gathered log-softmax entry. -/
theorem tok_eq (X : FVec Ideal Cert.ReferenceIdeal.S4x1024x2048 .f32) (Y : IVec Cert.ReferenceIdeal.S4x1024 32)
    (W : FVec Ideal Cert.ReferenceIdeal.S32000x2048 .f32)
    (hX : ∀ i, ∃ x : ℝ, X i = (x : EReal)) (hW : ∀ i, ∃ x : ℝ, W i = (x : EReal))
    (i : Cert.ReferenceIdeal.S4x1024.Idx) (hy : (Y i).toNat < 32000) :
    Cert.Spec.tokFused X W Y i = Cert.ReferenceIdeal.Val.gathered (F := Ideal) (Cert.ReferenceIdeal.Val.logps X W) Y i := by
  obtain ⟨b, t, rfl⟩ : ∃ (b : Fin 4) (t : Fin 1024), i = ix2 b t := ⟨i 0, i 1, eq_ix2 i⟩
  rw [Cert.ReferenceIdeal.Val.gathered_logps X Y W hX hW b t hy]
  unfold Cert.Spec.tokFused
  show Cert.Spec.rowPick (Cert.Spec.logit X W b t) (Y (ix2 b t)) 32000
      - (Cert.Spec.rowMax (Cert.Spec.logit X W b t) 32000 + Ideal.log (Cert.Spec.rowSumExp (Cert.Spec.logit X W b t) 32000)) = _
  rw [Cert.Spec.rowPick_full (Cert.Spec.logit X W b t) (by norm_num) (Y (ix2 b t)) hy]
  exact Cert.Spec.fused_eq_two_pass (Cert.Spec.logit X W b t)
    (fun v => Cert.Spec.logit_real X W hX hW b t v) (by norm_num) _

theorem algebraic : Cert.algebraic_KernelIdeal_ReferenceIdeal := by
  intro m ρ m' ρ' hpre hagree
  have hp := fun c => Cert.PreFacts.of_pre _ _ _ (hpre c)
  refine ⟨_, Cert.KernelIdeal.Val.run m ρ (fun c => (hp c).1) (fun c => (hp c).2.1), ?_⟩
  refine (θ_run (Cert.ReferenceIdeal.defs (F := Ideal)) _ _).mono (fun r h c => ⟨(h c).1.trans ?_, (h c).2⟩)
    (Cert.ReferenceIdeal.Val.run m' ρ')
  rw [(hagree c).1, (hagree c).2.1, (hagree c).2.2]
  refine congrArg (Cert.Tail.lossOf (F := Ideal) _) ?_
  refine (Cert.Tail.seqF_eq_seqI _ _ _ _ _ fun i hi => ?_).symm
  exact tok_eq _ _ _ (hp c).1 (hp c).2.1 i (((hp c).2.2 i).resolve_right hi)

end Cert.Proof.Alg

end
-- ==== Proof.lean ====
/-
  A fused language-model-head loss: per token the log-probability of its label under the softmax of the logits
  `x · Wᵀ` over 32000 classes, averaged per row over the tokens whose label is not the ignore value, the four row
  averages combined into one scalar. One program streams the vocabulary in 25 chunks of 1280 columns per tile of 256
  tokens and keeps a running maximum, a running sum of exponentials rescaled to it and the picked logit; the other forms
  all logits, takes the log-softmax in two passes and gathers the entry at the label. Under the precondition — real
  inputs, labels that are class numbers or the ignore value — the two end with equal results as extended reals:
  `t - (m + log l) = (a y - m) - log l` for real logits, the ignored tokens multiplied by zero on both sides, and the
  integer count of the kept tokens equal to the float one (`Proof/Algebraic.lean`).
  The two kernel programs' frames are the generated ones; the host program's frame is its run with the result dropped;
  the idealization rewrote nothing.
-/
import proofs.«406065_j77429670412358_2_alg».proof.Defs
import proofs.«406065_j77429670412358_2_alg».proof.Proof.Gen.Kernel
import proofs.«406065_j77429670412358_2_alg».proof.Proof.Gen.Kernel.Frame
import proofs.«406065_j77429670412358_2_alg».proof.Proof.Gen.KernelIdeal
import proofs.«406065_j77429670412358_2_alg».proof.Proof.Gen.KernelIdeal.Frame
import proofs.«406065_j77429670412358_2_alg».proof.Proof.Gen.ReferenceIdeal
import proofs.«406065_j77429670412358_2_alg».proof.Proof.Gen.Pre_finite_inputs
import proofs.«406065_j77429670412358_2_alg».proof.Proof.RefRun
import proofs.«406065_j77429670412358_2_alg».proof.Proof.Algebraic
import Idealize.ShloMosaic.Adequacy
import Idealize.ShloMosaic.Init

noncomputable section

namespace Cert.Proof

open Idealize.ShloMosaic Idealize.SL.Sem

theorem frame_reference : Cert.frame_ReferenceIdeal := fun m ρ _ =>
  (θ_run (Cert.ReferenceIdeal.defs (F := Ideal)) _ _).mono (fun _ h c => (h c).2) (Cert.ReferenceIdeal.Val.run m ρ)

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    Cert.Proof.Alg.algebraic⟩

end Cert.Proof

end
